-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg1 : FVec F S4096x4096 .f32) (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_cst_14 : FVec F S_ .f32 := constant S_ .f32 0x00000000#32
  let main_v39 : FVec F S4096x4096 .f32 := broadcastInDim S4096x4096 ![] bcast_S_S4096x4096 main_cst_14
  let main_v40 : IVec S4096x4096 1 := cmpf .oeq main_arg1 main_v39
  let main_cst_15 : FVec F S_ .f32 := constant S_ .f32 0x3F800000#32
  let main_v41 : FVec F S4096x4096 .f32 := broadcastInDim S4096x4096 ![] bcast_S_S4096x4096 main_cst_15
  let main_v42 : IVec S4096x4096 1 := cmpf .oeq main_arg1 main_v41
  let main_v43 : IVec S4096x4096 1 := ori main_v40 main_v42
  let main_c_16 : IVec S_ 1 := constantI S_ 1 1#1
  let main_v44 : IVec S_ 1 := (fun x v => Host.reduce IntOp.andi x v reducesTo_S4096x4096_S_d0_1 h_S_) main_v43 main_c_16
  let main_v45 : IVec S_ 1 := andi main_v38 main_v44
  main_v45

def fn_part1 {F : FTy → Type} [FloatOps F] (main_arg1 : FVec F S4096x4096 .f32) (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg1 main_arg7 main_v33

def fn {F : FTy → Type} [FloatOps F] (main_arg0 : FVec F S4096x1024 .f32) (main_arg1 : FVec F S4096x4096 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg4 main_arg5 main_arg6 main_arg7 main_v13 main_v16
-- ==== Kernel.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S_ : Shape := ⟨0, ![]⟩
abbrev S512x1024 : Shape := ⟨2, ![512, 1024]⟩
abbrev S1x1024 : Shape := ⟨2, ![1, 1024]⟩
abbrev S512x512 : Shape := ⟨2, ![512, 512]⟩
abbrev S512x1 : Shape := ⟨2, ![512, 1]⟩
abbrev S1024x512 : Shape := ⟨2, ![1024, 512]⟩
abbrev S512 : Shape := ⟨1, ![512]⟩

abbrev nBuf : Space → Nat
  | .hbm => 23
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024, .f32⟩
  | .local _ .vmem, ⟨14, _⟩ => ⟨S4096x1024, .bf16⟩
  | .local _ .vmem, ⟨15, _⟩ => ⟨S4096x1024, .bf16⟩
  | .local _ .vmem, ⟨16, _⟩ => ⟨S512x512, .f32⟩
  | .local _ .vmem, ⟨17, _⟩ => ⟨S512x512, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1, .f32⟩
  | .local _ .vmem, ⟨22, _⟩ => ⟨S512x1, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v4 : BitVec 32 := Scalar.muli arg1 c512_i32
  v4
def k1_off1 (i : grid1.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_2 : Index := 0#32
  ![v6.toNat, 0]
def k1_cond2 (i : grid1.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_24 : BitVec 32 := 0#32
  let v53 : BitVec 1 := Scalar.cmpi .ne v52 c0_i32_24
  v53

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  transposes_S1024x1024_S1024x1024_1_0 : S1024x1024.Transposes [1, 0] S1024x1024
  bcast_S_S1024x1024 : S_.BroadcastsInDim S1024x1024 (![] : Fin 0 → Fin S1024x1024.rank)
  bitsLt_bf16_f32 : FTy.bits .bf16 < FTy.bits .f32
  bcast_S_S1024 : S_.BroadcastsInDim S1024 (![] : Fin 0 → Fin S1024.rank)
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  shapeCasts_S1024_S1024 : S1024.ShapeCasts S1024
  inb_S512x512_S512x512_0_0 : ∀ a, (![0, 0] : Fin 2 → Nat) a + S512x512.size a ≤ S512x512.size a
  h_S512x512 : 0 < S512x512.numel
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S512x1024.size a ≤ S4096x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x1024.size a ≤ S4096x1024.size a
  hwx1_4 : ∀ i : grid1.Coords, EltTy.bits .bf16 = 32 ∨ (Rect.block (s := S4096x1024) S4096x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x4096.size a
  hwx1_5 : ∀ i : grid1.Coords, EltTy.bits .f32 = 32 ∨ (Rect.block (s := S4096x4096) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S4096x1024.size a
  hwx1_6 : ∀ i : grid1.Coords, EltTy.bits .f32 = 32 ∨ (Rect.block (s := S4096x1024) S512x1024.size (cc1_transform_6 i) (hinb1_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S4096x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S512x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S1024x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x4096, .f32⟩
  | .hbm, ⟨48, _⟩ => ⟨S4096x4096, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_call0_v0 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_cst : Ref sig .tc := ⟨.hbm, 50, rfl⟩
abbrev main_call1_v0 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.BitsProjection.lean ====
/-
  The projection region (the first pallas_call): one grid axis of 8 points; point t reads rows
  [512 t, 512 t + 512) of the sentence embeddings and the two whole weight matrices and bias vectors, and
  leaves in its two output blocks the key rows and the value rows of those sentences,
  x · Wkᵀ + bk and x · Wvᵀ + bv. Stated at the contents `V` the region is entered from and for any
  float instance: what a point's blocks are, what the body leaves in each output buffer (one store
  covering the block), the body's triple, and the pipeline's proof data with its obligation.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses: every load and store is of a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- The key block a point leaves: its one store, of the bias-added product of the point's rows with the key weights. -/
def keyOut (x : Vec F S512x1024 .f32) (w : Vec F S1024x1024 .bf16) (b : Vec F S1024 .f32) : Vec F S512x1024 .bf16 :=
  View.canon [⟨rX, k0_pay2 (View.ld x rX) (View.ld w rW) (View.ld b rB)⟩]

/-- The value block a point leaves, likewise with the value weights. -/
def valOut (x : Vec F S512x1024 .f32) (w : Vec F S1024x1024 .bf16) (b : Vec F S1024 .f32) : Vec F S512x1024 .bf16 :=
  View.canon [⟨rX, k0_pay3 (View.ld x rX) (View.ld w rW) (View.ld b rB)⟩]

/-- One store of the whole block covers it. -/
theorem cover_whole (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 1000000 in
/-- The body on whole staging memrefs: the five inputs come back as they were, the two outputs hold the key and value blocks. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 : Vec F S1024x1024 .bf16) (x2 : Vec F S1024 .f32) (x3 : Vec F S1024x1024 .bf16) (x4 : Vec F S1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (keyOut x0 x1 x2) ∗ owns (c : Thread nD τ) arg7 fullShare (valOut x0 x3 x4)) -∗ K ⟨⟩))
      ⊢ wp frame (wpE (defs₀ (F := F)) Variants.none c none) E (cc0__kv_proj_kernel i arg1 harg1 arg2 harg2 arg3 harg3 arg4 harg4 arg5 harg5 arg6 harg6 arg7 harg7) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole _)
  iexists _; isplitr
  swap; · iexact H6
  ipureintro
  exact View.read_writes_eq_canon _ _ _ (cover_whole _)

section
variable (V : (c : Dev nD) → (b : Ref sig .tc) → Buf (Elt F) ((c : Thread nD τ).loc b))

/-- The proof data of the projection pipeline on core `c`: the arrays as the region finds them; after the body at
    point `t` each input's buffer at its block, the two outputs at the key and value blocks of the point's rows;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => keyOut (iblk0 V c 0 t) (iblk0 V c 1 t) (iblk0 V c 2 t)
    | ⟨6, _⟩ => valOut (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = keyOut (iblk0 V c 0 t) (iblk0 V c 1 t) (iblk0 V c 2 t) := by dsimp only [dat0]
theorem after0_6 (c : Dev nD) (t : Fin cfg0.N) : (dat0 V c).after 6 t = valOut (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Proj

end
-- ==== Proof.BitsAttentionShared.lean ====
/-
  The attention region (the second pallas_call): a grid of 8 query tiles by 8 key tiles, point t = 8·qi + ki. What
  its three control cases share: a point's blocks; the two branch conditions of the body decided over the grid
  (the reset and query projection at ki = 0, the normalisation and output store at ki = 7); where the output
  window is idle; the staging and scratch memrefs the body is called on; and the region's invariant with the four
  scratch buffers (projected queries, running row maximum, running denominator, running numerator) spelled out.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, over the grid -/

/-- The first branch (reset the running statistics and project the queries) is taken when the key-tile coordinate is 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- The second branch (normalise and store the output block) is taken when the key-tile coordinate is 7. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
/-- Away from ki = 7 the body stores nothing into the output window and the pipeline does not write it back. -/
theorem idle1_6 : ∀ t : Fin cfg1.N, ¬isLast (grid1.coords t) → cfg1.idle 6 (grid1.coords t) = true := by decide +kernel
theorem noFlush1_6 : ∀ t : Fin cfg1.N, ¬isLast (grid1.coords t) → (cfg1.win 6).flush t = false := by decide +kernel
/-- At ki = 7 it stores the whole block. -/
theorem live1_6 : ∀ t : Fin cfg1.N, isLast (grid1.coords t) → cfg1.idle 6 (grid1.coords t) = false := by decide +kernel

/-! ## The memrefs the body is called on -/

abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S4096x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S4096x1024 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1024 .f32 := win1_6.stage (cfg1.slots t 6)
abbrev hs6 (t : Fin cfg1.N) : (ms6 t).IsWhole := hstage1_6 ((cfg1.slots t 6).cast nbuf1_6)
/-- One staging buffer of the output window, through which its contents are stated. -/
abbrev VOut : View sig .tc .vmem S512x1024 .f32 := (Memref.whole cc1_stg6_0 : Memref sig .tc .vmem S512x1024 .f32).view
abbrev scr0 : Memref sig .tc .vmem S512x1024 .bf16 := Memref.whole cc1_scratch0
abbrev VScr0 : View sig .tc .vmem S512x1024 .bf16 := scr0.view
abbrev scr1 : Memref sig .tc .vmem S512x1 .f32 := Memref.whole cc1_scratch1
abbrev VScr1 : View sig .tc .vmem S512x1 .f32 := scr1.view
abbrev scr2 : Memref sig .tc .vmem S512x1 .f32 := Memref.whole cc1_scratch2
abbrev VScr2 : View sig .tc .vmem S512x1 .f32 := scr2.view
abbrev scr3 : Memref sig .tc .vmem S512x1024 .f32 := Memref.whole cc1_scratch3
abbrev VScr3 : View sig .tc .vmem S512x1024 .f32 := scr3.view

/-- The region's invariant spelled out: the other call's staging buffers at some contents (the body never names them),
    the four scratch buffers as memrefs owned at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
          ∗ (∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)) ∗ (∃ r, prngReg c r)) := by
  unfold Pipeline.ΦA; rw [scopedRest1_eq]; simp only [scr0, scr1, scr2, scr3, owns_whole]; try rfl

end Cert.Kernel.Attn

end
-- ==== Proof.BitsAttentionFirst.lean ====
/-
  The attention body in the case ki = 0 (the statistics are reset and the queries projected, then the tile is folded in; no output store): on whole staging and scratch memrefs the body runs to its continuation,
  the six inputs handed back as they were; what its stores leave in each buffer it writes is a list of pieces
  (last store first), found by running the body.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import proofs.«410202_j60206851555563_3_alg».proof.Proof.BitsAttentionShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- ki = 0. The output buffer is idle (handed back untouched); the four scratch buffers may hold anything on entry and
    end with their pieces written. -/
noncomputable def runFirst (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S512x512 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : isFirst i) (hc1 : ¬isLast i)
    (x0 : Vec F S512x1024 .f32) (x1 : Vec F S1024x1024 .bf16) (x2 : Vec F S1024 .f32) (x3 : Vec F S4096x1024 .bf16) (x4 : Vec F S4096x1024 .bf16) (x5 : Vec F S512x512 .f32) :
    Σ' (LS0 : List (View.Piece (Elt F) S512x1024 .bf16)) (LS1 : List (View.Piece (Elt F) S512x1 .f32)) (LS2 : List (View.Piece (Elt F) S512x1 .f32)), { LS3 : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__lambda_ i arg2 harg2 arg3 harg3 arg4 harg4 arg5 harg5 arg6 harg6 arg7 harg7 arg8 harg8 arg9 harg9 arg10 harg10 arg11 harg11 arg12 harg12) K } := by
  refine ⟨?_, ?_, ?_, ?_, fun xi6 E K => ?run⟩
  case run =>
    simp only [cc1__lambda__eq_skeleton]; unfold cc1__lambda__skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Attn

end
-- ==== Proof.BitsAttentionMiddle.lean ====
/-
  The attention body in the case 0 < ki < 7 (the tile is folded into the running statistics; no output store): on whole staging and scratch memrefs the body runs to its continuation,
  the six inputs handed back as they were; what its stores leave in each buffer it writes is a list of pieces
  (last store first), found by running the body.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import proofs.«410202_j60206851555563_3_alg».proof.Proof.BitsAttentionFirst
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- 0 < ki < 7. The output buffer is idle; the projected queries are read and handed back; the three running statistics
    enter at what the point before left and end with their pieces written. -/
noncomputable def runMiddle (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S512x512 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬isFirst i) (hc1 : ¬isLast i)
    (x0 : Vec F S512x1024 .f32) (x1 : Vec F S1024x1024 .bf16) (x2 : Vec F S1024 .f32) (x3 : Vec F S4096x1024 .bf16) (x4 : Vec F S4096x1024 .bf16) (x5 : Vec F S512x512 .f32)
    (xs0 : Vec F S512x1024 .bf16) (xs1 : Vec F S512x1 .f32) (xs2 : Vec F S512x1 .f32) (xs3 : Vec F S512x1024 .f32) :
    Σ' (LS1 : List (View.Piece (Elt F) S512x1 .f32)) (LS2 : List (View.Piece (Elt F) S512x1 .f32)), { LS3 : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__lambda_ i arg2 harg2 arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc1__lambda__eq_skeleton]; unfold cc1__lambda__skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    isplitl [HS2]; · iexists _; iexact HS2
    iexists _; iexact HS3

end Cert.Kernel.Attn

end
-- ==== Proof.BitsAttentionLast.lean ====
/-
  The attention body in the case ki = 7 (the tile is folded in, then the numerator is divided by the denominator, clamped at zero and stored): on whole staging and scratch memrefs the body runs to its continuation,
  the six inputs handed back as they were; what its stores leave in each buffer it writes is a list of pieces
  (last store first), found by running the body.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import proofs.«410202_j60206851555563_3_alg».proof.Proof.BitsAttentionMiddle
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- ki = 7. As for 0 < ki < 7, and the output buffer, at anything on entry, ends with its pieces written. -/
noncomputable def runLast (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S512x512 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬isFirst i) (hc1 : isLast i)
    (x0 : Vec F S512x1024 .f32) (x1 : Vec F S1024x1024 .bf16) (x2 : Vec F S1024 .f32) (x3 : Vec F S4096x1024 .bf16) (x4 : Vec F S4096x1024 .bf16) (x5 : Vec F S512x512 .f32)
    (xs0 : Vec F S512x1024 .bf16) (xs1 : Vec F S512x1 .f32) (xs2 : Vec F S512x1 .f32) (xs3 : Vec F S512x1024 .f32) :
    Σ' (L6 : List (View.Piece (Elt F) S512x1024 .f32)) (LS1 : List (View.Piece (Elt F) S512x1 .f32)) (LS2 : List (View.Piece (Elt F) S512x1 .f32)), { LS3 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__lambda_ i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__lambda__eq_skeleton]; unfold cc1__lambda__skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]; · iexists _; iexact HS1
    isplitl [HS2]; · iexists _; iexact HS2
    iexists _; iexact HS3

end Cert.Kernel.Attn

end
-- ==== Proof.BitsAttentionPoints.lean ====
/-
  The attention region point by point. What the four scratch buffers and the output buffer hold after each grid
  point is a recursion on the point: at ki = 0 what the reset-and-fold case leaves from the point's blocks alone, at
  later key tiles what the fold (and, at ki = 7, the normalisation) leaves over what the point before left. With it:
  the region's invariant (the scratch buffers at the point before's contents), the pipeline's proof data, and the
  body obligation, by cases on the point's key-tile coordinate.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import proofs.«410202_j60206851555563_3_alg».proof.Proof.BitsAttentionLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents carried from one point to the next: the output buffer and the four scratch buffers. -/
structure Carried (F : FTy → Type) [FloatOps F] where
  out : Vec F S512x1024 .f32
  q : Vec F S512x1024 .bf16
  mx : Vec F S512x1 .f32
  den : Vec F S512x1 .f32
  num : Vec F S512x1024 .f32

/-- The case ki = 0 at point `t`, on the memrefs the pipeline calls the body with. -/
abbrev firstAt (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :=
  runFirst (F := F) c (grid1.coords t) (ms0 t) (hs0 t) (ms1 t) (hs1 t) (ms2 t) (hs2 t) (ms3 t) (hs3 t) (ms4 t) (hs4 t) (ms5 t) (hs5 t) (ms6 t) (hs6 t) scr0 (Memref.isWhole_whole _) scr1 (Memref.isWhole_whole _) scr2 (Memref.isWhole_whole _) scr3 (Memref.isWhole_whole _) hc0 hc1 x0 x1 x2 x3 x4 x5
abbrev middleAt (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32)
    (p : Carried F) :=
  runMiddle (F := F) c (grid1.coords t) (ms0 t) (hs0 t) (ms1 t) (hs1 t) (ms2 t) (hs2 t) (ms3 t) (hs3 t) (ms4 t) (hs4 t) (ms5 t) (hs5 t) (ms6 t) (hs6 t) scr0 (Memref.isWhole_whole _) scr1 (Memref.isWhole_whole _) scr2 (Memref.isWhole_whole _) scr3 (Memref.isWhole_whole _) hc0 hc1 x0 x1 x2 x3 x4 x5 p.q p.mx p.den p.num
abbrev lastAt (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32)
    (p : Carried F) :=
  runLast (F := F) c (grid1.coords t) (ms0 t) (hs0 t) (ms1 t) (hs1 t) (ms2 t) (hs2 t) (ms3 t) (hs3 t) (ms4 t) (hs4 t) (ms5 t) (hs5 t) (ms6 t) (hs6 t) scr0 (Memref.isWhole_whole _) scr1 (Memref.isWhole_whole _) scr2 (Memref.isWhole_whole _) scr3 (Memref.isWhole_whole _) hc0 hc1 x0 x1 x2 x3 x4 x5 p.q p.mx p.den p.num

/-- Read a list of pieces back over junk: what a buffer covered by them holds. -/
abbrev readQ (L : List (View.Piece (Elt F) S512x1024 .bf16)) : Vec F S512x1024 .bf16 := VScr0.read (Elt F) (VScr0.writes (Elt F) VScr0.junk L)
abbrev readM (L : List (View.Piece (Elt F) S512x1 .f32)) : Vec F S512x1 .f32 := VScr1.read (Elt F) (VScr1.writes (Elt F) VScr1.junk L)
abbrev readL (L : List (View.Piece (Elt F) S512x1 .f32)) : Vec F S512x1 .f32 := VScr2.read (Elt F) (VScr2.writes (Elt F) VScr2.junk L)
abbrev readA (L : List (View.Piece (Elt F) S512x1024 .f32)) : Vec F S512x1024 .f32 := VScr3.read (Elt F) (VScr3.writes (Elt F) VScr3.junk L)
abbrev readO (L : List (View.Piece (Elt F) S512x1024 .f32)) : Vec F S512x1024 .f32 := VOut.read (Elt F) (VOut.writes (Elt F) VOut.junk L)

/-- What the case ki = 0 leaves (the output buffer is idle there: a placeholder nothing consults). -/
def firstOf (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) : Carried F where
  out := readO []
  q := readQ (firstAt c t hc0 hc1 x0 x1 x2 x3 x4 x5).1
  mx := readM (firstAt c t hc0 hc1 x0 x1 x2 x3 x4 x5).2.1
  den := readL (firstAt c t hc0 hc1 x0 x1 x2 x3 x4 x5).2.2.1
  num := readA (firstAt c t hc0 hc1 x0 x1 x2 x3 x4 x5).2.2.2.1

/-- What the case 0 < ki < 7 leaves over what the point before left (the queries are kept). -/
def middleOf (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) : Carried F where
  out := readO []
  q := p.q
  mx := readM (middleAt c t hc0 hc1 x0 x1 x2 x3 x4 x5 p).1
  den := readL (middleAt c t hc0 hc1 x0 x1 x2 x3 x4 x5 p).2.1
  num := readA (middleAt c t hc0 hc1 x0 x1 x2 x3 x4 x5 p).2.2.1

/-- What the case ki = 7 leaves over what the point before left. -/
def lastOf (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) : Carried F where
  out := readO (lastAt c t hc0 hc1 x0 x1 x2 x3 x4 x5 p).1
  q := p.q
  mx := readM (lastAt c t hc0 hc1 x0 x1 x2 x3 x4 x5 p).2.1
  den := readL (lastAt c t hc0 hc1 x0 x1 x2 x3 x4 x5 p).2.2.1
  num := readA (lastAt c t hc0 hc1 x0 x1 x2 x3 x4 x5 p).2.2.2.1

/-! ## Each case's pieces cover the buffer they are written into -/

theorem coverFirstQ (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (y : S512x1024.Idx) :
    ∃ pc ∈ (firstAt (F := F) c t hc0 hc1 x0 x1 x2 x3 x4 x5).1, y ∈ pc.1.set :=
  View.cover_of_tiledL _ S512x1024.size (by sl_kernel_rfl) y
theorem coverFirstM (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (y : S512x1.Idx) :
    ∃ pc ∈ (firstAt (F := F) c t hc0 hc1 x0 x1 x2 x3 x4 x5).2.1, y ∈ pc.1.set :=
  View.cover_of_tiledL _ S512x1.size (by sl_kernel_rfl) y
theorem coverFirstL (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (y : S512x1.Idx) :
    ∃ pc ∈ (firstAt (F := F) c t hc0 hc1 x0 x1 x2 x3 x4 x5).2.2.1, y ∈ pc.1.set :=
  View.cover_of_tiledL _ S512x1.size (by sl_kernel_rfl) y
theorem coverFirstA (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (y : S512x1024.Idx) :
    ∃ pc ∈ (firstAt (F := F) c t hc0 hc1 x0 x1 x2 x3 x4 x5).2.2.2.1, y ∈ pc.1.set :=
  View.cover_of_tiledL _ S512x1024.size (by sl_kernel_rfl) y

theorem coverMiddleM (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1.Idx) :
    ∃ pc ∈ (middleAt (F := F) c t hc0 hc1 x0 x1 x2 x3 x4 x5 p).1, y ∈ pc.1.set :=
  View.cover_of_tiledL _ S512x1.size (by sl_kernel_rfl) y
theorem coverMiddleL (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1.Idx) :
    ∃ pc ∈ (middleAt (F := F) c t hc0 hc1 x0 x1 x2 x3 x4 x5 p).2.1, y ∈ pc.1.set :=
  View.cover_of_tiledL _ S512x1.size (by sl_kernel_rfl) y
theorem coverMiddleA (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1024.Idx) :
    ∃ pc ∈ (middleAt (F := F) c t hc0 hc1 x0 x1 x2 x3 x4 x5 p).2.2.1, y ∈ pc.1.set :=
  View.cover_of_tiledL _ S512x1024.size (by sl_kernel_rfl) y

theorem coverLastO (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1024.Idx) :
    ∃ pc ∈ (lastAt (F := F) c t hc0 hc1 x0 x1 x2 x3 x4 x5 p).1, y ∈ pc.1.set :=
  View.cover_of_tiledL _ S512x1024.size (by sl_kernel_rfl) y
theorem coverLastM (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1.Idx) :
    ∃ pc ∈ (lastAt (F := F) c t hc0 hc1 x0 x1 x2 x3 x4 x5 p).2.1, y ∈ pc.1.set :=
  View.cover_of_tiledL _ S512x1.size (by sl_kernel_rfl) y
theorem coverLastL (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1.Idx) :
    ∃ pc ∈ (lastAt (F := F) c t hc0 hc1 x0 x1 x2 x3 x4 x5 p).2.2.1, y ∈ pc.1.set :=
  View.cover_of_tiledL _ S512x1.size (by sl_kernel_rfl) y
theorem coverLastA (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1024.Idx) :
    ∃ pc ∈ (lastAt (F := F) c t hc0 hc1 x0 x1 x2 x3 x4 x5 p).2.2.2.1, y ∈ pc.1.set :=
  View.cover_of_tiledL _ S512x1024.size (by sl_kernel_rfl) y

section
variable (V : (c : Dev nD) → (b : Ref sig .tc) → Buf (Elt F) ((c : Thread nD τ).loc b))

/-- THE RECURSION ON THE POINT: what the output buffer and the scratch buffers hold after the body at position `n`. -/
def carriedAt (c : Dev nD) : (n : ℕ) → n < cfg1.N → Carried F
  | 0, hn =>
    firstOf c ⟨0, hn⟩ ((isFirst_iff ⟨0, hn⟩).mpr (Nat.zero_mod _)) (fun h => by have h7 : 0 % 8 = 7 := (isLast_iff ⟨0, hn⟩).mp h; omega) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn =>
    if h0 : (n + 1) % 8 = 0 then
      firstOf c ⟨n + 1, hn⟩ ((isFirst_iff ⟨n + 1, hn⟩).mpr h0) (fun h => by have h7 : (n + 1) % 8 = 7 := (isLast_iff ⟨n + 1, hn⟩).mp h; omega) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
    else if h1 : (n + 1) % 8 = 7 then
      lastOf c ⟨n + 1, hn⟩ (fun h => h0 ((isFirst_iff ⟨n + 1, hn⟩).mp h)) ((isLast_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (carriedAt c n (Nat.lt_of_succ_lt hn))
    else
      middleOf c ⟨n + 1, hn⟩ (fun h => h0 ((isFirst_iff ⟨n + 1, hn⟩).mp h)) (fun h => h1 ((isLast_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (carriedAt c n (Nat.lt_of_succ_lt hn))

theorem carriedAt_first (c : Dev nD) (t : Fin cfg1.N) (h0 : t.val % 8 = 0) :
    carriedAt V c t.val t.isLt = firstOf c t ((isFirst_iff t).mpr h0) (fun h => by have := (isLast_iff t).mp h; omega) (iblk1 V c 0 t) (iblk1 V c 1 t) (iblk1 V c 2 t) (iblk1 V c 3 t) (iblk1 V c 4 t) (iblk1 V c 5 t) := by
  obtain ⟨n, hn⟩ := t
  cases n with
  | zero => rfl
  | succ n => exact (dif_pos h0).trans rfl

theorem carriedAt_middle (c : Dev nD) (t : Fin cfg1.N) (h0 : ¬t.val % 8 = 0) (h1 : ¬t.val % 8 = 7) :
    carriedAt V c t.val t.isLt = middleOf c t (fun h => h0 ((isFirst_iff t).mp h)) (fun h => h1 ((isLast_iff t).mp h)) (iblk1 V c 0 t) (iblk1 V c 1 t) (iblk1 V c 2 t) (iblk1 V c 3 t) (iblk1 V c 4 t) (iblk1 V c 5 t)
      (carriedAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem carriedAt_last (c : Dev nD) (t : Fin cfg1.N) (h0 : ¬t.val % 8 = 0) (h1 : t.val % 8 = 7) :
    carriedAt V c t.val t.isLt = lastOf c t (fun h => h0 ((isFirst_iff t).mp h)) ((isLast_iff t).mpr h1) (iblk1 V c 0 t) (iblk1 V c 1 t) (iblk1 V c 2 t) (iblk1 V c 3 t) (iblk1 V c 4 t) (iblk1 V c 5 t)
      (carriedAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region's invariant before position `n`: before the first point every scratch buffer at anything; afterwards the four
    scratch buffers at what the point before left, the other call's staging buffers at anything, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scr0 fullShare (carriedAt V c n hn).q ∗ owns (c : Thread nD τ) scr1 fullShare (carriedAt V c n hn).mx
      ∗ owns (c : Thread nD τ) scr2 fullShare (carriedAt V c n hn).den ∗ owns (c : Thread nD τ) scr3 fullShare (carriedAt V c n hn).num) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scr0 fullShare (carriedAt V c n hn).q ∗ owns (c : Thread nD τ) scr1 fullShare (carriedAt V c n hn).mx
      ∗ owns (c : Thread nD τ) scr2 fullShare (carriedAt V c n hn).den ∗ owns (c : Thread nD τ) scr3 fullShare (carriedAt V c n hn).num) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scr0 fullShare (carriedAt V c (n - 1) (by omega)).q ∗ owns (c : Thread nD τ) scr1 fullShare (carriedAt V c (n - 1) (by omega)).mx
      ∗ owns (c : Thread nD τ) scr2 fullShare (carriedAt V c (n - 1) (by omega)).den ∗ owns (c : Thread nD τ) scr3 fullShare (carriedAt V c (n - 1) (by omega)).num) ∗ (∃ r, prngReg c r)) := by
  cases n with
  | zero => exact absurd rfl hz
  | succ n => rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (carriedAt V c t.val t.isLt).out
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (carriedAt V c t.val t.isLt).out := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

end

end Cert.Kernel.Attn

end
-- ==== Proof.BitsAttentionBody.lean ====
/-
  The attention region's body obligation. At a point with ki = 0 the body is handed the scratch buffers at anything
  (or at what the previous query tile left, which it overwrites); at 0 < ki it is handed them at what the point before
  left, reads them, and hands them back at the folded statistics; at ki = 7 it also fills the output block. The
  invariant takes the four scratch buffers back at this point's contents; the other call's staging buffers, the
  generator register and the core's dues pass through untouched.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import proofs.«410202_j60206851555563_3_alg».proof.Proof.BitsAttentionPoints
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms0 t) fullShare ((dat1 V c).after 0 t) from by
    unfold Dat.leavesExact; rw [live1_0 t], after1_0]
  rw [show (dat1 V c).leavesExact 1 t = owns (c : Thread nD τ) (ms1 t) fullShare ((dat1 V c).after 1 t) from by
    unfold Dat.leavesExact; rw [live1_1 t], after1_1]
  rw [show (dat1 V c).leavesExact 2 t = owns (c : Thread nD τ) (ms2 t) fullShare ((dat1 V c).after 2 t) from by
    unfold Dat.leavesExact; rw [live1_2 t], after1_2]
  rw [show (dat1 V c).leavesExact 3 t = owns (c : Thread nD τ) (ms3 t) fullShare ((dat1 V c).after 3 t) from by
    unfold Dat.leavesExact; rw [live1_3 t], after1_3]
  rw [show (dat1 V c).leavesExact 4 t = owns (c : Thread nD τ) (ms4 t) fullShare ((dat1 V c).after 4 t) from by
    unfold Dat.leavesExact; rw [live1_4 t], after1_4]
  rw [show (dat1 V c).leavesExact 5 t = owns (c : Thread nD τ) (ms5 t) fullShare ((dat1 V c).after 5 t) from by
    unfold Dat.leavesExact; rw [live1_5 t], after1_5]
  by_cases h0 : t.val % 8 = 0
  · have hc0 : isFirst (grid1.coords t) := (isFirst_iff t).mpr h0
    have hc1 : ¬isLast (grid1.coords t) := fun h => by have := (isLast_iff t).mp h; omega
    rw [Dat.leavesExact_idle (dat1 V c) 6 t (idle1_6 t hc1) (noFlush1_6 t hc1)]
    rw [carriedAt_first V c t h0]
    unfold firstOf; (try dsimp only)
    by_cases hz : t.val = 0
    · rw [PhiS_castSucc V c t, PhiS_zero V c _ _ hz, PhiA1_eq]
      iintro ⟨⟨⟨HA0, HA1, HA2, HA3, HA4, HA5, HA6, HA7, HA8, HA9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt c t hc0 hc1 (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HA0 HA1 HA2 HA3 HA4 HA5 HA6 HA7 HA8 HA9 HS0 HS1 HS2 HS3 Hg]
      · isplitl [HA0 HA1 HA2 HA3 HA4 HA5 HA6 HA7 HA8 HA9 HS0 HS1 HS2 HS3]
        ·
          isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HS0]
          · unfold owns; iexists _; isplitr
            swap; · iexact HS0
            ipureintro; exact View.read_writes_of_cover _ _ _ _ _ (coverFirstQ c t hc0 hc1 _ _ _ _ _ _)
          isplitl [HS1]
          · unfold owns; iexists _; isplitr
            swap; · iexact HS1
            ipureintro; exact View.read_writes_of_cover _ _ _ _ _ (coverFirstM c t hc0 hc1 _ _ _ _ _ _)
          isplitl [HS2]
          · unfold owns; iexists _; isplitr
            swap; · iexact HS2
            ipureintro; exact View.read_writes_of_cover _ _ _ _ _ (coverFirstL c t hc0 hc1 _ _ _ _ _ _)
          · unfold owns; iexists _; isplitr
            swap; · iexact HS3
            ipureintro; exact View.read_writes_of_cover _ _ _ _ _ (coverFirstA c t hc0 hc1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

    · rw [PhiS_castSucc V c t, PhiS_pos V c _ _ hz]
      iintro ⟨⟨⟨HA0, HA1, HA2, HA3, HA4, HA5, HA6, HA7, HA8, HA9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt c t hc0 hc1 (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HA0 HA1 HA2 HA3 HA4 HA5 HA6 HA7 HA8 HA9 HS0 HS1 HS2 HS3 Hg]
      · isplitl [HA0 HA1 HA2 HA3 HA4 HA5 HA6 HA7 HA8 HA9 HS0 HS1 HS2 HS3]
        ·
          isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HS0]
          · unfold owns; iexists _; isplitr
            swap; · iexact HS0
            ipureintro; exact View.read_writes_of_cover _ _ _ _ _ (coverFirstQ c t hc0 hc1 _ _ _ _ _ _)
          isplitl [HS1]
          · unfold owns; iexists _; isplitr
            swap; · iexact HS1
            ipureintro; exact View.read_writes_of_cover _ _ _ _ _ (coverFirstM c t hc0 hc1 _ _ _ _ _ _)
          isplitl [HS2]
          · unfold owns; iexists _; isplitr
            swap; · iexact HS2
            ipureintro; exact View.read_writes_of_cover _ _ _ _ _ (coverFirstL c t hc0 hc1 _ _ _ _ _ _)
          · unfold owns; iexists _; isplitr
            swap; · iexact HS3
            ipureintro; exact View.read_writes_of_cover _ _ _ _ _ (coverFirstA c t hc0 hc1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

  · have hz : t.val ≠ 0 := fun h => h0 (by rw [h])
    have hc0 : ¬isFirst (grid1.coords t) := fun h => h0 ((isFirst_iff t).mp h)
    by_cases h1 : t.val % 8 = 7
    · have hc1 : isLast (grid1.coords t) := (isLast_iff t).mpr h1
      rw [show (dat1 V c).leavesExact 6 t = owns (c : Thread nD τ) (ms6 t) fullShare ((dat1 V c).after 6 t) from by
        unfold Dat.leavesExact; rw [live1_6 t hc1], after1_6]
      rw [carriedAt_last V c t h0 h1]
      unfold lastOf; (try dsimp only)
      rw [PhiS_castSucc V c t, PhiS_pos V c _ _ hz]
      iintro ⟨⟨⟨HA0, HA1, HA2, HA3, HA4, HA5, HA6, HA7, HA8, HA9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((lastAt c t hc0 hc1 (iblk1 V c 0 t) (iblk1 V c 1 t) (iblk1 V c 2 t) (iblk1 V c 3 t) (iblk1 V c 4 t) (iblk1 V c 5 t) (carriedAt V c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, HS0, ⟨%es1, HS1⟩, ⟨%es2, HS2⟩, ⟨%es3, HS3⟩⟩
      isplitl [HA0 HA1 HA2 HA3 HA4 HA5 HA6 HA7 HA8 HA9 HS0 HS1 HS2 HS3 Hg]
      · isplitl [HA0 HA1 HA2 HA3 HA4 HA5 HA6 HA7 HA8 HA9 HS0 HS1 HS2 HS3]
        ·
          isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HS0]
          · iexact HS0
          isplitl [HS1]
          · unfold owns; iexists _; isplitr
            swap; · iexact HS1
            ipureintro; exact View.read_writes_of_cover _ _ _ _ _ (coverLastM c t hc0 hc1 _ _ _ _ _ _ _)
          isplitl [HS2]
          · unfold owns; iexists _; isplitr
            swap; · iexact HS2
            ipureintro; exact View.read_writes_of_cover _ _ _ _ _ (coverLastL c t hc0 hc1 _ _ _ _ _ _ _)
          · unfold owns; iexists _; isplitr
            swap; · iexact HS3
            ipureintro; exact View.read_writes_of_cover _ _ _ _ _ (coverLastA c t hc0 hc1 _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastO c t hc0 hc1 _ _ _ _ _ _ _)

    · have hc1 : ¬isLast (grid1.coords t) := fun h => h1 ((isLast_iff t).mp h)
      rw [Dat.leavesExact_idle (dat1 V c) 6 t (idle1_6 t hc1) (noFlush1_6 t hc1)]
      rw [carriedAt_middle V c t h0 h1]
      unfold middleOf; (try dsimp only)
      rw [PhiS_castSucc V c t, PhiS_pos V c _ _ hz]
      iintro ⟨⟨⟨HA0, HA1, HA2, HA3, HA4, HA5, HA6, HA7, HA8, HA9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((middleAt c t hc0 hc1 (iblk1 V c 0 t) (iblk1 V c 1 t) (iblk1 V c 2 t) (iblk1 V c 3 t) (iblk1 V c 4 t) (iblk1 V c 5 t) (carriedAt V c (t.val - 1) (Nat.lt_of_le_of_lt (Nat.sub_le _ _) t.isLt))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, ⟨%es1, HS1⟩, ⟨%es2, HS2⟩, ⟨%es3, HS3⟩⟩
      isplitl [HA0 HA1 HA2 HA3 HA4 HA5 HA6 HA7 HA8 HA9 HS0 HS1 HS2 HS3 Hg]
      · isplitl [HA0 HA1 HA2 HA3 HA4 HA5 HA6 HA7 HA8 HA9 HS0 HS1 HS2 HS3]
        ·
          isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HS0]
          · iexact HS0
          isplitl [HS1]
          · unfold owns; iexists _; isplitr
            swap; · iexact HS1
            ipureintro; exact View.read_writes_of_cover _ _ _ _ _ (coverMiddleM c t hc0 hc1 _ _ _ _ _ _ _)
          isplitl [HS2]
          · unfold owns; iexists _; isplitr
            swap; · iexact HS2
            ipureintro; exact View.read_writes_of_cover _ _ _ _ _ (coverMiddleL c t hc0 hc1 _ _ _ _ _ _ _)
          · unfold owns; iexists _; isplitr
            swap; · iexact HS3
            ipureintro; exact View.read_writes_of_cover _ _ _ _ _ (coverMiddleA c t hc0 hc1 _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA0, HA1, HA2, HA3, HA4, HA5, HA6, HA7, HA8, HA9, HS0, HS1, HS2, HS3⟩, Hg⟩
  isplitl [HA0 HA1 HA2 HA3 HA4 HA5 HA6 HA7 HA8 HA9 HS0 HS1 HS2 HS3]
  ·
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.Kernel.Attn

end
-- ==== Proof.BitsWholeRun.lean ====
/-
  The whole run. @main is a stretch of host operations (the transposed, scaled and converted weights), the
  projection region and the attention region. The buffer contents at each boundary are a fold from the launch
  memory: after the host stretch, after the projection region (its arrays at what its write-backs leave), after the
  attention region. Each region is entered from every unscoped buffer at the boundary's contents, the generator
  register at some state and nothing owed, and left the same way. The run's post reads every unscoped buffer at
  the last boundary's contents; the argument arrays walk back through the fold to the launch memory, and the
  result array is what the attention region's write-backs leave.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import proofs.«410202_j60206851555563_3_alg».proof.Proof.Gen.Kernel.Regions
import proofs.«410202_j60206851555563_3_alg».proof.Proof.BitsProjection
import proofs.«410202_j60206851555563_3_alg».proof.Proof.BitsAttentionBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Cert.Kernel.Proj Cert.Kernel.Attn

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region (the end of @main). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; the generator register and the scoped
    rest enter its invariant before the first point and come back out of it after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    have h2 : (iprop(Pipeline.scopedRest spec1 c ∗ ∃ r, prngReg c r) : sProp 𝕄)
        ⊢ iprop((∃ r, prngReg c r) ∗ emp ∗ Pipeline.scopedRest spec1 c) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Whole

end
-- ==== Proof.BitsWholeFrame.lean ====
/-
  Reading the run's last boundary: no host operation and no region writes an argument array (a region reads it
  through an input window or bypasses it), so each walks back through the fold to the launch memory — the frame claim
  at any float instance; and the result array holds what the attention region's write-backs leave.
-/
import proofs.«410202_j60206851555563_3_alg».proof.Proof.Gen.Kernel.Launch
import proofs.«410202_j60206851555563_3_alg».proof.Proof.Gen.Kernel.Skeleton
import proofs.«410202_j60206851555563_3_alg».proof.Proof.Gen.Kernel.Points
import proofs.«410202_j60206851555563_3_alg».proof.Proof.BitsWholeRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Cert.Kernel.Proj Cert.Kernel.Attn

variable (m : (ℓ : Loc nD τ sig) → Buf (Elt F) ℓ) (ρ : Dev nD → PrngReg)

/-- A buffer the host stretch does not write holds its launch contents when the projection region is entered. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := (W1_keep m ρ c main_arg0 (by decide)).trans rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 5).trans (((dat1 (V2 m ρ) c).arrAt_in 5 rfl _).trans (A_eq1 (V2 m ρ) c 5))
    _ = W1 m ρ c (Proc.devRef .tc main_arg1) := W2_of_ne m ρ c main_arg1 (by decide)
    _ = m ((c : Thread nD τ).loc main_arg1) := (W1_keep m ρ c main_arg1 (by decide)).trans rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := (W1_keep m ρ c main_arg2 (by decide)).trans rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := (W1_keep m ρ c main_arg3 (by decide)).trans rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := (W1_keep m ρ c main_arg4 (by decide)).trans rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = m ((c : Thread nD τ).loc main_arg6) := (W1_keep m ρ c main_arg6 (by decide)).trans rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 2).trans (((dat0 (V1 m ρ) c).arrAt_in 2 rfl _).trans (A_eq0 (V1 m ρ) c 2))
    _ = m ((c : Thread nD τ).loc main_arg5) := (W1_keep m ρ c main_arg5 (by decide)).trans rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 4).trans (((dat0 (V1 m ρ) c).arrAt_in 4 rfl _).trans (A_eq0 (V1 m ρ) c 4))
    _ = m ((c : Thread nD τ).loc main_arg7) := (W1_keep m ρ c main_arg7 (by decide)).trans rfl

/-- The result array at the end is what the attention region's write-backs leave in its output window's array. -/
theorem W3_result (c : Dev nD) : W3 m ρ c (Proc.devRef .tc main_v11) = (dat1 (V2 m ρ) c).arrAt 6 cfg1.N :=
  W3_arr m ρ c 6

/-- What the attention region finds in its six input arrays, in terms of the boundary before it. -/
theorem V2_main_v10_0 (c : Dev nD) : V2 m ρ c main_v10_0 = (dat0 (V1 m ρ) c).arrAt 5 cfg0.N := W2_arr m ρ c 5
theorem V2_main_v10_1 (c : Dev nD) : V2 m ρ c main_v10_1 = (dat0 (V1 m ρ) c).arrAt 6 cfg0.N := W2_arr m ρ c 6
theorem V2_main_arg0 (c : Dev nD) : V2 m ρ c main_arg0 = m ((c : Thread nD τ).loc main_arg0) :=
  (W2_arr m ρ c 0).trans ((((dat0 (V1 m ρ) c).arrAt_in 0 rfl _).trans (A_eq0 (V1 m ρ) c 0)).trans ((W1_keep m ρ c main_arg0 (by decide)).trans rfl))
theorem V2_main_arg1 (c : Dev nD) : V2 m ρ c main_arg1 = m ((c : Thread nD τ).loc main_arg1) :=
  (W2_of_ne m ρ c main_arg1 (by decide)).trans ((W1_keep m ρ c main_arg1 (by decide)).trans rfl)
theorem V2_main_v3 (c : Dev nD) : V2 m ρ c main_v3 = V1 m ρ c main_v3 := W2_of_ne m ρ c main_v3 (by decide)
theorem V2_main_v5 (c : Dev nD) : V2 m ρ c main_v5 = V1 m ρ c main_v5 := W2_of_ne m ρ c main_v5 (by decide)
theorem V1_main_arg0 (c : Dev nD) : V1 m ρ c main_arg0 = m ((c : Thread nD τ).loc main_arg0) := (W1_keep m ρ c main_arg0 (by decide)).trans rfl
theorem V1_main_arg5 (c : Dev nD) : V1 m ρ c main_arg5 = m ((c : Thread nD τ).loc main_arg5) := (W1_keep m ρ c main_arg5 (by decide)).trans rfl
theorem V1_main_arg7 (c : Dev nD) : V1 m ρ c main_arg7 = m ((c : Thread nD τ).loc main_arg7) := (W1_keep m ρ c main_arg7 (by decide)).trans rfl

/-- THE FRAME at any float instance: every weakly fair execution terminates, nothing faulting, the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c)⟩) (run_main m ρ)

end Cert.Kernel.Whole

end
-- ==== Proof.Projection.lean ====
/-
  The projection region (the first pallas_call): one grid axis of 8 points; point t reads rows
  [512 t, 512 t + 512) of the sentence embeddings and the two whole weight matrices and bias vectors, and
  leaves in its two output blocks the key rows and the value rows of those sentences,
  x · Wkᵀ + bk and x · Wvᵀ + bv. Stated at the contents `V` the region is entered from and for any
  float instance: what a point's blocks are, what the body leaves in each output buffer (one store
  covering the block), the body's triple, and the pipeline's proof data with its obligation.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses: every load and store is of a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- The key block a point leaves: its one store, of the bias-added product of the point's rows with the key weights. -/
def keyOut (x : Vec F S512x1024 .f32) (w : Vec F S1024x1024 .bf16) (b : Vec F S1024 .f32) : Vec F S512x1024 .bf16 :=
  View.canon [⟨rX, k0_pay2 (View.ld x rX) (View.ld w rW) (View.ld b rB)⟩]

/-- The value block a point leaves, likewise with the value weights. -/
def valOut (x : Vec F S512x1024 .f32) (w : Vec F S1024x1024 .bf16) (b : Vec F S1024 .f32) : Vec F S512x1024 .bf16 :=
  View.canon [⟨rX, k0_pay3 (View.ld x rX) (View.ld w rW) (View.ld b rB)⟩]

/-- One store of the whole block covers it. -/
theorem cover_whole (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 1000000 in
/-- The body on whole staging memrefs: the five inputs come back as they were, the two outputs hold the key and value blocks. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 : Vec F S1024x1024 .bf16) (x2 : Vec F S1024 .f32) (x3 : Vec F S1024x1024 .bf16) (x4 : Vec F S1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (keyOut x0 x1 x2) ∗ owns (c : Thread nD τ) arg7 fullShare (valOut x0 x3 x4)) -∗ K ⟨⟩))
      ⊢ wp frame (wpE (defs₀ (F := F)) Variants.none c none) E (cc0__kv_proj_kernel i arg1 harg1 arg2 harg2 arg3 harg3 arg4 harg4 arg5 harg5 arg6 harg6 arg7 harg7) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole _)
  iexists _; isplitr
  swap; · iexact H6
  ipureintro
  exact View.read_writes_eq_canon _ _ _ (cover_whole _)

section
variable (V : (c : Dev nD) → (b : Ref sig .tc) → Buf (Elt F) ((c : Thread nD τ).loc b))

/-- The proof data of the projection pipeline on core `c`: the arrays as the region finds them; after the body at
    point `t` each input's buffer at its block, the two outputs at the key and value blocks of the point's rows;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => keyOut (iblk0 V c 0 t) (iblk0 V c 1 t) (iblk0 V c 2 t)
    | ⟨6, _⟩ => valOut (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = keyOut (iblk0 V c 0 t) (iblk0 V c 1 t) (iblk0 V c 2 t) := by dsimp only [dat0]
theorem after0_6 (c : Dev nD) (t : Fin cfg0.N) : (dat0 V c).after 6 t = valOut (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Proj

end
-- ==== Proof.AttentionShared.lean ====
/-
  The attention region (the second pallas_call): a grid of 8 query tiles by 8 key tiles, point t = 8·qi + ki. What
  its three control cases share: a point's blocks; the two branch conditions of the body decided over the grid
  (the reset and query projection at ki = 0, the normalisation and output store at ki = 7); where the output
  window is idle; the staging and scratch memrefs the body is called on; and the region's invariant with the four
  scratch buffers (projected queries, running row maximum, running denominator, running numerator) spelled out.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, over the grid -/

/-- The first branch (reset the running statistics and project the queries) is taken when the key-tile coordinate is 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- The second branch (normalise and store the output block) is taken when the key-tile coordinate is 7. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
/-- Away from ki = 7 the body stores nothing into the output window and the pipeline does not write it back. -/
theorem idle1_6 : ∀ t : Fin cfg1.N, ¬isLast (grid1.coords t) → cfg1.idle 6 (grid1.coords t) = true := by decide +kernel
theorem noFlush1_6 : ∀ t : Fin cfg1.N, ¬isLast (grid1.coords t) → (cfg1.win 6).flush t = false := by decide +kernel
/-- At ki = 7 it stores the whole block. -/
theorem live1_6 : ∀ t : Fin cfg1.N, isLast (grid1.coords t) → cfg1.idle 6 (grid1.coords t) = false := by decide +kernel

/-! ## The memrefs the body is called on -/

abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S4096x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S4096x1024 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1024 .f32 := win1_6.stage (cfg1.slots t 6)
abbrev hs6 (t : Fin cfg1.N) : (ms6 t).IsWhole := hstage1_6 ((cfg1.slots t 6).cast nbuf1_6)
/-- One staging buffer of the output window, through which its contents are stated. -/
abbrev VOut : View sig .tc .vmem S512x1024 .f32 := (Memref.whole cc1_stg6_0 : Memref sig .tc .vmem S512x1024 .f32).view
abbrev scr0 : Memref sig .tc .vmem S512x1024 .bf16 := Memref.whole cc1_scratch0
abbrev VScr0 : View sig .tc .vmem S512x1024 .bf16 := scr0.view
abbrev scr1 : Memref sig .tc .vmem S512x1 .f32 := Memref.whole cc1_scratch1
abbrev VScr1 : View sig .tc .vmem S512x1 .f32 := scr1.view
abbrev scr2 : Memref sig .tc .vmem S512x1 .f32 := Memref.whole cc1_scratch2
abbrev VScr2 : View sig .tc .vmem S512x1 .f32 := scr2.view
abbrev scr3 : Memref sig .tc .vmem S512x1024 .f32 := Memref.whole cc1_scratch3
abbrev VScr3 : View sig .tc .vmem S512x1024 .f32 := scr3.view

/-- The region's invariant spelled out: the other call's staging buffers at some contents (the body never names them),
    the four scratch buffers as memrefs owned at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
          ∗ (∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)) ∗ (∃ r, prngReg c r)) := by
  unfold Pipeline.ΦA; rw [scopedRest1_eq]; simp only [scr0, scr1, scr2, scr3, owns_whole]; try rfl

end Cert.KernelIdeal.Attn

end
-- ==== Proof.AttentionFirst.lean ====
/-
  The attention body in the case ki = 0 (the statistics are reset and the queries projected, then the tile is folded in; no output store): on whole staging and scratch memrefs the body runs to its continuation,
  the six inputs handed back as they were; what its stores leave in each buffer it writes is a list of pieces
  (last store first), found by running the body.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import proofs.«410202_j60206851555563_3_alg».proof.Proof.AttentionShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- ki = 0. The output buffer is idle (handed back untouched); the four scratch buffers may hold anything on entry and
    end with their pieces written. -/
noncomputable def runFirst (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S512x512 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : isFirst i) (hc1 : ¬isLast i)
    (x0 : Vec F S512x1024 .f32) (x1 : Vec F S1024x1024 .bf16) (x2 : Vec F S1024 .f32) (x3 : Vec F S4096x1024 .bf16) (x4 : Vec F S4096x1024 .bf16) (x5 : Vec F S512x512 .f32) :
    Σ' (LS0 : List (View.Piece (Elt F) S512x1024 .bf16)) (LS1 : List (View.Piece (Elt F) S512x1 .f32)) (LS2 : List (View.Piece (Elt F) S512x1 .f32)), { LS3 : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__lambda_ i arg2 harg2 arg3 harg3 arg4 harg4 arg5 harg5 arg6 harg6 arg7 harg7 arg8 harg8 arg9 harg9 arg10 harg10 arg11 harg11 arg12 harg12) K } := by
  refine ⟨?_, ?_, ?_, ?_, fun xi6 E K => ?run⟩
  case run =>
    simp only [cc1__lambda__eq_skeleton]; unfold cc1__lambda__skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Attn

end
-- ==== Proof.AttentionMiddle.lean ====
/-
  The attention body in the case 0 < ki < 7 (the tile is folded into the running statistics; no output store): on whole staging and scratch memrefs the body runs to its continuation,
  the six inputs handed back as they were; what its stores leave in each buffer it writes is a list of pieces
  (last store first), found by running the body.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import proofs.«410202_j60206851555563_3_alg».proof.Proof.AttentionFirst
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- 0 < ki < 7. The output buffer is idle; the projected queries are read and handed back; the three running statistics
    enter at what the point before left and end with their pieces written. -/
noncomputable def runMiddle (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S512x512 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬isFirst i) (hc1 : ¬isLast i)
    (x0 : Vec F S512x1024 .f32) (x1 : Vec F S1024x1024 .bf16) (x2 : Vec F S1024 .f32) (x3 : Vec F S4096x1024 .bf16) (x4 : Vec F S4096x1024 .bf16) (x5 : Vec F S512x512 .f32)
    (xs0 : Vec F S512x1024 .bf16) (xs1 : Vec F S512x1 .f32) (xs2 : Vec F S512x1 .f32) (xs3 : Vec F S512x1024 .f32) :
    Σ' (LS1 : List (View.Piece (Elt F) S512x1 .f32)) (LS2 : List (View.Piece (Elt F) S512x1 .f32)), { LS3 : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__lambda_ i arg2 harg2 arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc1__lambda__eq_skeleton]; unfold cc1__lambda__skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Attn

end
-- ==== Proof.AttentionLast.lean ====
/-
  The attention body in the case ki = 7 (the tile is folded in, then the numerator is divided by the denominator, clamped at zero and stored): on whole staging and scratch memrefs the body runs to its continuation,
  the six inputs handed back as they were; what its stores leave in each buffer it writes is a list of pieces
  (last store first), found by running the body.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import proofs.«410202_j60206851555563_3_alg».proof.Proof.AttentionMiddle
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- ki = 7. As for 0 < ki < 7, and the output buffer, at anything on entry, ends with its pieces written. -/
noncomputable def runLast (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S512x512 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬isFirst i) (hc1 : isLast i)
    (x0 : Vec F S512x1024 .f32) (x1 : Vec F S1024x1024 .bf16) (x2 : Vec F S1024 .f32) (x3 : Vec F S4096x1024 .bf16) (x4 : Vec F S4096x1024 .bf16) (x5 : Vec F S512x512 .f32)
    (xs0 : Vec F S512x1024 .bf16) (xs1 : Vec F S512x1 .f32) (xs2 : Vec F S512x1 .f32) (xs3 : Vec F S512x1024 .f32) :
    Σ' (L6 : List (View.Piece (Elt F) S512x1024 .f32)) (LS1 : List (View.Piece (Elt F) S512x1 .f32)) (LS2 : List (View.Piece (Elt F) S512x1 .f32)), { LS3 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__lambda_ i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__lambda__eq_skeleton]; unfold cc1__lambda__skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Attn

end
-- ==== Proof.AttentionPoints.lean ====
/-
  The attention region point by point. What the four scratch buffers and the output buffer hold after each grid
  point is a recursion on the point: at ki = 0 what the reset-and-fold case leaves from the point's blocks alone, at
  later key tiles what the fold (and, at ki = 7, the normalisation) leaves over what the point before left. With it:
  the region's invariant (the scratch buffers at the point before's contents), the pipeline's proof data, and the
  body obligation, by cases on the point's key-tile coordinate.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import proofs.«410202_j60206851555563_3_alg».proof.Proof.AttentionLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents carried from one point to the next: the output buffer and the four scratch buffers. -/
structure Carried (F : FTy → Type) [FloatOps F] where
  out : Vec F S512x1024 .f32
  q : Vec F S512x1024 .bf16
  mx : Vec F S512x1 .f32
  den : Vec F S512x1 .f32
  num : Vec F S512x1024 .f32

/-- The case ki = 0 at point `t`, on the memrefs the pipeline calls the body with. -/
abbrev firstAt (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :=
  runFirst (F := F) c (grid1.coords t) (ms0 t) (hs0 t) (ms1 t) (hs1 t) (ms2 t) (hs2 t) (ms3 t) (hs3 t) (ms4 t) (hs4 t) (ms5 t) (hs5 t) (ms6 t) (hs6 t) scr0 (Memref.isWhole_whole _) scr1 (Memref.isWhole_whole _) scr2 (Memref.isWhole_whole _) scr3 (Memref.isWhole_whole _) hc0 hc1 x0 x1 x2 x3 x4 x5
abbrev middleAt (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32)
    (p : Carried F) :=
  runMiddle (F := F) c (grid1.coords t) (ms0 t) (hs0 t) (ms1 t) (hs1 t) (ms2 t) (hs2 t) (ms3 t) (hs3 t) (ms4 t) (hs4 t) (ms5 t) (hs5 t) (ms6 t) (hs6 t) scr0 (Memref.isWhole_whole _) scr1 (Memref.isWhole_whole _) scr2 (Memref.isWhole_whole _) scr3 (Memref.isWhole_whole _) hc0 hc1 x0 x1 x2 x3 x4 x5 p.q p.mx p.den p.num
abbrev lastAt (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32)
    (p : Carried F) :=
  runLast (F := F) c (grid1.coords t) (ms0 t) (hs0 t) (ms1 t) (hs1 t) (ms2 t) (hs2 t) (ms3 t) (hs3 t) (ms4 t) (hs4 t) (ms5 t) (hs5 t) (ms6 t) (hs6 t) scr0 (Memref.isWhole_whole _) scr1 (Memref.isWhole_whole _) scr2 (Memref.isWhole_whole _) scr3 (Memref.isWhole_whole _) hc0 hc1 x0 x1 x2 x3 x4 x5 p.q p.mx p.den p.num

/-- Read a list of pieces back over junk: what a buffer covered by them holds. -/
abbrev readQ (L : List (View.Piece (Elt F) S512x1024 .bf16)) : Vec F S512x1024 .bf16 := VScr0.read (Elt F) (VScr0.writes (Elt F) VScr0.junk L)
abbrev readM (L : List (View.Piece (Elt F) S512x1 .f32)) : Vec F S512x1 .f32 := VScr1.read (Elt F) (VScr1.writes (Elt F) VScr1.junk L)
abbrev readL (L : List (View.Piece (Elt F) S512x1 .f32)) : Vec F S512x1 .f32 := VScr2.read (Elt F) (VScr2.writes (Elt F) VScr2.junk L)
abbrev readA (L : List (View.Piece (Elt F) S512x1024 .f32)) : Vec F S512x1024 .f32 := VScr3.read (Elt F) (VScr3.writes (Elt F) VScr3.junk L)
abbrev readO (L : List (View.Piece (Elt F) S512x1024 .f32)) : Vec F S512x1024 .f32 := VOut.read (Elt F) (VOut.writes (Elt F) VOut.junk L)

/-- What the case ki = 0 leaves (the output buffer is idle there: a placeholder nothing consults). -/
def firstOf (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) : Carried F where
  out := readO []
  q := readQ (firstAt c t hc0 hc1 x0 x1 x2 x3 x4 x5).1
  mx := readM (firstAt c t hc0 hc1 x0 x1 x2 x3 x4 x5).2.1
  den := readL (firstAt c t hc0 hc1 x0 x1 x2 x3 x4 x5).2.2.1
  num := readA (firstAt c t hc0 hc1 x0 x1 x2 x3 x4 x5).2.2.2.1

/-- What the case 0 < ki < 7 leaves over what the point before left (the queries are kept). -/
def middleOf (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) : Carried F where
  out := readO []
  q := p.q
  mx := readM (middleAt c t hc0 hc1 x0 x1 x2 x3 x4 x5 p).1
  den := readL (middleAt c t hc0 hc1 x0 x1 x2 x3 x4 x5 p).2.1
  num := readA (middleAt c t hc0 hc1 x0 x1 x2 x3 x4 x5 p).2.2.1

/-- What the case ki = 7 leaves over what the point before left. -/
def lastOf (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) : Carried F where
  out := readO (lastAt c t hc0 hc1 x0 x1 x2 x3 x4 x5 p).1
  q := p.q
  mx := readM (lastAt c t hc0 hc1 x0 x1 x2 x3 x4 x5 p).2.1
  den := readL (lastAt c t hc0 hc1 x0 x1 x2 x3 x4 x5 p).2.2.1
  num := readA (lastAt c t hc0 hc1 x0 x1 x2 x3 x4 x5 p).2.2.2.1

/-! ## Each case's pieces cover the buffer they are written into -/

theorem coverFirstQ (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (y : S512x1024.Idx) :
    ∃ pc ∈ (firstAt (F := F) c t hc0 hc1 x0 x1 x2 x3 x4 x5).1, y ∈ pc.1.set :=
  View.cover_of_tiledL _ S512x1024.size (by sl_kernel_rfl) y
theorem coverFirstM (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (y : S512x1.Idx) :
    ∃ pc ∈ (firstAt (F := F) c t hc0 hc1 x0 x1 x2 x3 x4 x5).2.1, y ∈ pc.1.set :=
  View.cover_of_tiledL _ S512x1.size (by sl_kernel_rfl) y
theorem coverFirstL (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (y : S512x1.Idx) :
    ∃ pc ∈ (firstAt (F := F) c t hc0 hc1 x0 x1 x2 x3 x4 x5).2.2.1, y ∈ pc.1.set :=
  View.cover_of_tiledL _ S512x1.size (by sl_kernel_rfl) y
theorem coverFirstA (c : Dev nD) (t : Fin cfg1.N) (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (y : S512x1024.Idx) :
    ∃ pc ∈ (firstAt (F := F) c t hc0 hc1 x0 x1 x2 x3 x4 x5).2.2.2.1, y ∈ pc.1.set :=
  View.cover_of_tiledL _ S512x1024.size (by sl_kernel_rfl) y

theorem coverMiddleM (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1.Idx) :
    ∃ pc ∈ (middleAt (F := F) c t hc0 hc1 x0 x1 x2 x3 x4 x5 p).1, y ∈ pc.1.set :=
  View.cover_of_tiledL _ S512x1.size (by sl_kernel_rfl) y
theorem coverMiddleL (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1.Idx) :
    ∃ pc ∈ (middleAt (F := F) c t hc0 hc1 x0 x1 x2 x3 x4 x5 p).2.1, y ∈ pc.1.set :=
  View.cover_of_tiledL _ S512x1.size (by sl_kernel_rfl) y
theorem coverMiddleA (c : Dev nD) (t : Fin cfg1.N) (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1024.Idx) :
    ∃ pc ∈ (middleAt (F := F) c t hc0 hc1 x0 x1 x2 x3 x4 x5 p).2.2.1, y ∈ pc.1.set :=
  View.cover_of_tiledL _ S512x1024.size (by sl_kernel_rfl) y

theorem coverLastO (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1024.Idx) :
    ∃ pc ∈ (lastAt (F := F) c t hc0 hc1 x0 x1 x2 x3 x4 x5 p).1, y ∈ pc.1.set :=
  View.cover_of_tiledL _ S512x1024.size (by sl_kernel_rfl) y
theorem coverLastM (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1.Idx) :
    ∃ pc ∈ (lastAt (F := F) c t hc0 hc1 x0 x1 x2 x3 x4 x5 p).2.1, y ∈ pc.1.set :=
  View.cover_of_tiledL _ S512x1.size (by sl_kernel_rfl) y
theorem coverLastL (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1.Idx) :
    ∃ pc ∈ (lastAt (F := F) c t hc0 hc1 x0 x1 x2 x3 x4 x5 p).2.2.1, y ∈ pc.1.set :=
  View.cover_of_tiledL _ S512x1.size (by sl_kernel_rfl) y
theorem coverLastA (c : Dev nD) (t : Fin cfg1.N) (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) (y : S512x1024.Idx) :
    ∃ pc ∈ (lastAt (F := F) c t hc0 hc1 x0 x1 x2 x3 x4 x5 p).2.2.2.1, y ∈ pc.1.set :=
  View.cover_of_tiledL _ S512x1024.size (by sl_kernel_rfl) y

section
variable (V : (c : Dev nD) → (b : Ref sig .tc) → Buf (Elt F) ((c : Thread nD τ).loc b))

/-- THE RECURSION ON THE POINT: what the output buffer and the scratch buffers hold after the body at position `n`. -/
def carriedAt (c : Dev nD) : (n : ℕ) → n < cfg1.N → Carried F
  | 0, hn =>
    firstOf c ⟨0, hn⟩ ((isFirst_iff ⟨0, hn⟩).mpr (Nat.zero_mod _)) (fun h => by have h7 : 0 % 8 = 7 := (isLast_iff ⟨0, hn⟩).mp h; omega) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn =>
    if h0 : (n + 1) % 8 = 0 then
      firstOf c ⟨n + 1, hn⟩ ((isFirst_iff ⟨n + 1, hn⟩).mpr h0) (fun h => by have h7 : (n + 1) % 8 = 7 := (isLast_iff ⟨n + 1, hn⟩).mp h; omega) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
    else if h1 : (n + 1) % 8 = 7 then
      lastOf c ⟨n + 1, hn⟩ (fun h => h0 ((isFirst_iff ⟨n + 1, hn⟩).mp h)) ((isLast_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (carriedAt c n (Nat.lt_of_succ_lt hn))
    else
      middleOf c ⟨n + 1, hn⟩ (fun h => h0 ((isFirst_iff ⟨n + 1, hn⟩).mp h)) (fun h => h1 ((isLast_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (carriedAt c n (Nat.lt_of_succ_lt hn))

theorem carriedAt_first (c : Dev nD) (t : Fin cfg1.N) (h0 : t.val % 8 = 0) :
    carriedAt V c t.val t.isLt = firstOf c t ((isFirst_iff t).mpr h0) (fun h => by have := (isLast_iff t).mp h; omega) (iblk1 V c 0 t) (iblk1 V c 1 t) (iblk1 V c 2 t) (iblk1 V c 3 t) (iblk1 V c 4 t) (iblk1 V c 5 t) := by
  obtain ⟨n, hn⟩ := t
  cases n with
  | zero => rfl
  | succ n => exact (dif_pos h0).trans rfl

theorem carriedAt_middle (c : Dev nD) (t : Fin cfg1.N) (h0 : ¬t.val % 8 = 0) (h1 : ¬t.val % 8 = 7) :
    carriedAt V c t.val t.isLt = middleOf c t (fun h => h0 ((isFirst_iff t).mp h)) (fun h => h1 ((isLast_iff t).mp h)) (iblk1 V c 0 t) (iblk1 V c 1 t) (iblk1 V c 2 t) (iblk1 V c 3 t) (iblk1 V c 4 t) (iblk1 V c 5 t)
      (carriedAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem carriedAt_last (c : Dev nD) (t : Fin cfg1.N) (h0 : ¬t.val % 8 = 0) (h1 : t.val % 8 = 7) :
    carriedAt V c t.val t.isLt = lastOf c t (fun h => h0 ((isFirst_iff t).mp h)) ((isLast_iff t).mpr h1) (iblk1 V c 0 t) (iblk1 V c 1 t) (iblk1 V c 2 t) (iblk1 V c 3 t) (iblk1 V c 4 t) (iblk1 V c 5 t)
      (carriedAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region's invariant before position `n`: before the first point every scratch buffer at anything; afterwards the four
    scratch buffers at what the point before left, the other call's staging buffers at anything, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scr0 fullShare (carriedAt V c n hn).q ∗ owns (c : Thread nD τ) scr1 fullShare (carriedAt V c n hn).mx
      ∗ owns (c : Thread nD τ) scr2 fullShare (carriedAt V c n hn).den ∗ owns (c : Thread nD τ) scr3 fullShare (carriedAt V c n hn).num) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scr0 fullShare (carriedAt V c n hn).q ∗ owns (c : Thread nD τ) scr1 fullShare (carriedAt V c n hn).mx
      ∗ owns (c : Thread nD τ) scr2 fullShare (carriedAt V c n hn).den ∗ owns (c : Thread nD τ) scr3 fullShare (carriedAt V c n hn).num) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scr0 fullShare (carriedAt V c (n - 1) (by omega)).q ∗ owns (c : Thread nD τ) scr1 fullShare (carriedAt V c (n - 1) (by omega)).mx
      ∗ owns (c : Thread nD τ) scr2 fullShare (carriedAt V c (n - 1) (by omega)).den ∗ owns (c : Thread nD τ) scr3 fullShare (carriedAt V c (n - 1) (by omega)).num) ∗ (∃ r, prngReg c r)) := by
  cases n with
  | zero => exact absurd rfl hz
  | succ n => rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (carriedAt V c t.val t.isLt).out
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (carriedAt V c t.val t.isLt).out := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

end

end Cert.KernelIdeal.Attn

end
-- ==== Proof.AttentionBody.lean ====
/-
  The attention region's body obligation. At a point with ki = 0 the body is handed the scratch buffers at anything
  (or at what the previous query tile left, which it overwrites); at 0 < ki it is handed them at what the point before
  left, reads them, and hands them back at the folded statistics; at ki = 7 it also fills the output block. The
  invariant takes the four scratch buffers back at this point's contents; the other call's staging buffers, the
  generator register and the core's dues pass through untouched.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import proofs.«410202_j60206851555563_3_alg».proof.Proof.AttentionPoints
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms0 t) fullShare ((dat1 V c).after 0 t) from by
    unfold Dat.leavesExact; rw [live1_0 t], after1_0]
  rw [show (dat1 V c).leavesExact 1 t = owns (c : Thread nD τ) (ms1 t) fullShare ((dat1 V c).after 1 t) from by
    unfold Dat.leavesExact; rw [live1_1 t], after1_1]
  rw [show (dat1 V c).leavesExact 2 t = owns (c : Thread nD τ) (ms2 t) fullShare ((dat1 V c).after 2 t) from by
    unfold Dat.leavesExact; rw [live1_2 t], after1_2]
  rw [show (dat1 V c).leavesExact 3 t = owns (c : Thread nD τ) (ms3 t) fullShare ((dat1 V c).after 3 t) from by
    unfold Dat.leavesExact; rw [live1_3 t], after1_3]
  rw [show (dat1 V c).leavesExact 4 t = owns (c : Thread nD τ) (ms4 t) fullShare ((dat1 V c).after 4 t) from by
    unfold Dat.leavesExact; rw [live1_4 t], after1_4]
  rw [show (dat1 V c).leavesExact 5 t = owns (c : Thread nD τ) (ms5 t) fullShare ((dat1 V c).after 5 t) from by
    unfold Dat.leavesExact; rw [live1_5 t], after1_5]
  by_cases h0 : t.val % 8 = 0
  · have hc0 : isFirst (grid1.coords t) := (isFirst_iff t).mpr h0
    have hc1 : ¬isLast (grid1.coords t) := fun h => by have := (isLast_iff t).mp h; omega
    rw [Dat.leavesExact_idle (dat1 V c) 6 t (idle1_6 t hc1) (noFlush1_6 t hc1)]
    rw [carriedAt_first V c t h0]
    unfold firstOf; (try dsimp only)
    by_cases hz : t.val = 0
    · rw [PhiS_castSucc V c t, PhiS_zero V c _ _ hz, PhiA1_eq]
      iintro ⟨⟨⟨HA0, HA1, HA2, HA3, HA4, HA5, HA6, HA7, HA8, HA9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt c t hc0 hc1 (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HA0 HA1 HA2 HA3 HA4 HA5 HA6 HA7 HA8 HA9 HS0 HS1 HS2 HS3 Hg]
      · isplitl [HA0 HA1 HA2 HA3 HA4 HA5 HA6 HA7 HA8 HA9 HS0 HS1 HS2 HS3]
        ·
          isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HS0]
          · unfold owns; iexists _; isplitr
            swap; · iexact HS0
            ipureintro; exact View.read_writes_of_cover _ _ _ _ _ (coverFirstQ c t hc0 hc1 _ _ _ _ _ _)
          isplitl [HS1]
          · unfold owns; iexists _; isplitr
            swap; · iexact HS1
            ipureintro; exact View.read_writes_of_cover _ _ _ _ _ (coverFirstM c t hc0 hc1 _ _ _ _ _ _)
          isplitl [HS2]
          · unfold owns; iexists _; isplitr
            swap; · iexact HS2
            ipureintro; exact View.read_writes_of_cover _ _ _ _ _ (coverFirstL c t hc0 hc1 _ _ _ _ _ _)
          · unfold owns; iexists _; isplitr
            swap; · iexact HS3
            ipureintro; exact View.read_writes_of_cover _ _ _ _ _ (coverFirstA c t hc0 hc1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

    · rw [PhiS_castSucc V c t, PhiS_pos V c _ _ hz]
      iintro ⟨⟨⟨HA0, HA1, HA2, HA3, HA4, HA5, HA6, HA7, HA8, HA9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt c t hc0 hc1 (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HA0 HA1 HA2 HA3 HA4 HA5 HA6 HA7 HA8 HA9 HS0 HS1 HS2 HS3 Hg]
      · isplitl [HA0 HA1 HA2 HA3 HA4 HA5 HA6 HA7 HA8 HA9 HS0 HS1 HS2 HS3]
        ·
          isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HS0]
          · unfold owns; iexists _; isplitr
            swap; · iexact HS0
            ipureintro; exact View.read_writes_of_cover _ _ _ _ _ (coverFirstQ c t hc0 hc1 _ _ _ _ _ _)
          isplitl [HS1]
          · unfold owns; iexists _; isplitr
            swap; · iexact HS1
            ipureintro; exact View.read_writes_of_cover _ _ _ _ _ (coverFirstM c t hc0 hc1 _ _ _ _ _ _)
          isplitl [HS2]
          · unfold owns; iexists _; isplitr
            swap; · iexact HS2
            ipureintro; exact View.read_writes_of_cover _ _ _ _ _ (coverFirstL c t hc0 hc1 _ _ _ _ _ _)
          · unfold owns; iexists _; isplitr
            swap; · iexact HS3
            ipureintro; exact View.read_writes_of_cover _ _ _ _ _ (coverFirstA c t hc0 hc1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

  · have hz : t.val ≠ 0 := fun h => h0 (by rw [h])
    have hc0 : ¬isFirst (grid1.coords t) := fun h => h0 ((isFirst_iff t).mp h)
    by_cases h1 : t.val % 8 = 7
    · have hc1 : isLast (grid1.coords t) := (isLast_iff t).mpr h1
      rw [show (dat1 V c).leavesExact 6 t = owns (c : Thread nD τ) (ms6 t) fullShare ((dat1 V c).after 6 t) from by
        unfold Dat.leavesExact; rw [live1_6 t hc1], after1_6]
      rw [carriedAt_last V c t h0 h1]
      unfold lastOf; (try dsimp only)
      rw [PhiS_castSucc V c t, PhiS_pos V c _ _ hz]
      iintro ⟨⟨⟨HA0, HA1, HA2, HA3, HA4, HA5, HA6, HA7, HA8, HA9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((lastAt c t hc0 hc1 (iblk1 V c 0 t) (iblk1 V c 1 t) (iblk1 V c 2 t) (iblk1 V c 3 t) (iblk1 V c 4 t) (iblk1 V c 5 t) (carriedAt V c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, HS0, ⟨%es1, HS1⟩, ⟨%es2, HS2⟩, ⟨%es3, HS3⟩⟩
      isplitl [HA0 HA1 HA2 HA3 HA4 HA5 HA6 HA7 HA8 HA9 HS0 HS1 HS2 HS3 Hg]
      · isplitl [HA0 HA1 HA2 HA3 HA4 HA5 HA6 HA7 HA8 HA9 HS0 HS1 HS2 HS3]
        ·
          isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HS0]
          · iexact HS0
          isplitl [HS1]
          · unfold owns; iexists _; isplitr
            swap; · iexact HS1
            ipureintro; exact View.read_writes_of_cover _ _ _ _ _ (coverLastM c t hc0 hc1 _ _ _ _ _ _ _)
          isplitl [HS2]
          · unfold owns; iexists _; isplitr
            swap; · iexact HS2
            ipureintro; exact View.read_writes_of_cover _ _ _ _ _ (coverLastL c t hc0 hc1 _ _ _ _ _ _ _)
          · unfold owns; iexists _; isplitr
            swap; · iexact HS3
            ipureintro; exact View.read_writes_of_cover _ _ _ _ _ (coverLastA c t hc0 hc1 _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastO c t hc0 hc1 _ _ _ _ _ _ _)

    · have hc1 : ¬isLast (grid1.coords t) := fun h => h1 ((isLast_iff t).mp h)
      rw [Dat.leavesExact_idle (dat1 V c) 6 t (idle1_6 t hc1) (noFlush1_6 t hc1)]
      rw [carriedAt_middle V c t h0 h1]
      unfold middleOf; (try dsimp only)
      rw [PhiS_castSucc V c t, PhiS_pos V c _ _ hz]
      iintro ⟨⟨⟨HA0, HA1, HA2, HA3, HA4, HA5, HA6, HA7, HA8, HA9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((middleAt c t hc0 hc1 (iblk1 V c 0 t) (iblk1 V c 1 t) (iblk1 V c 2 t) (iblk1 V c 3 t) (iblk1 V c 4 t) (iblk1 V c 5 t) (carriedAt V c (t.val - 1) (Nat.lt_of_le_of_lt (Nat.sub_le _ _) t.isLt))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, ⟨%es1, HS1⟩, ⟨%es2, HS2⟩, ⟨%es3, HS3⟩⟩
      isplitl [HA0 HA1 HA2 HA3 HA4 HA5 HA6 HA7 HA8 HA9 HS0 HS1 HS2 HS3 Hg]
      · isplitl [HA0 HA1 HA2 HA3 HA4 HA5 HA6 HA7 HA8 HA9 HS0 HS1 HS2 HS3]
        ·
          isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HS0]
          · iexact HS0
          isplitl [HS1]
          · unfold owns; iexists _; isplitr
            swap; · iexact HS1
            ipureintro; exact View.read_writes_of_cover _ _ _ _ _ (coverMiddleM c t hc0 hc1 _ _ _ _ _ _ _)
          isplitl [HS2]
          · unfold owns; iexists _; isplitr
            swap; · iexact HS2
            ipureintro; exact View.read_writes_of_cover _ _ _ _ _ (coverMiddleL c t hc0 hc1 _ _ _ _ _ _ _)
          · unfold owns; iexists _; isplitr
            swap; · iexact HS3
            ipureintro; exact View.read_writes_of_cover _ _ _ _ _ (coverMiddleA c t hc0 hc1 _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA0, HA1, HA2, HA3, HA4, HA5, HA6, HA7, HA8, HA9, HS0, HS1, HS2, HS3⟩, Hg⟩
  isplitl [HA0 HA1 HA2 HA3 HA4 HA5 HA6 HA7 HA8 HA9 HS0 HS1 HS2 HS3]
  ·
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Attn

end
-- ==== Proof.WholeRun.lean ====
/-
  The whole run. @main is a stretch of host operations (the transposed, scaled and converted weights), the
  projection region and the attention region. The buffer contents at each boundary are a fold from the launch
  memory: after the host stretch, after the projection region (its arrays at what its write-backs leave), after the
  attention region. Each region is entered from every unscoped buffer at the boundary's contents, the generator
  register at some state and nothing owed, and left the same way. The run's post reads every unscoped buffer at
  the last boundary's contents; the argument arrays walk back through the fold to the launch memory, and the
  result array is what the attention region's write-backs leave.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import proofs.«410202_j60206851555563_3_alg».proof.Proof.Gen.KernelIdeal.Regions
import proofs.«410202_j60206851555563_3_alg».proof.Proof.Projection
import proofs.«410202_j60206851555563_3_alg».proof.Proof.AttentionBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Cert.KernelIdeal.Proj Cert.KernelIdeal.Attn

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region (the end of @main). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; the generator register and the scoped
    rest enter its invariant before the first point and come back out of it after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    have h2 : (iprop(Pipeline.scopedRest spec1 c ∗ ∃ r, prngReg c r) : sProp 𝕄)
        ⊢ iprop((∃ r, prngReg c r) ∗ emp ∗ Pipeline.scopedRest spec1 c) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Whole

end
-- ==== Proof.WholeFrame.lean ====
/-
  Reading the run's last boundary: no host operation and no region writes an argument array (a region reads it
  through an input window or bypasses it), so each walks back through the fold to the launch memory — the frame claim
  at any float instance; and the result array holds what the attention region's write-backs leave.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import proofs.«410202_j60206851555563_3_alg».proof.Proof.WholeRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Cert.KernelIdeal.Proj Cert.KernelIdeal.Attn

variable (m : (ℓ : Loc nD τ sig) → Buf (Elt F) ℓ) (ρ : Dev nD → PrngReg)

/-- A buffer the host stretch does not write holds its launch contents when the projection region is entered. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := (W1_keep m ρ c main_arg0 (by decide)).trans rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 5).trans (((dat1 (V2 m ρ) c).arrAt_in 5 rfl _).trans (A_eq1 (V2 m ρ) c 5))
    _ = W1 m ρ c (Proc.devRef .tc main_arg1) := W2_of_ne m ρ c main_arg1 (by decide)
    _ = m ((c : Thread nD τ).loc main_arg1) := (W1_keep m ρ c main_arg1 (by decide)).trans rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := (W1_keep m ρ c main_arg2 (by decide)).trans rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := (W1_keep m ρ c main_arg3 (by decide)).trans rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := (W1_keep m ρ c main_arg4 (by decide)).trans rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = m ((c : Thread nD τ).loc main_arg6) := (W1_keep m ρ c main_arg6 (by decide)).trans rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 2).trans (((dat0 (V1 m ρ) c).arrAt_in 2 rfl _).trans (A_eq0 (V1 m ρ) c 2))
    _ = m ((c : Thread nD τ).loc main_arg5) := (W1_keep m ρ c main_arg5 (by decide)).trans rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 4).trans (((dat0 (V1 m ρ) c).arrAt_in 4 rfl _).trans (A_eq0 (V1 m ρ) c 4))
    _ = m ((c : Thread nD τ).loc main_arg7) := (W1_keep m ρ c main_arg7 (by decide)).trans rfl

/-- The result array at the end is what the attention region's write-backs leave in its output window's array. -/
theorem W3_result (c : Dev nD) : W3 m ρ c (Proc.devRef .tc main_v11) = (dat1 (V2 m ρ) c).arrAt 6 cfg1.N :=
  W3_arr m ρ c 6

/-- What the attention region finds in its six input arrays, in terms of the boundary before it. -/
theorem V2_main_v10_0 (c : Dev nD) : V2 m ρ c main_v10_0 = (dat0 (V1 m ρ) c).arrAt 5 cfg0.N := W2_arr m ρ c 5
theorem V2_main_v10_1 (c : Dev nD) : V2 m ρ c main_v10_1 = (dat0 (V1 m ρ) c).arrAt 6 cfg0.N := W2_arr m ρ c 6
theorem V2_main_arg0 (c : Dev nD) : V2 m ρ c main_arg0 = m ((c : Thread nD τ).loc main_arg0) :=
  (W2_arr m ρ c 0).trans ((((dat0 (V1 m ρ) c).arrAt_in 0 rfl _).trans (A_eq0 (V1 m ρ) c 0)).trans ((W1_keep m ρ c main_arg0 (by decide)).trans rfl))
theorem V2_main_arg1 (c : Dev nD) : V2 m ρ c main_arg1 = m ((c : Thread nD τ).loc main_arg1) :=
  (W2_of_ne m ρ c main_arg1 (by decide)).trans ((W1_keep m ρ c main_arg1 (by decide)).trans rfl)
theorem V2_main_v3 (c : Dev nD) : V2 m ρ c main_v3 = V1 m ρ c main_v3 := W2_of_ne m ρ c main_v3 (by decide)
theorem V2_main_v5 (c : Dev nD) : V2 m ρ c main_v5 = V1 m ρ c main_v5 := W2_of_ne m ρ c main_v5 (by decide)
theorem V1_main_arg0 (c : Dev nD) : V1 m ρ c main_arg0 = m ((c : Thread nD τ).loc main_arg0) := (W1_keep m ρ c main_arg0 (by decide)).trans rfl
theorem V1_main_arg5 (c : Dev nD) : V1 m ρ c main_arg5 = m ((c : Thread nD τ).loc main_arg5) := (W1_keep m ρ c main_arg5 (by decide)).trans rfl
theorem V1_main_arg7 (c : Dev nD) : V1 m ρ c main_arg7 = m ((c : Thread nD τ).loc main_arg7) := (W1_keep m ρ c main_arg7 (by decide)).trans rfl

/-- THE FRAME at any float instance: every weakly fair execution terminates, nothing faulting, the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c)⟩) (run_main m ρ)

end Cert.KernelIdeal.Whole

end
-- ==== Proof.Consts.lean ====
/-
  The float constants the two programs spell, as the extended reals their bit patterns denote: the attention scale
  1/32, the mask sentinel −10000, zero, and minus infinity (the running maximum's start and the reference's
  max-reduction's unit).
-/
import Idealize.ShloMosaic.PureOps.Ideal
import Idealize.ShloMosaic.PureOps.Ideal.Laws

noncomputable section

namespace Cert.AttnConsts

open Idealize.ShloMosaic

/-- `0.03125`, the attention scale 1/√1024, denotes the real 1/32. -/
theorem ofBits_scale : Ideal.ofBits .f32 0x3D000000#32 = (((1 / 32 : ℝ)) : EReal) := by
  simp [Ideal.ofBits, Ideal.ieee, -EReal.coe_mul]; norm_num

/-- `-10000.0`, the mask sentinel, denotes the real −10000. -/
theorem ofBits_sentinel : Ideal.ofBits .f32 0xC61C4000#32 = (((-10000 : ℝ)) : EReal) := by
  simp [Ideal.ofBits, Ideal.ieee, -EReal.coe_mul]; norm_num

/-- `+0.0` denotes 0. -/
theorem ofBits_zero : Ideal.ofBits .f32 0x00000000#32 = 0 := Ideal.ofBits_zero_f32

/-- The pattern of minus infinity denotes the bottom of the extended reals. -/
theorem ofBits_negInf : Ideal.ofBits .f32 0xFF800000#32 = ⊥ := by
  simp [Ideal.ofBits, Ideal.ieee]

end Cert.AttnConsts

end
-- ==== Proof.HostPrefix.lean ====
/-
  What the host stretch before the regions writes, read at an index at the ideal instance: the key and value weights
  transposed (the conversion to bf16 is the identity), the query weights transposed and scaled by 1/32, the query bias
  scaled by 1/32.
-/
import proofs.«410202_j60206851555563_3_alg».proof.Proof.Gen.KernelIdeal.Launch
import proofs.«410202_j60206851555563_3_alg».proof.Proof.Gen.KernelIdeal.Skeleton
import proofs.«410202_j60206851555563_3_alg».proof.Proof.Gen.KernelIdeal.Points
import proofs.«410202_j60206851555563_3_alg».proof.Proof.WholeFrame
import proofs.«410202_j60206851555563_3_alg».proof.Proof.Consts
import Idealize.ShloMosaic.Lib.Pipeline.Value
import Idealize.ShloMosaic.Lib.ValueIdx
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Idealize.ShloMosaic.StableHlo

variable (m : (ℓ : Loc nD τ sig) → Buf (Elt F) ℓ) (ρ : Dev nD → PrngReg)

/-! ## The four results as terms of the launch arrays (any float instance) -/

theorem V1_main_v7_eq (c : Dev nD) :
    (V1 m ρ c main_v7 : (⟨S1024x1024, .bf16⟩ : BufTy).Contents (Elt F))
      = truncf .bf16 (transpose S1024x1024 [1, 0] (m ((c : Thread nD τ).loc main_arg4)) transposes_S1024x1024_S1024x1024_1_0) bitsLt_bf16_f32 := by
  show StableHlo.after hostOps0 (W0 m ρ c) (Proc.devRef .tc main_v7) = _
  after_results

theorem V1_main_v9_eq (c : Dev nD) :
    (V1 m ρ c main_v9 : (⟨S1024x1024, .bf16⟩ : BufTy).Contents (Elt F))
      = truncf .bf16 (transpose S1024x1024 [1, 0] (m ((c : Thread nD τ).loc main_arg6)) transposes_S1024x1024_S1024x1024_1_0) bitsLt_bf16_f32 := by
  show StableHlo.after hostOps0 (W0 m ρ c) (Proc.devRef .tc main_v9) = _
  after_results

theorem V1_main_v3_eq (c : Dev nD) :
    (V1 m ρ c main_v3 : (⟨S1024x1024, .bf16⟩ : BufTy).Contents (Elt F))
      = truncf .bf16 (mulf (broadcastInDim S1024x1024 ![] bcast_S_S1024x1024 (constant (F := F) S_ .f32 0x3D000000#32))
          (transpose S1024x1024 [1, 0] (m ((c : Thread nD τ).loc main_arg2)) transposes_S1024x1024_S1024x1024_1_0)) bitsLt_bf16_f32 := by
  show StableHlo.after hostOps0 (W0 m ρ c) (Proc.devRef .tc main_v3) = _
  after_results

theorem V1_main_v5_eq (c : Dev nD) :
    (V1 m ρ c main_v5 : (⟨S1024, .f32⟩ : BufTy).Contents (Elt F))
      = mulf (broadcastInDim S1024 ![] bcast_S_S1024 (constant (F := F) S_ .f32 0x3D000000#32)) (m ((c : Thread nD τ).loc main_arg3)) := by
  show StableHlo.after hostOps0 (W0 m ρ c) (Proc.devRef .tc main_v5) = _
  after_results

end Cert.KernelIdeal.Whole

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## Read at an index, at the ideal instance -/

/-- A transposed square matrix at (e, d) is the matrix at (d, e). -/
theorem transpose_at (x : FVec Ideal S1024x1024 .f32) (e d : Fin 1024) :
    transpose S1024x1024 [1, 0] x transposes_S1024x1024_S1024x1024_1_0 (ix2 e d) = x (ix2 d e) := by
  refine (transpose_apply [1, 0] x transposes_S1024x1024_S1024x1024_1_0 (ix2 e d) (ix2 d e) (fun b => match b with
    | ⟨0, _⟩ => rfl
    | ⟨1, _⟩ => rfl))

theorem v7_at (c : Dev nD) (e d : Fin 1024) :
    (V1 m ρ c main_v7 : S1024x1024.Idx → EReal) (ix2 e d) = (m ((c : Thread nD τ).loc main_arg4) : S1024x1024.Idx → EReal) (ix2 d e) := by
  rw [V1_main_v7_eq]; exact transpose_at _ e d

theorem v9_at (c : Dev nD) (e d : Fin 1024) :
    (V1 m ρ c main_v9 : S1024x1024.Idx → EReal) (ix2 e d) = (m ((c : Thread nD τ).loc main_arg6) : S1024x1024.Idx → EReal) (ix2 d e) := by
  rw [V1_main_v9_eq]; exact transpose_at _ e d

theorem v3_at (c : Dev nD) (e d : Fin 1024) :
    (V1 m ρ c main_v3 : S1024x1024.Idx → EReal) (ix2 e d)
      = (((1 / 32 : ℝ)) : EReal) * (m ((c : Thread nD τ).loc main_arg2) : S1024x1024.Idx → EReal) (ix2 d e) := by
  rw [V1_main_v3_eq]
  show (broadcastInDim S1024x1024 ![] bcast_S_S1024x1024 (constant (F := Ideal) S_ .f32 0x3D000000#32)) (ix2 e d)
      * transpose S1024x1024 [1, 0] (m ((c : Thread nD τ).loc main_arg2)) transposes_S1024x1024_S1024x1024_1_0 (ix2 e d) = _
  rw [transpose_at, broadcastInDim_apply _ bcast_S_S1024x1024 _ (ix2 e d) (fun a => a.elim0) (fun a => a.elim0)]
  show Ideal.ofBits .f32 0x3D000000#32 * _ = _
  rw [Cert.AttnConsts.ofBits_scale]

theorem v5_at (c : Dev nD) (d : Fin 1024) :
    (V1 m ρ c main_v5 : S1024.Idx → EReal) (ix1 d)
      = (((1 / 32 : ℝ)) : EReal) * (m ((c : Thread nD τ).loc main_arg3) : S1024.Idx → EReal) (ix1 d) := by
  rw [V1_main_v5_eq]
  show (broadcastInDim S1024 ![] bcast_S_S1024 (constant (F := Ideal) S_ .f32 0x3D000000#32)) (ix1 d) * _ = _
  rw [broadcastInDim_apply _ bcast_S_S1024 _ (ix1 d) (fun a => a.elim0) (fun a => a.elim0)]
  show Ideal.ofBits .f32 0x3D000000#32 * _ = _
  rw [Cert.AttnConsts.ofBits_scale]

end Cert.KernelIdeal.Whole

end
-- ==== Proof.Spec.lean ====
/-
  The specification: adjacency-masked self-attention over 4096 sentences of dimension 1024, as ONE real-valued
  function of real inputs. Keys and values are the affine images x·Wkᵀ + bk and x·Wvᵀ + bv; the query carries the
  scale 1/32 = 1/√1024 on its weights and bias; the score of sentence i against j is the inner product of i's query
  with j's key; a score is replaced by the sentinel −10000 where the adjacency entry is 0 or the score itself is 0;
  each row is normalised by the softmax (stated with the row maximum subtracted, which changes nothing over the
  reals but is how both programs compute it); the result is the weighted sum of the values, clamped at zero.

  Both programs are shown to compute `out`: the kernel by folding key tiles into running statistics, the reference
  by forming the whole score matrix. The adjacency input is a 0/1 mask (`adj01`): the reference multiplies the score by it.
-/
import Mathlib.Analysis.SpecialFunctions.Exp
import Mathlib.Data.EReal.Basic
import Mathlib.Algebra.BigOperators.Fin
import Idealize.ShloMosaic.Lib.ValueIdx

noncomputable section

open scoped BigOperators

namespace Cert.AttnSpec

open Idealize.ShloMosaic Idealize.ShloMosaic.ValueIdx

/-- The eight inputs as real arrays; the adjacency entries are 0 or 1. -/
structure Inputs where
  x : Fin 4096 → Fin 1024 → ℝ
  adj : Fin 4096 → Fin 4096 → ℝ
  wq : Fin 1024 → Fin 1024 → ℝ
  bq : Fin 1024 → ℝ
  wk : Fin 1024 → Fin 1024 → ℝ
  bk : Fin 1024 → ℝ
  wv : Fin 1024 → Fin 1024 → ℝ
  bv : Fin 1024 → ℝ
  adj01 : ∀ i j, adj i j = 0 ∨ adj i j = 1

variable (I : Inputs)

/-- Sentence `j`'s key, coordinate `d`. -/
def key (j : Fin 4096) (d : Fin 1024) : ℝ := ∑ e, I.x j e * I.wk d e + I.bk d
/-- Sentence `j`'s value, coordinate `d`. -/
def value (j : Fin 4096) (d : Fin 1024) : ℝ := ∑ e, I.x j e * I.wv d e + I.bv d
/-- Sentence `i`'s query with the attention scale 1/32 folded into weights and bias. -/
def query (i : Fin 4096) (d : Fin 1024) : ℝ := ∑ e, I.x i e * ((1 / 32 : ℝ) * I.wq d e) + (1 / 32 : ℝ) * I.bq d
/-- The score of `i` against `j`. -/
def score (i j : Fin 4096) : ℝ := ∑ d, query I i d * key I j d
/-- The masked score: the sentinel where the adjacency entry or the score is zero. -/
def logit (i j : Fin 4096) : ℝ := if I.adj i j = 0 ∨ score I i j = 0 then -10000 else score I i j
/-- Row `i`'s largest masked score. -/
def rowMax (i : Fin 4096) : ℝ := Finset.univ.sup' Finset.univ_nonempty (logit I i)
/-- The unnormalised attention weight. -/
def weight (i j : Fin 4096) : ℝ := Real.exp (logit I i j - rowMax I i)
/-- The softmax denominator of row `i`. -/
def denom (i : Fin 4096) : ℝ := ∑ j, weight I i j
/-- The unnormalised weighted sum of the values. -/
def numer (i : Fin 4096) (d : Fin 1024) : ℝ := ∑ j, weight I i j * value I j d
/-- The result: the attention output clamped at zero. -/
def out (i : Fin 4096) (d : Fin 1024) : ℝ := max (numer I i d / denom I i) 0

theorem weight_pos (i j : Fin 4096) : 0 < weight I i j := Real.exp_pos _
theorem denom_pos (i : Fin 4096) : 0 < denom I i :=
  Finset.sum_pos (fun j _ => weight_pos I i j) Finset.univ_nonempty

abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩

/-- The eight argument arrays, as extended reals, hold the real inputs `I`. -/
structure Holds (a0 : S4096x1024.Idx → EReal) (a1 : S4096x4096.Idx → EReal) (a2 : S1024x1024.Idx → EReal) (a3 : S1024.Idx → EReal)
    (a4 : S1024x1024.Idx → EReal) (a5 : S1024.Idx → EReal) (a6 : S1024x1024.Idx → EReal) (a7 : S1024.Idx → EReal) : Prop where
  x : ∀ i e, a0 (ix2 i e) = ((I.x i e : ℝ) : EReal)
  adj : ∀ i j, a1 (ix2 i j) = ((I.adj i j : ℝ) : EReal)
  wq : ∀ d e, a2 (ix2 d e) = ((I.wq d e : ℝ) : EReal)
  bq : ∀ d, a3 (ix1 d) = ((I.bq d : ℝ) : EReal)
  wk : ∀ d e, a4 (ix2 d e) = ((I.wk d e : ℝ) : EReal)
  bk : ∀ d, a5 (ix1 d) = ((I.bk d : ℝ) : EReal)
  wv : ∀ d e, a6 (ix2 d e) = ((I.wv d e : ℝ) : EReal)
  bv : ∀ d, a7 (ix1 d) = ((I.bv d : ℝ) : EReal)

/-- A result array holds `out`. -/
def IsOut (r : S4096x1024.Idx → EReal) : Prop := ∀ (i : Fin 4096) (d : Fin 1024), r (ix2 i d) = ((out I i d : ℝ) : EReal)

/-- Two arrays that both hold `out` are equal. -/
theorem IsOut.unique {r r' : S4096x1024.Idx → EReal} (h : IsOut I r) (h' : IsOut I r') : r = r' := by
  funext j
  rw [eq_ix2 j]
  exact (h _ _).trans (h' _ _).symm

end Cert.AttnSpec

end
-- ==== Proof.ProjectionValue.lean ====
/-
  What the projection region leaves in its two output arrays: the key rows and the value rows of the specification.
  A point's block is rows [512 t, 512 t + 512) of the array; the body's product with the (already transposed)
  weights read at an index is the sum over the contracted coordinate; the eight blocks cover the array.
-/
import proofs.«410202_j60206851555563_3_alg».proof.Proof.Projection
import proofs.«410202_j60206851555563_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjValue

open Idealize.ShloMosaic Idealize.ShloMosaic.TcCoe Idealize.ShloMosaic.ValueIdx Idealize.SL.Sem
open Cert.KernelIdeal Cert.KernelIdeal.Gen Cert.KernelIdeal.Proj Cert.AttnSpec

variable (V : (c : Dev nD) → (b : Ref sig .tc) → Buf (Elt Ideal) ((c : Thread nD τ).loc b)) (c : Dev nD) (I : Inputs)

/-! ## The product's operand indices, axis by axis -/

theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a block of rows with a square matrix, onto the zero accumulator, at row p and column d:
    the sum over the contracted coordinate. -/
theorem matmul_at (x : FVec Ideal S512x1024 .bf16) (w : FVec Ideal S1024x1024 .bf16) (p : Fin 512) (d : Fin 1024) :
    (matmul dot_S512x1024_S1024x1024_S512x1024_1_0_0_1_n_n none x w (constant (F := Ideal) S512x1024 .f32 0x00000000#32) : FVec Ideal S512x1024 .f32) (ix2 p d)
      = ∑ k : Fin 1024, x (ix2 p k) * w (ix2 k d) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p d) ((ValueIdx.contrEquiv1 dot_S512x1024_S1024x1024_S512x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x1024_S512x1024_1_0_0_1_n_n.rhsIdx (ix2 p d) ((ValueIdx.contrEquiv1 dot_S512x1024_S1024x1024_S512x1024_1_0_0_1_n_n 1024 rfl rfl).symm k) = ix2 k d := funext fun a => Fin.ext (by
    match a with
    | ⟨0, _⟩ => exact (rhs_proj_0 _ _).trans hk
    | ⟨1, _⟩ => exact rhs_proj_1 _ _)
  rw [el, er]

/-- The bias vector viewed as one row and repeated down the block reads, at row p and column d, its d-th entry. -/
theorem bias_at (b : Vec Ideal S1024 .f32) (p : Fin 512) (d : Fin 1024) :
    (broadcastTo S512x1024 (shapeCast S1x1024 b shapeCasts_S1024_S1x1024) broadcasts_S1x1024_S512x1024 : FVec Ideal S512x1024 .f32) (ix2 p d) = b (ix1 d) := by
  refine (broadcastTo_apply _ broadcasts_S1x1024_S512x1024 (ix2 p d) (ix2 (⟨0, Nat.one_pos⟩ : Fin 1) d) (fun a => ?_)).trans ?_
  · match a with
    | ⟨0, _⟩ => show 0 = if (1 : Nat) = 1 then 0 else _; rw [if_pos rfl]
    | ⟨1, _⟩ => show d.val = if (1024 : Nat) = 1 then 0 else d.val; rw [if_neg (by decide)]
  · refine (shapeCast_addUnit_apply ![1024] b shapeCasts_S1024_S1x1024 (ix2 (⟨0, Nat.one_pos⟩ : Fin 1) d)).trans ?_
    congr 1
    funext a
    match a with
    | ⟨0, _⟩ => rfl

/-- What a point stores as its key block, at row p and column d: the row's inner product with column d of the
    weights it was handed, plus the bias. -/
theorem pay2_at (x : Vec Ideal S512x1024 .f32) (w : Vec Ideal S1024x1024 .bf16) (b : Vec Ideal S1024 .f32) (p : Fin 512) (d : Fin 1024) :
    (k0_pay2 x w b : FVec Ideal S512x1024 .bf16) (ix2 p d) = (∑ k : Fin 1024, x (ix2 p k) * w (ix2 k d)) + b (ix1 d) := by
  unfold k0_pay2 k0_pay1
  rw [truncf_apply, addf_apply, shapeCast_self, matmul_at, bias_at]
  rfl

theorem pay3_at (x : Vec Ideal S512x1024 .f32) (w : Vec Ideal S1024x1024 .bf16) (b : Vec Ideal S1024 .f32) (p : Fin 512) (d : Fin 1024) :
    (k0_pay3 x w b : FVec Ideal S512x1024 .bf16) (ix2 p d) = (∑ k : Fin 1024, x (ix2 p k) * w (ix2 k d)) + b (ix1 d) := by
  unfold k0_pay3 k0_pay1
  rw [truncf_apply, addf_apply, shapeCast_self, matmul_at, bias_at]
  rfl

/-! ## The array a projection leaves, as one function of the arrays it reads -/

/-- Row i₀ of the sentence array against column i₁ of the (transposed) weight array, plus entry i₁ of the bias. -/
def affG (X : S4096x1024.Idx → EReal) (W : S1024x1024.Idx → EReal) (B : S1024.Idx → EReal) : S4096x1024.Idx → EReal :=
  fun i => (∑ k : Fin 1024, X (ix2 (⟨(i 0).val, (i 0).isLt⟩ : Fin 4096) k) * W (ix2 k (⟨(i 1).val, (i 1).isLt⟩ : Fin 1024)))
    + B (ix1 (⟨(i 1).val, (i 1).isLt⟩ : Fin 1024))

theorem affG_at (X : S4096x1024.Idx → EReal) (W : S1024x1024.Idx → EReal) (B : S1024.Idx → EReal) (j : Fin 4096) (d : Fin 1024) :
    affG X W B (ix2 j d) = (∑ k : Fin 1024, X (ix2 j k) * W (ix2 k d)) + B (ix1 d) := rfl

/-- A point's stored block is the block of `affG` at the point's rows: the rows it was handed are rows
    n·512 + p of the sentence array, the weights and the bias are the whole arrays. -/
theorem pay2_point (x : Vec Ideal S512x1024 .f32) (w : Vec Ideal S1024x1024 .bf16) (b : Vec Ideal S1024 .f32)
    (X : S4096x1024.Idx → EReal) (W : S1024x1024.Idx → EReal) (B : S1024.Idx → EReal) (n : ℕ)
    (hx : ∀ (y : S512x1024.Idx) (i : S4096x1024.Idx), (i 0).val = n * 512 + (y 0).val → (i 1).val = (y 1).val → x y = X i)
    (hw : ∀ y : S1024x1024.Idx, w y = W y) (hb : ∀ y : S1024.Idx, b y = B y)
    (y : S512x1024.Idx) (i : S4096x1024.Idx) (hi0 : (i 0).val = n * 512 + (y 0).val) (hi1 : (i 1).val = (y 1).val) :
    (k0_pay2 x w b : FVec Ideal S512x1024 .bf16) y = affG X W B i := by
  obtain ⟨p, d, rfl⟩ : ∃ (p : Fin 512) (d : Fin 1024), y = ix2 p d := ⟨y 0, y 1, eq_ix2 y⟩
  obtain ⟨r, d', rfl⟩ : ∃ (r : Fin 4096) (d' : Fin 1024), i = ix2 r d' := ⟨i 0, i 1, eq_ix2 i⟩
  have hr : r.val = n * 512 + p.val := hi0
  obtain rfl : d' = d := Fin.ext hi1
  rw [pay2_at, affG_at, hb]
  congr 1
  refine Finset.sum_congr rfl fun k _ => ?_
  rw [hw, hx (ix2 p k) (ix2 r k) hr rfl]

theorem pay3_point (x : Vec Ideal S512x1024 .f32) (w : Vec Ideal S1024x1024 .bf16) (b : Vec Ideal S1024 .f32)
    (X : S4096x1024.Idx → EReal) (W : S1024x1024.Idx → EReal) (B : S1024.Idx → EReal) (n : ℕ)
    (hx : ∀ (y : S512x1024.Idx) (i : S4096x1024.Idx), (i 0).val = n * 512 + (y 0).val → (i 1).val = (y 1).val → x y = X i)
    (hw : ∀ y : S1024x1024.Idx, w y = W y) (hb : ∀ y : S1024.Idx, b y = B y)
    (y : S512x1024.Idx) (i : S4096x1024.Idx) (hi0 : (i 0).val = n * 512 + (y 0).val) (hi1 : (i 1).val = (y 1).val) :
    (k0_pay3 x w b : FVec Ideal S512x1024 .bf16) y = affG X W B i := by
  obtain ⟨p, d, rfl⟩ : ∃ (p : Fin 512) (d : Fin 1024), y = ix2 p d := ⟨y 0, y 1, eq_ix2 y⟩
  obtain ⟨r, d', rfl⟩ : ∃ (r : Fin 4096) (d' : Fin 1024), i = ix2 r d' := ⟨i 0, i 1, eq_ix2 i⟩
  have hr : r.val = n * 512 + p.val := hi0
  obtain rfl : d' = d := Fin.ext hi1
  rw [pay3_at, affG_at, hb]
  congr 1
  refine Finset.sum_congr rfl fun k _ => ?_
  rw [hw, hx (ix2 p k) (ix2 r k) hr rfl]

/-! ## A point's blocks, read off the arrays -/

theorem hz2 : (![0, 0] : Fin 2 → Nat) = fun _ => 0 := funext fun a => by fin_cases a <;> rfl
theorem hz1 : (![0] : Fin 1 → Nat) = fun _ => 0 := funext fun a => by fin_cases a; rfl

/-- The block indices over the grid: the sentence window and the two output windows move down the rows with the
    point, the weights and biases stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Point t's sentence block is rows 512 t … 512 t + 511 of the sentence array. -/
theorem xblk_apply (t : Fin cfg0.N) (y : S512x1024.Idx) (i : S4096x1024.Idx)
    (h0 : (i 0).val = t.val * 512 + (y 0).val) (h1 : (i 1).val = (y 1).val) :
    (iblk0 V c 0 t : Vec Ideal S512x1024 .f32) y = (V c main_arg0 : S4096x1024.Idx → EReal) i := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 512 + 1 * (y 0).val = (i 0).val; rw [e0, h0]; omega
  | ⟨1, _⟩ => show win0_0.index t (1 : Fin 2) * 1024 + 1 * (y 1).val = (i 1).val; rw [e1, h1]; omega

/-- The key weights' block is the whole (transposed) weight array, at every point. -/
theorem wkblk_apply (t : Fin cfg0.N) (y : S1024x1024.Idx) :
    (iblk0 V c 1 t : Vec Ideal S1024x1024 .bf16) y = (V c main_v7 : S1024x1024.Idx → EReal) y := by
  obtain ⟨-, -, e0, e1, -⟩ := idx_facts t
  unfold iblk0
  rw [View.read_apply]
  show V c main_v7 _ = V c main_v7 _
  congr 1
  funext a; apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- The key bias's block is the whole bias vector. -/
theorem bkblk_apply (t : Fin cfg0.N) (y : S1024.Idx) :
    (iblk0 V c 2 t : Vec Ideal S1024 .f32) y = (V c main_arg5 : S1024.Idx → EReal) y := by
  obtain ⟨-, -, -, -, e0, -⟩ := idx_facts t
  unfold iblk0
  rw [View.read_apply]
  show V c main_arg5 _ = V c main_arg5 _
  congr 1
  funext a; apply Fin.ext
  match a with
  | ⟨0, _⟩ => show win0_2.index t (0 : Fin 1) * 1024 + 1 * (y 0).val = (y 0).val; rw [e0]; omega

/-- The value weights' block is the whole (transposed) weight array. -/
theorem wvblk_apply (t : Fin cfg0.N) (y : S1024x1024.Idx) :
    (iblk0 V c 3 t : Vec Ideal S1024x1024 .bf16) y = (V c main_v9 : S1024x1024.Idx → EReal) y := by
  obtain ⟨-, -, -, -, -, e0, e1, -⟩ := idx_facts t
  unfold iblk0
  rw [View.read_apply]
  show V c main_v9 _ = V c main_v9 _
  congr 1
  funext a; apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- The value bias's block is the whole bias vector. -/
theorem bvblk_apply (t : Fin cfg0.N) (y : S1024.Idx) :
    (iblk0 V c 4 t : Vec Ideal S1024 .f32) y = (V c main_arg7 : S1024.Idx → EReal) y := by
  obtain ⟨-, -, -, -, -, -, -, e0, -⟩ := idx_facts t
  unfold iblk0
  rw [View.read_apply]
  show V c main_arg7 _ = V c main_arg7 _
  congr 1
  funext a; apply Fin.ext
  match a with
  | ⟨0, _⟩ => show win0_4.index t (0 : Fin 1) * 1024 + 1 * (y 0).val = (y 0).val; rw [e0]; omega

/-! ## What a point writes back -/

/-- Point t writes back, as its key block, block t of `affG` of the sentence array, the key weights and the key bias. -/
theorem key_flushed (t : Fin cfg0.N) :
    (dat0 V c).flushed 5 t = ((cfg0.win 5).blk t).view.read (Elt Ideal) (affG (V c main_arg0) (V c main_v7) (V c main_arg5)) := by
  show (cfg0.win 5).cut (grid0.coords t) ((dat0 V c).after 5 t) = _
  rw [after0_5]
  unfold keyOut
  rw [View.canon_unit_zero hz2]
  simp only [View.ld_unit_zero (S := S512x1024) hz2, View.ld_unit_zero (S := S1024x1024) hz2, View.ld_unit_zero (S := S1024) hz1]
  obtain ⟨-, -, -, -, -, -, -, -, e0, e1, -⟩ := idx_facts t
  funext y
  show (k0_pay2 (iblk0 V c 0 t) (iblk0 V c 1 t) (iblk0 V c 2 t) : FVec Ideal S512x1024 .bf16) y
    = affG (V c main_arg0) (V c main_v7) (V c main_arg5) (((cfg0.win 5).blk t).view.emb y)
  refine pay2_point _ _ _ _ _ _ t.val (fun y' i' h0 h1 => xblk_apply V c t y' i' h0 h1) (wkblk_apply V c t) (bkblk_apply V c t) y _ ?_ ?_
  · show win0_5.index t (0 : Fin 2) * 512 + 1 * (y 0).val = t.val * 512 + (y 0).val; rw [e0]; omega
  · show win0_5.index t (1 : Fin 2) * 1024 + 1 * (y 1).val = (y 1).val; rw [e1]; omega

/-- Likewise the value block. -/
theorem val_flushed (t : Fin cfg0.N) :
    (dat0 V c).flushed 6 t = ((cfg0.win 6).blk t).view.read (Elt Ideal) (affG (V c main_arg0) (V c main_v9) (V c main_arg7)) := by
  show (cfg0.win 6).cut (grid0.coords t) ((dat0 V c).after 6 t) = _
  rw [after0_6]
  unfold valOut
  rw [View.canon_unit_zero hz2]
  simp only [View.ld_unit_zero (S := S512x1024) hz2, View.ld_unit_zero (S := S1024x1024) hz2, View.ld_unit_zero (S := S1024) hz1]
  obtain ⟨-, -, -, -, -, -, -, -, -, -, e0, e1⟩ := idx_facts t
  funext y
  show (k0_pay3 (iblk0 V c 0 t) (iblk0 V c 3 t) (iblk0 V c 4 t) : FVec Ideal S512x1024 .bf16) y
    = affG (V c main_arg0) (V c main_v9) (V c main_arg7) (((cfg0.win 6).blk t).view.emb y)
  refine pay3_point _ _ _ _ _ _ t.val (fun y' i' h0 h1 => xblk_apply V c t y' i' h0 h1) (wvblk_apply V c t) (bvblk_apply V c t) y _ ?_ ?_
  · show win0_6.index t (0 : Fin 2) * 512 + 1 * (y 0).val = t.val * 512 + (y 0).val; rw [e0]; omega
  · show win0_6.index t (1 : Fin 2) * 1024 + 1 * (y 1).val = (y 1).val; rw [e1]; omega

/-! ## The eight blocks cover the array -/

theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v10_0).slice (win0_5.rect t)).set ↔ _
  rw [View.set_slice_whole, Rect.mem_set_unit]
  exact Iff.rfl

theorem mem_blk6 (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v10_1).slice (win0_6.rect t)).set ↔ _
  rw [View.set_slice_whole, Rect.mem_set_unit]
  exact Iff.rfl

/-- Row r of the key array is written by point r / 512. -/
theorem key_cover (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, e0, e1, -⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- Row r of the value array is written by point r / 512. -/
theorem val_cover (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, -, e0, e1⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; rw [e0, ht]; omega
  | ⟨1, _⟩ => show win0_6.index t (1 : Fin 2) * 1024 ≤ (i 1).val ∧ (i 1).val < win0_6.index t (1 : Fin 2) * 1024 + 1024; rw [e1]; omega

/-! ## The two arrays after the region -/

theorem key_final : (dat0 V c).arrAt 5 cfg0.N = affG (V c main_arg0) (V c main_v7) (V c main_arg5) :=
  (dat0 V c).arrAt_eq_of_cover 5 (affG (V c main_arg0) (V c main_v7) (V c main_arg5)) (fun t _ => key_flushed V c t) key_cover

theorem val_final : (dat0 V c).arrAt 6 cfg0.N = affG (V c main_arg0) (V c main_v9) (V c main_arg7) :=
  (dat0 V c).arrAt_eq_of_cover 6 (affG (V c main_arg0) (V c main_v9) (V c main_arg7)) (fun t _ => val_flushed V c t) val_cover

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `affG` of arrays that hold real inputs is the real affine image. -/
theorem affG_real (X : S4096x1024.Idx → EReal) (W : S1024x1024.Idx → EReal) (B : S1024.Idx → EReal)
    (x : Fin 4096 → Fin 1024 → ℝ) (w : Fin 1024 → Fin 1024 → ℝ) (b : Fin 1024 → ℝ)
    (hx : ∀ (j : Fin 4096) (e : Fin 1024), X (ix2 j e) = ((x j e : ℝ) : EReal))
    (hw : ∀ (e d : Fin 1024), W (ix2 e d) = ((w d e : ℝ) : EReal))
    (hb : ∀ d : Fin 1024, B (ix1 d) = ((b d : ℝ) : EReal)) (j : Fin 4096) (d : Fin 1024) :
    affG X W B (ix2 j d) = ((∑ e, x j e * w d e + b d : ℝ) : EReal) := by
  rw [affG_at, hb, EReal.coe_add, coe_sum]
  congr 1
  refine Finset.sum_congr rfl fun k _ => ?_
  rw [hx, hw, EReal.coe_mul]

/-! ## The two statements -/

/-- The key array after the region. `main_v7` holds the key weights transposed. -/
theorem keys_at
    (hx : ∀ (j : Fin 4096) (e : Fin 1024), (V c main_arg0 : Cert.KernelIdeal.S4096x1024.Idx → EReal) (ix2 j e) = ((I.x j e : ℝ) : EReal))
    (hw : ∀ (e d : Fin 1024), (V c main_v7 : Cert.KernelIdeal.S1024x1024.Idx → EReal) (ix2 e d) = ((I.wk d e : ℝ) : EReal))
    (hb : ∀ d : Fin 1024, (V c main_arg5 : Cert.KernelIdeal.S1024.Idx → EReal) (ix1 d) = ((I.bk d : ℝ) : EReal))
    (j : Fin 4096) (d : Fin 1024) :
    ((dat0 V c).arrAt 5 cfg0.N : Cert.KernelIdeal.S4096x1024.Idx → EReal) (ix2 j d) = ((key I j d : ℝ) : EReal) :=
  (congrFun (key_final V c) (ix2 j d)).trans (affG_real _ _ _ I.x I.wk I.bk hx hw hb j d)

/-- The value array after the region. `main_v9` holds the value weights transposed. -/
theorem values_at
    (hx : ∀ (j : Fin 4096) (e : Fin 1024), (V c main_arg0 : Cert.KernelIdeal.S4096x1024.Idx → EReal) (ix2 j e) = ((I.x j e : ℝ) : EReal))
    (hw : ∀ (e d : Fin 1024), (V c main_v9 : Cert.KernelIdeal.S1024x1024.Idx → EReal) (ix2 e d) = ((I.wv d e : ℝ) : EReal))
    (hb : ∀ d : Fin 1024, (V c main_arg7 : Cert.KernelIdeal.S1024.Idx → EReal) (ix1 d) = ((I.bv d : ℝ) : EReal))
    (j : Fin 4096) (d : Fin 1024) :
    ((dat0 V c).arrAt 6 cfg0.N : Cert.KernelIdeal.S4096x1024.Idx → EReal) (ix2 j d) = ((value I j d : ℝ) : EReal) :=
  (congrFun (val_final V c) (ix2 j d)).trans (affG_real _ _ _ I.x I.wv I.bv hx hw hb j d)

end Cert.KernelIdeal.ProjValue

end
-- ==== Proof.Step.lean ====
/-
  One key tile folded into a query tile's running softmax statistics, as plain functions on extended reals: the
  tile's scores, their masking, the new running maximum, the factor by which the old statistics are rescaled,
  the tile's unnormalised weights, the new denominator and numerator, the query projection that starts a row of
  tiles, and the normalisation that ends it. The attention kernel's scratch buffers hold exactly these, tile after tile.
-/
import Mathlib.Data.EReal.Basic
import Mathlib.Algebra.BigOperators.Fin
import Idealize.ShloMosaic.PureOps.Ideal

noncomputable section

open scoped BigOperators

namespace Cert.AttnStep

open Idealize.ShloMosaic

/-- An `a × b` tile of extended reals. -/
abbrev Tile (a b : ℕ) := Fin a → Fin b → EReal

/-- The projected queries of a tile of 512 sentences: x · W + b with W already transposed and scaled. -/
def projQ (x : Tile 512 1024) (w : Tile 1024 1024) (b : Fin 1024 → EReal) : Tile 512 1024 :=
  fun r d => ∑ e, x r e * w e d + b d

/-- The scores of 512 queries against the 512 keys of a tile. -/
def scores (q k : Tile 512 1024) : Tile 512 512 := fun r j => ∑ d, q r d * k j d

/-- Masking: the sentinel −10000 where the adjacency entry or the score is zero. -/
def masked (adj s : Tile 512 512) : Tile 512 512 :=
  fun r j => if adj r j = 0 ∨ s r j = 0 then (((-10000 : ℝ)) : EReal) else s r j

/-- A tile's row maximum, folded from −∞. -/
def tileMax (a : Tile 512 512) (r : Fin 512) : EReal := (Finset.univ : Finset (Fin 512)).fold max ⊥ (a r)

/-- The running maximum after the tile. -/
def newMax (m : Fin 512 → EReal) (a : Tile 512 512) (r : Fin 512) : EReal := max (m r) (tileMax a r)

/-- The factor e^(old max − new max) by which the old denominator and numerator are rescaled. -/
def rescale (m m' : Fin 512 → EReal) (r : Fin 512) : EReal := Ideal.exp (m r - m' r)

/-- The tile's unnormalised weights e^(masked score − new max). -/
def probs (a : Tile 512 512) (m' : Fin 512 → EReal) : Tile 512 512 := fun r j => Ideal.exp (a r j - m' r)

/-- The running denominator after the tile. -/
def newDen (l α : Fin 512 → EReal) (p : Tile 512 512) (r : Fin 512) : EReal := α r * l r + ∑ j, p r j

/-- The running numerator after the tile. -/
def newNum (acc : Tile 512 1024) (α : Fin 512 → EReal) (p : Tile 512 512) (v : Tile 512 1024) : Tile 512 1024 :=
  fun r d => α r * acc r d + ∑ j, p r j * v j d

/-- The output tile: numerator over denominator, clamped at zero. -/
def normalised (num : Tile 512 1024) (den : Fin 512 → EReal) : Tile 512 1024 :=
  fun r d => max (Ideal.div (num r d) (den r)) 0

/-- The statistics a query tile carries from one key tile to the next. -/
structure Stats where
  mx : Fin 512 → EReal
  den : Fin 512 → EReal
  num : Tile 512 1024

/-- The statistics at the start of a row of tiles: maximum −∞, denominator and numerator zero. -/
def Stats.reset : Stats := ⟨fun _ => ⊥, fun _ => 0, fun _ _ => 0⟩

/-- Fold one key tile (its keys `k`, values `v`, adjacency entries `adj`) into the statistics of the queries `q`. -/
def Stats.fold (s : Stats) (q k v : Tile 512 1024) (adj : Tile 512 512) : Stats :=
  let a := masked adj (scores q k)
  let m' := newMax s.mx a
  let α := rescale s.mx m'
  let p := probs a m'
  ⟨m', newDen s.den α p, newNum s.num α p v⟩

end Cert.AttnStep

end
-- ==== Proof.AttentionPayloads.lean ====
/-
  The attention body's arithmetic, payload by payload, read at the ideal instance index by index: each is one of the
  textbook step's functions — the query projection, the masked scores of a key tile, the new running maximum, the
  rescaling factor, the tile's weights, the new denominator and numerator, the normalised output, and the reset values.
-/
import proofs.«410202_j60206851555563_3_alg».proof.Proof.Gen.KernelIdeal.Skeleton
import proofs.«410202_j60206851555563_3_alg».proof.Proof.Step
import proofs.«410202_j60206851555563_3_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnPieces

open Idealize.ShloMosaic Idealize.ShloMosaic.TcCoe Idealize.ShloMosaic.ValueIdx Idealize.SL.Sem
open Cert.KernelIdeal Cert.KernelIdeal.Gen Cert.AttnStep

/-- Arrays of the body's shapes as tiles of extended reals. -/
abbrev tileF (v : Vec Ideal S512x1024 .f32) : Tile 512 1024 := fun r d => v (ix2 r d)
abbrev tileB (v : Vec Ideal S512x1024 .bf16) : Tile 512 1024 := fun r d => v (ix2 r d)
abbrev tileA (v : Vec Ideal S512x512 .f32) : Tile 512 512 := fun r j => v (ix2 r j)
abbrev colv (v : Vec Ideal S512x1 .f32) : Fin 512 → EReal := fun r => v (ix2 r 0)
abbrev mat (v : Vec Ideal S1024x1024 .bf16) : Tile 1024 1024 := fun e d => v (ix2 e d)
abbrev vec (v : Vec Ideal S1024 .f32) : Fin 1024 → EReal := fun d => v (ix1 d)

/-! ## Layout operations at explicit coordinates -/

section Layout
variable {α : Type}

/-- A column `[a, 1]` broadcast along its rows to `[a, b]` reads, at `(p, c)`, the column's entry at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The lane reductions at explicit coordinates -/

/-- The source index over row `r` with lane `k` inserted is `(r, k)`. -/
theorem lift_row (r : Fin 512) (k : Fin 512) :
    reduces_S512x512_S512.lift (ix1 r) k = ix2 r k :=
  funext fun c => Fin.ext (by
    match c with
    | ⟨0, _⟩ => rfl
    | ⟨1, _⟩ => rfl)

/-- A row maximum over the lanes, from minus infinity, as a column. -/
theorem rowMax_apply (a : FVec Ideal S512x512 .f32) (r : Fin 512) :
    shapeCast S512x1 (multiReduction (F := Ideal) .maximumf [1] S512 a 0xFF800000#32 reduces_S512x512_S512 (.inl rfl) rfl)
        shapeCasts_S512_S512x1 (ix2 r 0)
      = tileMax (tileA a) r := by
  refine (shapeCast_a_a1_apply _ _ r 0).trans ?_
  refine (Ideal.multiReduction_maximumf_single a _ reduces_S512x512_S512 _ _ (ix1 r)).trans ?_
  unfold tileMax
  rw [Ideal.ofBits_def, Cert.AttnConsts.ofBits_negInf]
  refine congrArg (Finset.fold max ⊥ · Finset.univ) (funext fun k => ?_)
  exact congrArg a (lift_row r k)

/-- A row sum over the lanes, as a column. -/
theorem rowSum_apply (a : FVec Ideal S512x512 .f32) (r : Fin 512) :
    shapeCast S512x1 (multiReduction (F := Ideal) .add [1] S512 a 0x00000000#32 reduces_S512x512_S512 (.inl rfl) rfl)
        shapeCasts_S512_S512x1 (ix2 r 0)
      = ∑ j : Fin 512, a (ix2 r j) := by
  refine (shapeCast_a_a1_apply _ _ r 0).trans ?_
  refine (Ideal.multiReduction_add_single a _ reduces_S512x512_S512 _ _ (ix1 r)).trans ?_
  exact Finset.sum_congr rfl fun k _ => congrArg a (lift_row r k)

/-! ## The three products onto a zero accumulator, at explicit coordinates

Each has one contracting axis; the contraction index is its one coordinate, and the operand indices at output
`(r, c)` and contraction coordinate `k` are `(r, k)` and `(k, c)`. -/

theorem lhs_projDot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_projDot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_projDot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_projDot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows of 1024 against a 1024 × 1024 matrix: the sum over the 1024 shared coordinates. -/
theorem projDot_apply (x : FVec Ideal S512x1024 .bf16) (y : FVec Ideal S1024x1024 .bf16) (r : Fin 512) (c : Fin 1024) :
    matmul dot_S512x1024_S1024x1024_S512x1024_1_0_0_1_n_n none x y (constant (F := Ideal) S512x1024 .f32 0x00000000#32) (ix2 r c)
      = ∑ k : Fin 1024, x (ix2 r k) * y (ix2 k c) := by
  refine (Ideal.matmul_constant_zero_apply dot_S512x1024_S1024x1024_S512x1024_1_0_0_1_n_n none x y (ix2 r c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun a => Fin.ext (by
    match a with
    | ⟨0, _⟩ => exact lhs_projDot_0 _ _
    | ⟨1, _⟩ => exact (lhs_projDot_1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun a => Fin.ext (by
    match a with
    | ⟨0, _⟩ => exact (rhs_projDot_0 _ _).trans hk
    | ⟨1, _⟩ => exact rhs_projDot_1 _ _)
  rw [el, er]

theorem lhs_scoreDot_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_scoreDot_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_scoreDot_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_scoreDot_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Rows of 1024 against a 1024 × 512 matrix: the sum over the 1024 shared coordinates. -/
theorem scoreDot_apply (x : FVec Ideal S512x1024 .bf16) (y : FVec Ideal S1024x512 .bf16) (r : Fin 512) (c : Fin 512) :
    matmul dot_S512x1024_S1024x512_S512x512_1_0_0_1_n_n none x y (constant (F := Ideal) S512x512 .f32 0x00000000#32) (ix2 r c)
      = ∑ k : Fin 1024, x (ix2 r k) * y (ix2 k c) := by
  refine (Ideal.matmul_constant_zero_apply dot_S512x1024_S1024x512_S512x512_1_0_0_1_n_n none x y (ix2 r c)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r c) ((contrEquiv1 dot_S512x1024_S1024x512_S512x512_1_0_0_1_n_n 1024 rfl rfl).symm k) = ix2 r k := funext fun a => Fin.ext (by
    match a with
    | ⟨0, _⟩ => exact lhs_scoreDot_0 _ _
    | ⟨1, _⟩ => exact (lhs_scoreDot_1 _ _).trans hk)
  have er : dot_S512x1024_S1024x512_S512x512_1_0_0_1_n_n.rhsIdx (ix2 r c) ((contrEquiv1 dot_S512x1024_S1024x512_S512x512_1_0_0_1_n_n 1024 rfl rfl).symm k) = ix2 k c := funext fun a => Fin.ext (by
    match a with
    | ⟨0, _⟩ => exact (rhs_scoreDot_0 _ _).trans hk
    | ⟨1, _⟩ => exact rhs_scoreDot_1 _ _)
  rw [el, er]

theorem lhs_valueDot_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_valueDot_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_valueDot_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_valueDot_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- Rows of 512 against a 512 × 1024 matrix: the sum over the 512 shared coordinates. -/
theorem valueDot_apply (x : FVec Ideal S512x512 .bf16) (y : FVec Ideal S512x1024 .bf16) (r : Fin 512) (c : Fin 1024) :
    matmul dot_S512x512_S512x1024_S512x1024_1_0_0_1_n_n none x y (constant (F := Ideal) S512x1024 .f32 0x00000000#32) (ix2 r c)
      = ∑ k : Fin 512, x (ix2 r k) * y (ix2 k c) := by
  refine (Ideal.matmul_constant_zero_apply dot_S512x512_S512x1024_S512x1024_1_0_0_1_n_n none x y (ix2 r c)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r c) ((contrEquiv1 dot_S512x512_S512x1024_S512x1024_1_0_0_1_n_n 512 rfl rfl).symm k) = ix2 r k := funext fun a => Fin.ext (by
    match a with
    | ⟨0, _⟩ => exact lhs_valueDot_0 _ _
    | ⟨1, _⟩ => exact (lhs_valueDot_1 _ _).trans hk)
  have er : dot_S512x512_S512x1024_S512x1024_1_0_0_1_n_n.rhsIdx (ix2 r c) ((contrEquiv1 dot_S512x512_S512x1024_S512x1024_1_0_0_1_n_n 512 rfl rfl).symm k) = ix2 k c := funext fun a => Fin.ext (by
    match a with
    | ⟨0, _⟩ => exact (rhs_valueDot_0 _ _).trans hk
    | ⟨1, _⟩ => exact rhs_valueDot_1 _ _)
  rw [el, er]

/-! ## The mask's compare-or-select -/

/-- The bit "equal" of two extended reals, decided. -/
theorem cmp_oeq_of_eq {a b : EReal} (h : a = b) : Ideal.cmp .oeq a b = 1#1 := by
  unfold Ideal.cmp; simp [h]
theorem cmp_oeq_of_ne {a b : EReal} (h : a ≠ b) : Ideal.cmp .oeq a b = 0#1 := by
  unfold Ideal.cmp; simp [h]

/-- Selecting the sentinel where either of two values is zero, else the second value: the if-then-else on the two
    equalities, by cases on them. -/
theorem maskSel (a s : EReal) :
    Scalar.select (IntOp.ori (Ideal.cmp .oeq a (Ideal.ofBits .f32 0x00000000#32)) (Ideal.cmp .oeq s (Ideal.ofBits .f32 0x00000000#32)))
        (Ideal.ofBits .f32 0xC61C4000#32) s
      = if a = 0 ∨ s = 0 then (((-10000 : ℝ)) : EReal) else s := by
  rw [Cert.AttnConsts.ofBits_zero, Cert.AttnConsts.ofBits_sentinel]
  unfold IntOp.ori
  by_cases ha : a = 0
  · rw [cmp_oeq_of_eq ha, if_pos (Or.inl ha)]
    by_cases hs : s = 0
    · rw [cmp_oeq_of_eq hs]; exact select_one _ _
    · rw [cmp_oeq_of_ne hs]; exact select_one _ _
  · rw [cmp_oeq_of_ne ha]
    by_cases hs : s = 0
    · rw [cmp_oeq_of_eq hs, if_pos (Or.inr hs)]; exact select_one _ _
    · rw [cmp_oeq_of_ne hs, if_neg (not_or.mpr ⟨ha, hs⟩)]; exact select_zero _ _

/-- The same over whole tiles, read at `(r, j)`. -/
theorem maskSelect_apply (adj s : FVec Ideal S512x512 .f32) (r j : Fin 512) :
    select (ori (cmpf .oeq adj (broadcast S512x512 (Scalar.ofBits (F := Ideal) .f32 0x00000000#32)))
          (cmpf .oeq s (broadcast S512x512 (Scalar.ofBits (F := Ideal) .f32 0x00000000#32))))
        (broadcast S512x512 (Scalar.ofBits (F := Ideal) .f32 0xC61C4000#32)) s (ix2 r j)
      = if adj (ix2 r j) = 0 ∨ s (ix2 r j) = 0 then (((-10000 : ℝ)) : EReal) else s (ix2 r j) :=
  maskSel (adj (ix2 r j)) (s (ix2 r j))

/-- The scores of a query tile against a key tile: the product with the transposed keys. -/
theorem scoreMat_apply (q k : FVec Ideal S512x1024 .bf16) (r j : Fin 512) :
    matmul dot_S512x1024_S1024x512_S512x512_1_0_0_1_n_n none q
        (transpose S1024x512 [1, 0] (shapeCast S512x1024 k shapeCasts_S512x1024_S512x1024) transposes_S512x1024_p1_0_S1024x512)
        (constant (F := Ideal) S512x512 .f32 0x00000000#32) (ix2 r j)
      = scores (tileB q) (tileB k) r j := by
  refine (scoreDot_apply q _ r j).trans ?_
  unfold scores
  refine Finset.sum_congr rfl fun d _ => ?_
  refine congrArg (q (ix2 r d) * ·) ?_
  refine (transpose_ix2_apply _ transposes_S512x1024_p1_0_S1024x512 d j).trans ?_
  exact congrFun (shapeCast_self k _) _

/-- The query projection of the point's sentences. -/
theorem pay8_eq (v66 : Vec Ideal S512x1024 .f32) (v68 : Vec Ideal S1024x1024 .bf16) (v71 : Vec Ideal S1024 .f32) :
    tileB (k1_pay8 (F := Ideal) v66 v68 v71) = projQ (tileF v66) (mat v68) (vec v71) := by
  funext r d
  unfold k1_pay8 projQ
  refine (congrFun (shapeCast_self _ _) _).trans ?_
  show matmul dot_S512x1024_S1024x1024_S512x1024_1_0_0_1_n_n none (truncf .bf16 v66 bitsLt_bf16_f32)
        (shapeCast S1024x1024 v68 shapeCasts_S1024x1024_S1024x1024) (constant (F := Ideal) S512x1024 .f32 0x00000000#32) (ix2 r d)
      + broadcastTo S512x1024 (shapeCast S1x1024 (shapeCast S1024 v71 shapeCasts_S1024_S1024) shapeCasts_S1024_S1x1024)
          broadcasts_S1x1024_S512x1024 (ix2 r d)
    = ∑ e, v66 (ix2 r e) * v68 (ix2 e d) + v71 (ix1 d)
  rw [shapeCast_self v68, shapeCast_self v71]
  refine congrArg₂ (· + ·) (projDot_apply _ v68 r d) ?_
  refine (broadcastTo_1b_ab_apply _ broadcasts_S1x1024_S512x1024 r d).trans ?_
  exact shapeCast_a_1a_apply v71 shapeCasts_S1024_S1x1024 0 d

/-- The resident value rows pass through unchanged. -/
theorem pay9_eq (v10 : Vec Ideal S512x1024 .bf16) : k1_pay9 (F := Ideal) v10 = v10 := by
  exact shapeCast_self v10 _

/-- The masked scores of the queries `v3` against the keys `v7` under the adjacency entries `v12`. -/
theorem pay10_eq (v3 v7 : Vec Ideal S512x1024 .bf16) (v12 : Vec Ideal S512x512 .f32) :
    tileA (k1_pay10 (F := Ideal) v3 v7 v12) = masked (tileA v12) (scores (tileB v3) (tileB v7)) := by
  funext r j
  unfold k1_pay10 masked
  refine (maskSelect_apply v12 _ r j).trans ?_
  rw [scoreMat_apply v3 v7 r j]

/-- The new running maximum. -/
theorem pay11_eq (v3 v7 : Vec Ideal S512x1024 .bf16) (v12 : Vec Ideal S512x512 .f32) (v22 : Vec Ideal S512x1 .f32) :
    colv (k1_pay11 (F := Ideal) v3 v7 v12 v22) = newMax (colv v22) (masked (tileA v12) (scores (tileB v3) (tileB v7))) := by
  funext r
  rw [← pay10_eq]
  unfold k1_pay11 newMax
  exact congrArg (max (v22 (ix2 r 0))) (rowMax_apply (k1_pay10 (F := Ideal) v3 v7 v12) r)

/-- The rescaling factor. -/
theorem pay12_eq (v3 v7 : Vec Ideal S512x1024 .bf16) (v12 : Vec Ideal S512x512 .f32) (v22 : Vec Ideal S512x1 .f32) :
    colv (k1_pay12 (F := Ideal) v3 v7 v12 v22)
      = rescale (colv v22) (newMax (colv v22) (masked (tileA v12) (scores (tileB v3) (tileB v7)))) := by
  funext r
  rw [← pay11_eq]
  rfl

/-- The tile's weights. -/
theorem pay13_eq (v3 v7 : Vec Ideal S512x1024 .bf16) (v12 : Vec Ideal S512x512 .f32) (v22 : Vec Ideal S512x1 .f32) :
    tileA (k1_pay13 (F := Ideal) v3 v7 v12 v22)
      = probs (masked (tileA v12) (scores (tileB v3) (tileB v7))) (newMax (colv v22) (masked (tileA v12) (scores (tileB v3) (tileB v7)))) := by
  funext r j
  rw [← pay11_eq, ← pay10_eq]
  unfold k1_pay13 probs
  show Ideal.exp (k1_pay10 (F := Ideal) v3 v7 v12 (ix2 r j) - broadcastTo S512x512 (k1_pay11 (F := Ideal) v3 v7 v12 v22) broadcasts_S512x1_S512x512 (ix2 r j)) = _
  rw [broadcastTo_a1_ab_apply]

/-- The new denominator, before its store's identity reshape (`k1_pay1`). -/
theorem pay14_eq (v3 v7 : Vec Ideal S512x1024 .bf16) (v12 : Vec Ideal S512x512 .f32) (v22 v31 : Vec Ideal S512x1 .f32) :
    colv (k1_pay14 (F := Ideal) v3 v7 v12 v22 v31)
      = newDen (colv v31)
          (rescale (colv v22) (newMax (colv v22) (masked (tileA v12) (scores (tileB v3) (tileB v7)))))
          (probs (masked (tileA v12) (scores (tileB v3) (tileB v7))) (newMax (colv v22) (masked (tileA v12) (scores (tileB v3) (tileB v7))))) := by
  funext r
  rw [← pay13_eq, ← pay12_eq]
  unfold k1_pay14 newDen
  show k1_pay12 (F := Ideal) v3 v7 v12 v22 (ix2 r 0) * v31 (ix2 r 0) + _ = _
  exact congrArg (k1_pay12 (F := Ideal) v3 v7 v12 v22 (ix2 r 0) * v31 (ix2 r 0) + ·) (rowSum_apply (k1_pay13 (F := Ideal) v3 v7 v12 v22) r)

/-- The three stores' identity reshapes. -/
theorem pay1_eq (v35 : FVec Ideal S512x1 .f32) : k1_pay1 (F := Ideal) v35 = v35 := by
  exact shapeCast_self v35 _
theorem pay3_eq (v25 : FVec Ideal S512x1 .f32) : k1_pay3 (F := Ideal) v25 = v25 := by
  exact shapeCast_self v25 _

/-- The new numerator from the value rows `v11`, the rescaling factor `v27`, the weights `v30` and the old numerator `v39`. -/
theorem pay2_eq (v11 : FVec Ideal S512x1024 .bf16) (v27 : FVec Ideal S512x1 .f32) (v30 : FVec Ideal S512x512 .f32) (v39 : Vec Ideal S512x1024 .f32) :
    tileF (k1_pay2 (F := Ideal) v11 v27 v30 v39) = newNum (tileF v39) (colv v27) (tileA v30) (tileB v11) := by
  funext r d
  unfold k1_pay2 newNum
  refine (congrFun (shapeCast_self _ _) _).trans ?_
  show broadcastTo S512x1024 v27 broadcasts_S512x1_S512x1024 (ix2 r d) * v39 (ix2 r d)
      + matmul dot_S512x512_S512x1024_S512x1024_1_0_0_1_n_n none (truncf .bf16 v30 bitsLt_bf16_f32) v11
          (constant (F := Ideal) S512x1024 .f32 0x00000000#32) (ix2 r d)
    = v27 (ix2 r 0) * v39 (ix2 r d) + ∑ j, v30 (ix2 r j) * v11 (ix2 j d)
  rw [broadcastTo_a1_ab_apply]
  exact congrArg (v27 (ix2 r 0) * v39 (ix2 r d) + ·) (valueDot_apply _ v11 r d)

/-- The normalised, clamped output. -/
theorem pay4_eq (v54 : Vec Ideal S512x1024 .f32) (v55 : Vec Ideal S512x1 .f32) :
    tileF (k1_pay4 (F := Ideal) v54 v55) = normalised (tileF v54) (colv v55) := by
  funext r d
  show max (Ideal.div (v54 (ix2 r d)) (broadcastTo S512x1024 v55 broadcasts_S512x1_S512x1024 (ix2 r d))) (Ideal.ofBits .f32 0x00000000#32)
    = max (Ideal.div (v54 (ix2 r d)) (v55 (ix2 r 0))) 0
  rw [broadcastTo_a1_ab_apply, Cert.AttnConsts.ofBits_zero]

/-- The reset values: minus infinity, zero, zero. -/
theorem pay5_eq : colv (k1_pay5 (F := Ideal)) = fun _ => ⊥ := by
  funext r
  unfold k1_pay5
  refine (congrFun (shapeCast_self _ _) _).trans ?_
  exact Cert.AttnConsts.ofBits_negInf
theorem pay6_eq : colv (k1_pay6 (F := Ideal)) = fun _ => 0 := by
  funext r
  unfold k1_pay6
  refine (congrFun (shapeCast_self _ _) _).trans ?_
  exact Cert.AttnConsts.ofBits_zero
theorem pay7_eq : tileF (k1_pay7 (F := Ideal)) = fun _ _ => 0 := by
  funext r d
  unfold k1_pay7
  refine (congrFun (shapeCast_self _ _) _).trans ?_
  exact Cert.AttnConsts.ofBits_zero

end Cert.KernelIdeal.AttnPieces

end
-- ==== Proof.AttentionPieces.lean ====
/-
  Each control case of the attention body, read at the ideal instance index by index, is the textbook step: at
  ki = 0 the scratch for the queries ends at the projection of the point's sentences and the statistics at the reset
  state with the first key tile folded in; at later key tiles the statistics end at the previous ones with the
  point's key tile folded in, the queries unchanged; at ki = 7 the output block is moreover the normalised statistics.
  The key tile of point t is rows [512 (t mod 8), 512 (t mod 8) + 512) of the resident key and value arrays.
-/
import proofs.«410202_j60206851555563_3_alg».proof.Proof.AttentionPoints
import proofs.«410202_j60206851555563_3_alg».proof.Proof.AttentionPayloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnPieces

open Idealize.ShloMosaic Idealize.ShloMosaic.TcCoe Idealize.ShloMosaic.ValueIdx Idealize.SL.Sem
open Cert.KernelIdeal Cert.KernelIdeal.Gen Cert.KernelIdeal.Attn Cert.AttnStep
open Idealize.ShloMosaic.Tactic

/-- Key tile `k mod 8` of a resident 4096-row array. -/
def rowsAt (v : Vec Ideal S4096x1024 .bf16) (k : ℕ) : Tile 512 1024 :=
  fun j d => v (ix2 (⟨512 * (k % 8) + j.val, by omega⟩ : Fin 4096) d)

/-- The statistics a carried state holds. -/
def statsOf (p : Carried Ideal) : Stats := ⟨colv p.mx, colv p.den, tileF p.num⟩

/-! ## What each found piece is, for every float instance -/

theorem zeroOffsets2 : (![0, 0] : Fin 2 → Nat) = fun _ => 0 := funext fun a => by fin_cases a <;> rfl
theorem zeroOffsets1 : (![0] : Fin 1 → Nat) = fun _ => 0 := funext fun a => by fin_cases a; rfl

section Pieces
variable {F : FTy → Type} [FloatOps F]
variable (c : Dev nD) (t : Fin cfg1.N)

/-- The rectangle of a resident 4096-row array the body loads at point `t`: 512 whole rows from row 512·ki. -/
abbrev keyRect (t : Fin cfg1.N) : Rect S4096x1024 :=
  Rect.unit (s := S4096x1024) (k1_off1 (grid1.coords t)) S512x1024.size (k1_off1_inb (grid1.coords t))

/-- The rows of a resident array the body loads at point `t`. -/
abbrev tileOf (x : Vec F S4096x1024 .bf16) (t : Fin cfg1.N) : Vec F S512x1024 .bf16 := View.ld x (keyRect t)

/-! ### The case 0 < ki < 7: one covering store per statistic -/

/-- Middle case, running maximum: its one covering store's payload. -/
theorem midM (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    readM (middleAt (F := F) c t hc0 hc1 x0 x1 x2 x3 x4 x5 p).1 = k1_pay3 (k1_pay11 p.q (tileOf x3 t) x5 p.mx) := by
  unfold readM
  rw [View.read_writes_eq_canon _ _ _ (coverMiddleM c t hc0 hc1 x0 x1 x2 x3 x4 x5 p)]
  unfold middleAt runMiddle
  dsimp only
  sl_unfold_words
  rw [View.canon_unit_zero zeroOffsets2]
  simp only [View.readAt_eq_ld, (hs3 t).read_unread, (hs4 t).read_unread, (hs5 t).read_unread, (Memref.isWhole_whole _).read_unread, View.ld_unit_zero (S := S512x1024) zeroOffsets2, View.ld_unit_zero (S := S512x1) zeroOffsets2, View.ld_unit_zero (S := S512x512) zeroOffsets2]
  rfl

/-- Middle case, running denominator. -/
theorem midL (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    readL (middleAt (F := F) c t hc0 hc1 x0 x1 x2 x3 x4 x5 p).2.1 = k1_pay1 (k1_pay14 p.q (tileOf x3 t) x5 p.mx p.den) := by
  unfold readL
  rw [View.read_writes_eq_canon _ _ _ (coverMiddleL c t hc0 hc1 x0 x1 x2 x3 x4 x5 p)]
  unfold middleAt runMiddle
  dsimp only
  sl_unfold_words
  rw [View.canon_unit_zero zeroOffsets2]
  simp only [View.readAt_eq_ld, (hs3 t).read_unread, (hs4 t).read_unread, (hs5 t).read_unread, (Memref.isWhole_whole _).read_unread, View.ld_unit_zero (S := S512x1024) zeroOffsets2, View.ld_unit_zero (S := S512x1) zeroOffsets2, View.ld_unit_zero (S := S512x512) zeroOffsets2]
  rfl

/-- Middle case, running numerator. -/
theorem midA (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    readA (middleAt (F := F) c t hc0 hc1 x0 x1 x2 x3 x4 x5 p).2.2.1 = k1_pay2 (k1_pay9 (tileOf x4 t)) (k1_pay12 p.q (tileOf x3 t) x5 p.mx) (k1_pay13 p.q (tileOf x3 t) x5 p.mx) p.num := by
  unfold readA
  rw [View.read_writes_eq_canon _ _ _ (coverMiddleA c t hc0 hc1 x0 x1 x2 x3 x4 x5 p)]
  unfold middleAt runMiddle
  dsimp only
  sl_unfold_words
  rw [View.canon_unit_zero zeroOffsets2]
  simp only [View.readAt_eq_ld, (hs3 t).read_unread, (hs4 t).read_unread, (hs5 t).read_unread, (Memref.isWhole_whole _).read_unread, View.ld_unit_zero (S := S512x1024) zeroOffsets2, View.ld_unit_zero (S := S512x1) zeroOffsets2, View.ld_unit_zero (S := S512x512) zeroOffsets2]
  rfl

theorem middleOf_mx (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    (middleOf (F := F) c t hc0 hc1 x0 x1 x2 x3 x4 x5 p).mx = k1_pay3 (k1_pay11 p.q (tileOf x3 t) x5 p.mx) := by
  have h := midM (F := F) c t hc0 hc1 x0 x1 x2 x3 x4 x5 p
  unfold middleOf; dsimp only; exact h
theorem middleOf_den (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    (middleOf (F := F) c t hc0 hc1 x0 x1 x2 x3 x4 x5 p).den = k1_pay1 (k1_pay14 p.q (tileOf x3 t) x5 p.mx p.den) := by
  have h := midL (F := F) c t hc0 hc1 x0 x1 x2 x3 x4 x5 p
  unfold middleOf; dsimp only; exact h
theorem middleOf_num (hc0 : ¬isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    (middleOf (F := F) c t hc0 hc1 x0 x1 x2 x3 x4 x5 p).num = k1_pay2 (k1_pay9 (tileOf x4 t)) (k1_pay12 p.q (tileOf x3 t) x5 p.mx) (k1_pay13 p.q (tileOf x3 t) x5 p.mx) p.num := by
  have h := midA (F := F) c t hc0 hc1 x0 x1 x2 x3 x4 x5 p
  unfold middleOf; dsimp only; exact h

/-! ### The case ki = 7: the same three stores, and the output block from the two statistics read back -/

/-- Last case, running maximum: as in the middle case. -/
theorem lastM (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    readM (lastAt (F := F) c t hc0 hc1 x0 x1 x2 x3 x4 x5 p).2.1 = k1_pay3 (k1_pay11 p.q (tileOf x3 t) x5 p.mx) := by
  unfold readM
  rw [View.read_writes_eq_canon _ _ _ (coverLastM c t hc0 hc1 x0 x1 x2 x3 x4 x5 p)]
  unfold lastAt runLast
  dsimp only
  sl_unfold_words
  rw [View.canon_unit_zero zeroOffsets2]
  simp only [View.readAt_eq_ld, (hs3 t).read_unread, (hs4 t).read_unread, (hs5 t).read_unread, (Memref.isWhole_whole _).read_unread, View.ld_unit_zero (S := S512x1024) zeroOffsets2, View.ld_unit_zero (S := S512x1) zeroOffsets2, View.ld_unit_zero (S := S512x512) zeroOffsets2]
  rfl

/-- Last case, running denominator. -/
theorem lastL (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    readL (lastAt (F := F) c t hc0 hc1 x0 x1 x2 x3 x4 x5 p).2.2.1 = k1_pay1 (k1_pay14 p.q (tileOf x3 t) x5 p.mx p.den) := by
  unfold readL
  rw [View.read_writes_eq_canon _ _ _ (coverLastL c t hc0 hc1 x0 x1 x2 x3 x4 x5 p)]
  unfold lastAt runLast
  dsimp only
  sl_unfold_words
  rw [View.canon_unit_zero zeroOffsets2]
  simp only [View.readAt_eq_ld, (hs3 t).read_unread, (hs4 t).read_unread, (hs5 t).read_unread, (Memref.isWhole_whole _).read_unread, View.ld_unit_zero (S := S512x1024) zeroOffsets2, View.ld_unit_zero (S := S512x1) zeroOffsets2, View.ld_unit_zero (S := S512x512) zeroOffsets2]
  rfl

/-- Last case, running numerator. -/
theorem lastA (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    readA (lastAt (F := F) c t hc0 hc1 x0 x1 x2 x3 x4 x5 p).2.2.2.1 = k1_pay2 (k1_pay9 (tileOf x4 t)) (k1_pay12 p.q (tileOf x3 t) x5 p.mx) (k1_pay13 p.q (tileOf x3 t) x5 p.mx) p.num := by
  unfold readA
  rw [View.read_writes_eq_canon _ _ _ (coverLastA c t hc0 hc1 x0 x1 x2 x3 x4 x5 p)]
  unfold lastAt runLast
  dsimp only
  sl_unfold_words
  rw [View.canon_unit_zero zeroOffsets2]
  simp only [View.readAt_eq_ld, (hs3 t).read_unread, (hs4 t).read_unread, (hs5 t).read_unread, (Memref.isWhole_whole _).read_unread, View.ld_unit_zero (S := S512x1024) zeroOffsets2, View.ld_unit_zero (S := S512x1) zeroOffsets2, View.ld_unit_zero (S := S512x512) zeroOffsets2]
  rfl

/-- Last case, output block: the normalisation of the numerator and denominator just stored, read back. -/
theorem lastO (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    readO (lastAt (F := F) c t hc0 hc1 x0 x1 x2 x3 x4 x5 p).1
      = k1_pay4 (k1_pay2 (k1_pay9 (tileOf x4 t)) (k1_pay12 p.q (tileOf x3 t) x5 p.mx) (k1_pay13 p.q (tileOf x3 t) x5 p.mx) p.num)
          (k1_pay1 (k1_pay14 p.q (tileOf x3 t) x5 p.mx p.den)) := by
  unfold readO
  rw [View.read_writes_eq_canon _ _ _ (coverLastO c t hc0 hc1 x0 x1 x2 x3 x4 x5 p)]
  unfold lastAt runLast
  dsimp only
  sl_unfold_words
  rw [View.canon_unit_zero zeroOffsets2]
  simp only [View.readAt_eq_ld, (hs3 t).read_unread, (hs4 t).read_unread, (hs5 t).read_unread, (Memref.isWhole_whole _).read_unread, View.readCov_unit_zero (S := S512x1024) _ zeroOffsets2, View.readCov_unit_zero (S := S512x1) _ zeroOffsets2, View.ld_unit_zero (S := S512x1024) zeroOffsets2, View.ld_unit_zero (S := S512x1) zeroOffsets2, View.ld_unit_zero (S := S512x512) zeroOffsets2]
  rfl

theorem lastOf_mx (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    (lastOf (F := F) c t hc0 hc1 x0 x1 x2 x3 x4 x5 p).mx = k1_pay3 (k1_pay11 p.q (tileOf x3 t) x5 p.mx) := by
  have h := lastM (F := F) c t hc0 hc1 x0 x1 x2 x3 x4 x5 p
  unfold lastOf; dsimp only; exact h
theorem lastOf_den (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    (lastOf (F := F) c t hc0 hc1 x0 x1 x2 x3 x4 x5 p).den = k1_pay1 (k1_pay14 p.q (tileOf x3 t) x5 p.mx p.den) := by
  have h := lastL (F := F) c t hc0 hc1 x0 x1 x2 x3 x4 x5 p
  unfold lastOf; dsimp only; exact h
theorem lastOf_num (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    (lastOf (F := F) c t hc0 hc1 x0 x1 x2 x3 x4 x5 p).num = k1_pay2 (k1_pay9 (tileOf x4 t)) (k1_pay12 p.q (tileOf x3 t) x5 p.mx) (k1_pay13 p.q (tileOf x3 t) x5 p.mx) p.num := by
  have h := lastA (F := F) c t hc0 hc1 x0 x1 x2 x3 x4 x5 p
  unfold lastOf; dsimp only; exact h
theorem lastOf_outv (hc0 : ¬isFirst (grid1.coords t)) (hc1 : isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) (p : Carried F) :
    (lastOf (F := F) c t hc0 hc1 x0 x1 x2 x3 x4 x5 p).out
      = k1_pay4 (k1_pay2 (k1_pay9 (tileOf x4 t)) (k1_pay12 p.q (tileOf x3 t) x5 p.mx) (k1_pay13 p.q (tileOf x3 t) x5 p.mx) p.num)
          (k1_pay1 (k1_pay14 p.q (tileOf x3 t) x5 p.mx p.den)) := by
  have h := lastO (F := F) c t hc0 hc1 x0 x1 x2 x3 x4 x5 p
  unfold lastOf; dsimp only; exact h

/-! ### The case ki = 0: the projected queries stored once; each statistic's update, over the reset read back, covers the reset -/

/-- First case, projected queries: one covering store of the projection of the point's sentences. -/
theorem firstQ (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :
    readQ (firstAt (F := F) c t hc0 hc1 x0 x1 x2 x3 x4 x5).1 = k1_pay8 x0 x1 x2 := by
  unfold readQ
  rw [View.read_writes_eq_canon _ _ _ (coverFirstQ c t hc0 hc1 x0 x1 x2 x3 x4 x5)]
  unfold firstAt runFirst
  dsimp only
  sl_unfold_words
  rw [View.canon_unit_zero zeroOffsets2]
  simp only [View.readAt_eq_ld, (hs0 t).read_unread, (hs1 t).read_unread, (hs2 t).read_unread, (hs3 t).read_unread, (hs4 t).read_unread, (hs5 t).read_unread, View.readCov_unit_zero (S := S512x1024) _ zeroOffsets2, View.readCov_unit_zero (S := S512x1) _ zeroOffsets2, View.ld_unit_zero (S := S512x1024) zeroOffsets2, View.ld_unit_zero (S := S1024x1024) zeroOffsets2, View.ld_unit_zero (S := S1024) zeroOffsets1, View.ld_unit_zero (S := S512x1) zeroOffsets2, View.ld_unit_zero (S := S512x512) zeroOffsets2]

/-- First case, running maximum: the update, over the reset value read back, covers the reset. -/
theorem firstM (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :
    readM (firstAt (F := F) c t hc0 hc1 x0 x1 x2 x3 x4 x5).2.1 = k1_pay3 (k1_pay11 (k1_pay8 x0 x1 x2) (tileOf x3 t) x5 k1_pay5) := by
  unfold readM
  rw [View.read_writes_eq_canon _ _ _ (coverFirstM c t hc0 hc1 x0 x1 x2 x3 x4 x5)]
  unfold firstAt runFirst
  dsimp only
  sl_unfold_words
  rw [View.canon_cons_unit_zero (S := S512x1) zeroOffsets2]
  simp only [View.readAt_eq_ld, (hs0 t).read_unread, (hs1 t).read_unread, (hs2 t).read_unread, (hs3 t).read_unread, (hs4 t).read_unread, (hs5 t).read_unread, View.readCov_unit_zero (S := S512x1024) _ zeroOffsets2, View.readCov_unit_zero (S := S512x1) _ zeroOffsets2, View.ld_unit_zero (S := S512x1024) zeroOffsets2, View.ld_unit_zero (S := S1024x1024) zeroOffsets2, View.ld_unit_zero (S := S1024) zeroOffsets1, View.ld_unit_zero (S := S512x1) zeroOffsets2, View.ld_unit_zero (S := S512x512) zeroOffsets2]
  rfl

/-- First case, running denominator. -/
theorem firstL (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :
    readL (firstAt (F := F) c t hc0 hc1 x0 x1 x2 x3 x4 x5).2.2.1 = k1_pay1 (k1_pay14 (k1_pay8 x0 x1 x2) (tileOf x3 t) x5 k1_pay5 k1_pay6) := by
  unfold readL
  rw [View.read_writes_eq_canon _ _ _ (coverFirstL c t hc0 hc1 x0 x1 x2 x3 x4 x5)]
  unfold firstAt runFirst
  dsimp only
  sl_unfold_words
  rw [View.canon_cons_unit_zero (S := S512x1) zeroOffsets2]
  simp only [View.readAt_eq_ld, (hs0 t).read_unread, (hs1 t).read_unread, (hs2 t).read_unread, (hs3 t).read_unread, (hs4 t).read_unread, (hs5 t).read_unread, View.readCov_unit_zero (S := S512x1024) _ zeroOffsets2, View.readCov_unit_zero (S := S512x1) _ zeroOffsets2, View.ld_unit_zero (S := S512x1024) zeroOffsets2, View.ld_unit_zero (S := S1024x1024) zeroOffsets2, View.ld_unit_zero (S := S1024) zeroOffsets1, View.ld_unit_zero (S := S512x1) zeroOffsets2, View.ld_unit_zero (S := S512x512) zeroOffsets2]
  rfl

/-- First case, running numerator. -/
theorem firstA (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :
    readA (firstAt (F := F) c t hc0 hc1 x0 x1 x2 x3 x4 x5).2.2.2.1
      = k1_pay2 (k1_pay9 (tileOf x4 t)) (k1_pay12 (k1_pay8 x0 x1 x2) (tileOf x3 t) x5 k1_pay5) (k1_pay13 (k1_pay8 x0 x1 x2) (tileOf x3 t) x5 k1_pay5) k1_pay7 := by
  unfold readA
  rw [View.read_writes_eq_canon _ _ _ (coverFirstA c t hc0 hc1 x0 x1 x2 x3 x4 x5)]
  unfold firstAt runFirst
  dsimp only
  sl_unfold_words
  rw [View.canon_cons_unit_zero (S := S512x1024) zeroOffsets2]
  simp only [View.readAt_eq_ld, (hs0 t).read_unread, (hs1 t).read_unread, (hs2 t).read_unread, (hs3 t).read_unread, (hs4 t).read_unread, (hs5 t).read_unread, View.readCov_unit_zero (S := S512x1024) _ zeroOffsets2, View.readCov_unit_zero (S := S512x1) _ zeroOffsets2, View.ld_unit_zero (S := S512x1024) zeroOffsets2, View.ld_unit_zero (S := S1024x1024) zeroOffsets2, View.ld_unit_zero (S := S1024) zeroOffsets1, View.ld_unit_zero (S := S512x1) zeroOffsets2, View.ld_unit_zero (S := S512x512) zeroOffsets2]
  rfl

theorem firstOf_qv (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :
    (firstOf (F := F) c t hc0 hc1 x0 x1 x2 x3 x4 x5).q = k1_pay8 x0 x1 x2 := by
  have h := firstQ (F := F) c t hc0 hc1 x0 x1 x2 x3 x4 x5
  unfold firstOf; dsimp only; exact h
theorem firstOf_mx (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :
    (firstOf (F := F) c t hc0 hc1 x0 x1 x2 x3 x4 x5).mx = k1_pay3 (k1_pay11 (k1_pay8 x0 x1 x2) (tileOf x3 t) x5 k1_pay5) := by
  have h := firstM (F := F) c t hc0 hc1 x0 x1 x2 x3 x4 x5
  unfold firstOf; dsimp only; exact h
theorem firstOf_den (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :
    (firstOf (F := F) c t hc0 hc1 x0 x1 x2 x3 x4 x5).den = k1_pay1 (k1_pay14 (k1_pay8 x0 x1 x2) (tileOf x3 t) x5 k1_pay5 k1_pay6) := by
  have h := firstL (F := F) c t hc0 hc1 x0 x1 x2 x3 x4 x5
  unfold firstOf; dsimp only; exact h
theorem firstOf_num (hc0 : isFirst (grid1.coords t)) (hc1 : ¬isLast (grid1.coords t)) (x0 : Vec F S512x1024 .f32) (x1 : Vec F S1024x1024 .bf16) (x2 : Vec F S1024 .f32) (x3 : Vec F S4096x1024 .bf16) (x4 : Vec F S4096x1024 .bf16) (x5 : Vec F S512x512 .f32) :
    (firstOf (F := F) c t hc0 hc1 x0 x1 x2 x3 x4 x5).num
      = k1_pay2 (k1_pay9 (tileOf x4 t)) (k1_pay12 (k1_pay8 x0 x1 x2) (tileOf x3 t) x5 k1_pay5) (k1_pay13 (k1_pay8 x0 x1 x2) (tileOf x3 t) x5 k1_pay5) k1_pay7 := by
  have h := firstA (F := F) c t hc0 hc1 x0 x1 x2 x3 x4 x5
  unfold firstOf; dsimp only; exact h

end Pieces

/-! ## At the ideal instance: the loaded rows are the key tile, the payloads the textbook step -/

/-- The key-tile coordinate of point `t` is `t mod 8`. -/
theorem off1_0 : ∀ t : Fin cfg1.N, k1_off1 (grid1.coords t) 0 = 512 * (t.val % 8) :=
  (by decide +kernel : ∀ t : Fin grid1.N, k1_off1 (grid1.coords t) 0 = 512 * (t.val % 8))
theorem off1_1 : ∀ t : Fin cfg1.N, k1_off1 (grid1.coords t) 1 = 0 :=
  (by decide +kernel : ∀ t : Fin grid1.N, k1_off1 (grid1.coords t) 1 = 0)

/-- The rows the body loads at point `t` are key tile `t mod 8`, index by index. -/
theorem tileOf_eq (x : Vec Ideal S4096x1024 .bf16) (t : Fin cfg1.N) : tileB (tileOf x t) = rowsAt x t.val := by
  funext r d
  show x ((keyRect t).idx (ix2 r d)) = x (ix2 (⟨512 * (t.val % 8) + r.val, by omega⟩ : Fin 4096) d)
  congr 1
  funext a
  match a with
  | ⟨0, _⟩ =>
    refine Fin.ext ?_
    show k1_off1 (grid1.coords t) 0 + 1 * r.val = 512 * (t.val % 8) + r.val
    rw [off1_0 t]; omega
  | ⟨1, _⟩ =>
    refine Fin.ext ?_
    show k1_off1 (grid1.coords t) 1 + 1 * d.val = d.val
    rw [off1_1 t]; omega

/-- The three payloads of the fold, read at the ideal instance over the loaded tiles, are the textbook step's three fields. -/
theorem fold_mx (q : Vec Ideal S512x1024 .bf16) (x3 : Vec Ideal S4096x1024 .bf16) (x5 : Vec Ideal S512x512 .f32) (mx : Vec Ideal S512x1 .f32) (t : Fin cfg1.N) :
    colv (k1_pay3 (F := Ideal) (k1_pay11 q (tileOf x3 t) x5 mx))
      = newMax (colv mx) (masked (tileA x5) (scores (tileB q) (rowsAt x3 t.val))) := by
  rw [pay3_eq, pay11_eq, tileOf_eq]

theorem fold_den (q : Vec Ideal S512x1024 .bf16) (x3 : Vec Ideal S4096x1024 .bf16) (x5 : Vec Ideal S512x512 .f32) (mx den : Vec Ideal S512x1 .f32) (t : Fin cfg1.N) :
    colv (k1_pay1 (F := Ideal) (k1_pay14 q (tileOf x3 t) x5 mx den))
      = newDen (colv den)
          (rescale (colv mx) (newMax (colv mx) (masked (tileA x5) (scores (tileB q) (rowsAt x3 t.val)))))
          (probs (masked (tileA x5) (scores (tileB q) (rowsAt x3 t.val))) (newMax (colv mx) (masked (tileA x5) (scores (tileB q) (rowsAt x3 t.val))))) := by
  rw [pay1_eq, pay14_eq, tileOf_eq]

theorem fold_num (q : Vec Ideal S512x1024 .bf16) (x3 x4 : Vec Ideal S4096x1024 .bf16) (x5 : Vec Ideal S512x512 .f32) (mx : Vec Ideal S512x1 .f32) (num : Vec Ideal S512x1024 .f32) (t : Fin cfg1.N) :
    tileF (k1_pay2 (F := Ideal) (k1_pay9 (tileOf x4 t)) (k1_pay12 q (tileOf x3 t) x5 mx) (k1_pay13 q (tileOf x3 t) x5 mx) num)
      = newNum (tileF num)
          (rescale (colv mx) (newMax (colv mx) (masked (tileA x5) (scores (tileB q) (rowsAt x3 t.val)))))
          (probs (masked (tileA x5) (scores (tileB q) (rowsAt x3 t.val))) (newMax (colv mx) (masked (tileA x5) (scores (tileB q) (rowsAt x3 t.val)))))
          (rowsAt x4 t.val) := by
  rw [pay2_eq, pay9_eq, pay12_eq, pay13_eq, tileOf_eq, tileOf_eq]

variable (c : Dev nD) (t : Fin cfg1.N)

theorem firstOf_q (hc0 : isFirst (grid1.coords t)) (hc1 : ¬isLast (grid1.coords t)) (x0 : Vec Ideal S512x1024 .f32) (x1 : Vec Ideal S1024x1024 .bf16) (x2 : Vec Ideal S1024 .f32) (x3 : Vec Ideal S4096x1024 .bf16) (x4 : Vec Ideal S4096x1024 .bf16) (x5 : Vec Ideal S512x512 .f32) :
    tileB (firstOf (F := Ideal) c t hc0 hc1 x0 x1 x2 x3 x4 x5).q = projQ (tileF x0) (mat x1) (vec x2) := by
  rw [firstOf_qv (F := Ideal) c t hc0 hc1 x0 x1 x2 x3 x4 x5, pay8_eq]

theorem firstOf_stats (hc0 : isFirst (grid1.coords t)) (hc1 : ¬isLast (grid1.coords t)) (x0 : Vec Ideal S512x1024 .f32) (x1 : Vec Ideal S1024x1024 .bf16) (x2 : Vec Ideal S1024 .f32) (x3 : Vec Ideal S4096x1024 .bf16) (x4 : Vec Ideal S4096x1024 .bf16) (x5 : Vec Ideal S512x512 .f32) :
    statsOf (firstOf (F := Ideal) c t hc0 hc1 x0 x1 x2 x3 x4 x5)
      = Stats.reset.fold (projQ (tileF x0) (mat x1) (vec x2)) (rowsAt x3 t.val) (rowsAt x4 t.val) (tileA x5) := by
  have h1 := congrArg colv (firstOf_mx (F := Ideal) c t hc0 hc1 x0 x1 x2 x3 x4 x5)
  have h2 := congrArg colv (firstOf_den (F := Ideal) c t hc0 hc1 x0 x1 x2 x3 x4 x5)
  have h3 := congrArg tileF (firstOf_num (F := Ideal) c t hc0 hc1 x0 x1 x2 x3 x4 x5)
  have g1 := fold_mx (k1_pay8 (F := Ideal) x0 x1 x2) x3 x5 (k1_pay5 (F := Ideal)) t
  have g2 := fold_den (k1_pay8 (F := Ideal) x0 x1 x2) x3 x5 (k1_pay5 (F := Ideal)) (k1_pay6 (F := Ideal)) t
  have g3 := fold_num (k1_pay8 (F := Ideal) x0 x1 x2) x3 x4 x5 (k1_pay5 (F := Ideal)) (k1_pay7 (F := Ideal)) t
  rw [pay5_eq, pay8_eq] at g1
  rw [pay5_eq, pay6_eq, pay8_eq] at g2
  rw [pay5_eq, pay7_eq, pay8_eq] at g3
  have e1 := h1.trans g1
  have e2 := h2.trans g2
  have e3 := h3.trans g3
  unfold statsOf Stats.fold Stats.reset
  dsimp only
  rw [e1, e2, e3]

theorem middleOf_q (hc0 : ¬isFirst (grid1.coords t)) (hc1 : ¬isLast (grid1.coords t)) (x0 : Vec Ideal S512x1024 .f32) (x1 : Vec Ideal S1024x1024 .bf16) (x2 : Vec Ideal S1024 .f32) (x3 : Vec Ideal S4096x1024 .bf16) (x4 : Vec Ideal S4096x1024 .bf16) (x5 : Vec Ideal S512x512 .f32) (p : Carried Ideal) :
    (middleOf (F := Ideal) c t hc0 hc1 x0 x1 x2 x3 x4 x5 p).q = p.q := by unfold middleOf; rfl

theorem middleOf_stats (hc0 : ¬isFirst (grid1.coords t)) (hc1 : ¬isLast (grid1.coords t)) (x0 : Vec Ideal S512x1024 .f32) (x1 : Vec Ideal S1024x1024 .bf16) (x2 : Vec Ideal S1024 .f32) (x3 : Vec Ideal S4096x1024 .bf16) (x4 : Vec Ideal S4096x1024 .bf16) (x5 : Vec Ideal S512x512 .f32) (p : Carried Ideal) :
    statsOf (middleOf (F := Ideal) c t hc0 hc1 x0 x1 x2 x3 x4 x5 p)
      = (statsOf p).fold (tileB p.q) (rowsAt x3 t.val) (rowsAt x4 t.val) (tileA x5) := by
  have e1 := (congrArg colv (middleOf_mx (F := Ideal) c t hc0 hc1 x0 x1 x2 x3 x4 x5 p)).trans (fold_mx p.q x3 x5 p.mx t)
  have e2 := (congrArg colv (middleOf_den (F := Ideal) c t hc0 hc1 x0 x1 x2 x3 x4 x5 p)).trans (fold_den p.q x3 x5 p.mx p.den t)
  have e3 := (congrArg tileF (middleOf_num (F := Ideal) c t hc0 hc1 x0 x1 x2 x3 x4 x5 p)).trans (fold_num p.q x3 x4 x5 p.mx p.num t)
  unfold statsOf Stats.fold
  rw [e1, e2, e3]

theorem lastOf_q (hc0 : ¬isFirst (grid1.coords t)) (hc1 : isLast (grid1.coords t)) (x0 : Vec Ideal S512x1024 .f32) (x1 : Vec Ideal S1024x1024 .bf16) (x2 : Vec Ideal S1024 .f32) (x3 : Vec Ideal S4096x1024 .bf16) (x4 : Vec Ideal S4096x1024 .bf16) (x5 : Vec Ideal S512x512 .f32) (p : Carried Ideal) :
    (lastOf (F := Ideal) c t hc0 hc1 x0 x1 x2 x3 x4 x5 p).q = p.q := by unfold lastOf; rfl

theorem lastOf_stats (hc0 : ¬isFirst (grid1.coords t)) (hc1 : isLast (grid1.coords t)) (x0 : Vec Ideal S512x1024 .f32) (x1 : Vec Ideal S1024x1024 .bf16) (x2 : Vec Ideal S1024 .f32) (x3 : Vec Ideal S4096x1024 .bf16) (x4 : Vec Ideal S4096x1024 .bf16) (x5 : Vec Ideal S512x512 .f32) (p : Carried Ideal) :
    statsOf (lastOf (F := Ideal) c t hc0 hc1 x0 x1 x2 x3 x4 x5 p)
      = (statsOf p).fold (tileB p.q) (rowsAt x3 t.val) (rowsAt x4 t.val) (tileA x5) := by
  have e1 := (congrArg colv (lastOf_mx (F := Ideal) c t hc0 hc1 x0 x1 x2 x3 x4 x5 p)).trans (fold_mx p.q x3 x5 p.mx t)
  have e2 := (congrArg colv (lastOf_den (F := Ideal) c t hc0 hc1 x0 x1 x2 x3 x4 x5 p)).trans (fold_den p.q x3 x5 p.mx p.den t)
  have e3 := (congrArg tileF (lastOf_num (F := Ideal) c t hc0 hc1 x0 x1 x2 x3 x4 x5 p)).trans (fold_num p.q x3 x4 x5 p.mx p.num t)
  unfold statsOf Stats.fold
  rw [e1, e2, e3]

theorem lastOf_out (hc0 : ¬isFirst (grid1.coords t)) (hc1 : isLast (grid1.coords t)) (x0 : Vec Ideal S512x1024 .f32) (x1 : Vec Ideal S1024x1024 .bf16) (x2 : Vec Ideal S1024 .f32) (x3 : Vec Ideal S4096x1024 .bf16) (x4 : Vec Ideal S4096x1024 .bf16) (x5 : Vec Ideal S512x512 .f32) (p : Carried Ideal) :
    tileF (lastOf (F := Ideal) c t hc0 hc1 x0 x1 x2 x3 x4 x5 p).out
      = normalised ((statsOf p).fold (tileB p.q) (rowsAt x3 t.val) (rowsAt x4 t.val) (tileA x5)).num
          ((statsOf p).fold (tileB p.q) (rowsAt x3 t.val) (rowsAt x4 t.val) (tileA x5)).den := by
  have eO := congrArg tileF (lastOf_outv (F := Ideal) c t hc0 hc1 x0 x1 x2 x3 x4 x5 p)
  unfold statsOf Stats.fold
  dsimp only
  rw [eO, pay4_eq, fold_num, fold_den]

end Cert.KernelIdeal.AttnPieces

end
-- ==== Proof.Online.lean ====
/-
  Eight key tiles folded one after the other into a query tile's statistics, starting from the reset state, give
  that tile's rows of the specification: the running maximum ends at the row maximum, the denominator and numerator
  at the softmax's, so numerator over denominator clamped at zero is `out`. The law behind it: rescaling a partial
  sum of e^(a_j − m) by e^(m − m') turns it into the partial sum of e^(a_j − m'), and the first tile's rescaling
  factor is e^(−∞) = 0 against zero statistics.
-/
import proofs.«410202_j60206851555563_3_alg».proof.Proof.Spec
import proofs.«410202_j60206851555563_3_alg».proof.Proof.Step

noncomputable section

open scoped BigOperators

namespace Cert.AttnOnline

open Cert.AttnSpec Cert.AttnStep Idealize.ShloMosaic

/-- Row `r` of tile `q` among the 4096 sentences. -/
def rowIx (q : Fin 8) (r : Fin 512) : Fin 4096 := ⟨512 * q.val + r.val, by omega⟩

variable (I : Inputs)

/-- The tiles of the specification's arrays, as extended reals. A key tile is named by a natural number read modulo 8. -/
def qTile (qi : Fin 8) : Tile 512 1024 := fun r d => ((query I (rowIx qi r) d : ℝ) : EReal)
def kTile (k : ℕ) : Tile 512 1024 := fun j d => ((key I (rowIx ⟨k % 8, Nat.mod_lt _ (by norm_num)⟩ j) d : ℝ) : EReal)
def vTile (k : ℕ) : Tile 512 1024 := fun j d => ((value I (rowIx ⟨k % 8, Nat.mod_lt _ (by norm_num)⟩ j) d : ℝ) : EReal)
def adjTile (qi : Fin 8) (k : ℕ) : Tile 512 512 :=
  fun r j => ((I.adj (rowIx qi r) (rowIx ⟨k % 8, Nat.mod_lt _ (by norm_num)⟩ j) : ℝ) : EReal)

/-- Query tile `qi`'s statistics after key tiles 0, …, k. -/
def statsAfter (qi : Fin 8) : ℕ → Stats
  | 0 => Stats.reset.fold (qTile I qi) (kTile I 0) (vTile I 0) (adjTile I qi 0)
  | k + 1 => (statsAfter qi k).fold (qTile I qi) (kTile I (k + 1)) (vTile I (k + 1)) (adjTile I qi (k + 1))

/-! ### Coercion of reals into the extended reals through sums, maxima and folds -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-- The coercion of a maximum of two reals is the maximum of the coercions. -/
theorem coe_max (x y : ℝ) : ((max x y : ℝ) : EReal) = max (x : EReal) (y : EReal) :=
  EReal.coe_strictMono.monotone.map_max

/-- A maximum folded from −∞ over coerced reals is the coercion of their supremum. -/
theorem fold_max_coe {ι : Type*} {s : Finset ι} (h : s.Nonempty) (f : ι → ℝ) :
    s.fold max ⊥ (fun j => ((f j : ℝ) : EReal)) = ((s.sup' h f : ℝ) : EReal) := by
  induction h using Finset.Nonempty.cons_induction with
  | singleton a => simp
  | cons a s ha hs ih => rw [Finset.fold_cons, ih, Finset.sup'_cons hs, coe_max]

/-- Rescaling a weight taken against the maximum `m` to the maximum `m'`. -/
theorem exp_rescale (m m' x : ℝ) : Real.exp (m - m') * Real.exp (x - m) = Real.exp (x - m') := by
  rw [← Real.exp_add]
  congr 1
  ring

/-! ### The tiling of the 4096 sentences into eight tiles of 512 -/

/-- The key tile a natural number names: its residue modulo 8. -/
def kIx (k : ℕ) : Fin 8 := ⟨k % 8, Nat.mod_lt _ (by norm_num)⟩

theorem kIx_val (t : Fin 8) : kIx t.val = t := Fin.ext (Nat.mod_eq_of_lt t.isLt)

/-- A sentence is a tile and a row within it. -/
def tileEquiv : Fin 8 × Fin 512 ≃ Fin 4096 where
  toFun p := rowIx p.1 p.2
  invFun i := (⟨i.val / 512, by have := i.isLt; omega⟩, ⟨i.val % 512, by omega⟩)
  left_inv p := by
    obtain ⟨⟨t, ht⟩, ⟨j, hj⟩⟩ := p
    simp only [rowIx, Prod.mk.injEq, Fin.mk.injEq]
    omega
  right_inv i := by
    obtain ⟨i, hi⟩ := i
    simp only [rowIx, Fin.mk.injEq]
    omega

/-- A sum over the sentences is a sum over the tiles of the sums over their rows. -/
theorem sum_tiles (f : Fin 4096 → ℝ) :
    ∑ i, f i = ∑ t ∈ Finset.range 8, ∑ j : Fin 512, f (rowIx (kIx t) j) := by
  rw [← Equiv.sum_comp tileEquiv f, Fintype.sum_prod_type,
    ← Fin.sum_univ_eq_sum_range (fun t => ∑ j : Fin 512, f (rowIx (kIx t) j)) 8]
  refine Finset.sum_congr rfl fun t _ => ?_
  rw [kIx_val]
  rfl

/-! ### The real quantities the statistics hold -/

/-- The masked score of row `r` of query tile `qi` against row `j` of key tile `k`. -/
def lg (qi : Fin 8) (k : ℕ) (r j : Fin 512) : ℝ := logit I (rowIx qi r) (rowIx (kIx k) j)
/-- The value of row `j` of key tile `k`. -/
def vl (k : ℕ) (j : Fin 512) (d : Fin 1024) : ℝ := value I (rowIx (kIx k) j) d
/-- The largest masked score of a row within one key tile. -/
def tmax (qi : Fin 8) (k : ℕ) (r : Fin 512) : ℝ := Finset.univ.sup' Finset.univ_nonempty (lg I qi k r)
/-- The largest masked score of a row over key tiles 0, …, k. -/
def runMax (qi : Fin 8) : ℕ → Fin 512 → ℝ
  | 0, r => tmax I qi 0 r
  | k + 1, r => max (runMax qi k r) (tmax I qi (k + 1) r)
/-- The denominator over key tiles 0, …, k, taken against the running maximum. -/
def runDen (qi : Fin 8) (k : ℕ) (r : Fin 512) : ℝ :=
  ∑ t ∈ Finset.range (k + 1), ∑ j, Real.exp (lg I qi t r j - runMax I qi k r)
/-- The numerator over key tiles 0, …, k, taken against the running maximum. -/
def runNum (qi : Fin 8) (k : ℕ) (r : Fin 512) (d : Fin 1024) : ℝ :=
  ∑ t ∈ Finset.range (k + 1), ∑ j, Real.exp (lg I qi t r j - runMax I qi k r) * vl I t j d

/-! ### The masked tile is the tile of masked scores -/

theorem scores_tile (qi : Fin 8) (k : ℕ) (r j : Fin 512) :
    scores (qTile I qi) (kTile I k) r j = ((score I (rowIx qi r) (rowIx (kIx k) j) : ℝ) : EReal) := by
  show (∑ d, ((query I (rowIx qi r) d : ℝ) : EReal) * ((key I (rowIx (kIx k) j) d : ℝ) : EReal)) = _
  rw [score, coe_sum]
  exact Finset.sum_congr rfl fun d _ => (EReal.coe_mul _ _).symm

theorem masked_tile (qi : Fin 8) (k : ℕ) (r j : Fin 512) :
    masked (adjTile I qi k) (scores (qTile I qi) (kTile I k)) r j = ((lg I qi k r j : ℝ) : EReal) := by
  show (if adjTile I qi k r j = 0 ∨ scores (qTile I qi) (kTile I k) r j = 0 then (((-10000 : ℝ)) : EReal)
    else scores (qTile I qi) (kTile I k) r j) = _
  rw [scores_tile]
  show (if ((I.adj (rowIx qi r) (rowIx (kIx k) j) : ℝ) : EReal) = 0 ∨
      ((score I (rowIx qi r) (rowIx (kIx k) j) : ℝ) : EReal) = 0 then (((-10000 : ℝ)) : EReal)
    else ((score I (rowIx qi r) (rowIx (kIx k) j) : ℝ) : EReal)) = _
  unfold lg logit
  simp only [EReal.coe_eq_zero]
  split_ifs <;> rfl

theorem vTile_eq (k : ℕ) (j : Fin 512) (d : Fin 1024) : vTile I k j d = ((vl I k j d : ℝ) : EReal) := rfl

/-! ### One fold, over the reals -/

theorem tileMax_coe (A : Tile 512 512) (a : Fin 512 → ℝ) (r : Fin 512) (h : ∀ j, A r j = ((a j : ℝ) : EReal)) :
    tileMax A r = ((Finset.univ.sup' Finset.univ_nonempty a : ℝ) : EReal) := by
  unfold tileMax
  rw [show A r = fun j => ((a j : ℝ) : EReal) from funext h]
  exact fold_max_coe _ _

/-- Folding a tile of real masked scores `a` and real values `w` into real statistics `m`, `D`, `N`. -/
theorem fold_real (s : Stats) (q k v : Tile 512 1024) (adj : Tile 512 512)
    (a : Fin 512 → Fin 512 → ℝ) (w : Fin 512 → Fin 1024 → ℝ)
    (ha : ∀ r j, masked adj (scores q k) r j = ((a r j : ℝ) : EReal))
    (hv : ∀ j d, v j d = ((w j d : ℝ) : EReal))
    (r : Fin 512) (m D : ℝ) (N : Fin 1024 → ℝ)
    (hm : s.mx r = (m : EReal)) (hD : s.den r = (D : EReal)) (hN : ∀ d, s.num r d = ((N d : ℝ) : EReal))
    (m' : ℝ) (hm' : m' = max m (Finset.univ.sup' Finset.univ_nonempty (a r))) :
    (s.fold q k v adj).mx r = ((m' : ℝ) : EReal) ∧
    (s.fold q k v adj).den r = ((Real.exp (m - m') * D + ∑ j, Real.exp (a r j - m') : ℝ) : EReal) ∧
    ∀ d, (s.fold q k v adj).num r d =
      ((Real.exp (m - m') * N d + ∑ j, Real.exp (a r j - m') * w j d : ℝ) : EReal) := by
  have hmx : newMax s.mx (masked adj (scores q k)) r = ((m' : ℝ) : EReal) := by
    show max (s.mx r) (tileMax (masked adj (scores q k)) r) = _
    rw [hm, tileMax_coe _ (a r) r (ha r), ← coe_max, hm']
  refine ⟨hmx, ?_, fun d => ?_⟩
  · show Ideal.exp (s.mx r - newMax s.mx (masked adj (scores q k)) r) * s.den r
      + ∑ j, Ideal.exp (masked adj (scores q k) r j - newMax s.mx (masked adj (scores q k)) r) = _
    rw [hmx, hm, hD]
    simp only [ha, ← EReal.coe_sub, Ideal.exp_coe, ← EReal.coe_mul, ← coe_sum, ← EReal.coe_add]
  · show Ideal.exp (s.mx r - newMax s.mx (masked adj (scores q k)) r) * s.num r d
      + ∑ j, Ideal.exp (masked adj (scores q k) r j - newMax s.mx (masked adj (scores q k)) r) * v j d = _
    rw [hmx, hm, hN]
    simp only [ha, hv, ← EReal.coe_sub, Ideal.exp_coe, ← EReal.coe_mul, ← coe_sum, ← EReal.coe_add]

/-- The first fold: the old maximum is −∞, the rescaling factor e^(−∞) = 0 meets zero statistics. -/
theorem fold_reset (q k v : Tile 512 1024) (adj : Tile 512 512)
    (a : Fin 512 → Fin 512 → ℝ) (w : Fin 512 → Fin 1024 → ℝ)
    (ha : ∀ r j, masked adj (scores q k) r j = ((a r j : ℝ) : EReal))
    (hv : ∀ j d, v j d = ((w j d : ℝ) : EReal))
    (r : Fin 512) (m' : ℝ) (hm' : m' = Finset.univ.sup' Finset.univ_nonempty (a r)) :
    (Stats.reset.fold q k v adj).mx r = ((m' : ℝ) : EReal) ∧
    (Stats.reset.fold q k v adj).den r = ((∑ j, Real.exp (a r j - m') : ℝ) : EReal) ∧
    ∀ d, (Stats.reset.fold q k v adj).num r d = ((∑ j, Real.exp (a r j - m') * w j d : ℝ) : EReal) := by
  have hmx : newMax Stats.reset.mx (masked adj (scores q k)) r = ((m' : ℝ) : EReal) := by
    show max (⊥ : EReal) (tileMax (masked adj (scores q k)) r) = _
    rw [tileMax_coe _ (a r) r (ha r), max_eq_right bot_le, hm']
  refine ⟨hmx, ?_, fun d => ?_⟩
  · show Ideal.exp ((⊥ : EReal) - newMax Stats.reset.mx (masked adj (scores q k)) r) * (0 : EReal)
      + ∑ j, Ideal.exp (masked adj (scores q k) r j - newMax Stats.reset.mx (masked adj (scores q k)) r) = _
    rw [hmx, mul_zero, zero_add]
    simp only [ha, ← EReal.coe_sub, Ideal.exp_coe, ← coe_sum]
  · show Ideal.exp ((⊥ : EReal) - newMax Stats.reset.mx (masked adj (scores q k)) r) * (0 : EReal)
      + ∑ j, Ideal.exp (masked adj (scores q k) r j - newMax Stats.reset.mx (masked adj (scores q k)) r) * v j d = _
    rw [hmx, mul_zero, zero_add]
    simp only [ha, hv, ← EReal.coe_sub, Ideal.exp_coe, ← EReal.coe_mul, ← coe_sum]

/-! ### The statistics after key tiles 0, …, k -/

theorem stats_real (qi : Fin 8) (k : ℕ) (r : Fin 512) :
    (statsAfter I qi k).mx r = ((runMax I qi k r : ℝ) : EReal) ∧
    (statsAfter I qi k).den r = ((runDen I qi k r : ℝ) : EReal) ∧
    ∀ d, (statsAfter I qi k).num r d = ((runNum I qi k r d : ℝ) : EReal) := by
  induction k with
  | zero =>
    obtain ⟨h1, h2, h3⟩ := fold_reset (qTile I qi) (kTile I 0) (vTile I 0) (adjTile I qi 0)
      (lg I qi 0) (vl I 0) (masked_tile I qi 0) (vTile_eq I 0) r (runMax I qi 0 r) rfl
    refine ⟨h1, ?_, fun d => ?_⟩
    · rw [runDen, Finset.sum_range_one]; exact h2
    · rw [runNum, Finset.sum_range_one]; exact h3 d
  | succ k ih =>
    obtain ⟨i1, i2, i3⟩ := ih
    obtain ⟨h1, h2, h3⟩ := fold_real (statsAfter I qi k) (qTile I qi) (kTile I (k + 1)) (vTile I (k + 1))
      (adjTile I qi (k + 1)) (lg I qi (k + 1)) (vl I (k + 1)) (masked_tile I qi (k + 1)) (vTile_eq I (k + 1)) r
      (runMax I qi k r) (runDen I qi k r) (runNum I qi k r) i1 i2 i3 (runMax I qi (k + 1) r) rfl
    refine ⟨h1, ?_, fun d => ?_⟩
    · refine h2.trans (congrArg _ ?_)
      rw [runDen, runDen, Finset.sum_range_succ _ (k + 1), Finset.mul_sum]
      congr 1
      refine Finset.sum_congr rfl fun t _ => ?_
      rw [Finset.mul_sum]
      exact Finset.sum_congr rfl fun j _ => exp_rescale _ _ _
    · refine (h3 d).trans (congrArg _ ?_)
      rw [runNum, runNum, Finset.sum_range_succ _ (k + 1), Finset.mul_sum]
      congr 1
      refine Finset.sum_congr rfl fun t _ => ?_
      rw [Finset.mul_sum]
      refine Finset.sum_congr rfl fun j _ => ?_
      rw [← mul_assoc, exp_rescale]

/-! ### After the eighth tile the real quantities are the specification's -/

theorem tmax_le_rowMax (qi : Fin 8) (k : ℕ) (r : Fin 512) : tmax I qi k r ≤ rowMax I (rowIx qi r) :=
  Finset.sup'_le _ _ fun j _ => Finset.le_sup' (logit I (rowIx qi r)) (Finset.mem_univ _)

theorem runMax_le_rowMax (qi : Fin 8) (k : ℕ) (r : Fin 512) : runMax I qi k r ≤ rowMax I (rowIx qi r) := by
  induction k with
  | zero => exact tmax_le_rowMax I qi 0 r
  | succ k ih => exact max_le ih (tmax_le_rowMax I qi (k + 1) r)

theorem tmax_le_runMax (qi : Fin 8) {t k : ℕ} (h : t ≤ k) (r : Fin 512) : tmax I qi t r ≤ runMax I qi k r := by
  induction k with
  | zero =>
    obtain rfl : t = 0 := by omega
    exact le_rfl
  | succ k ih =>
    rcases Nat.lt_or_ge t (k + 1) with h' | h'
    · exact (ih (by omega)).trans (le_max_left _ _)
    · obtain rfl : t = k + 1 := by omega
      exact le_max_right _ _

theorem runMax_seven (qi : Fin 8) (r : Fin 512) : runMax I qi 7 r = rowMax I (rowIx qi r) := by
  refine le_antisymm (runMax_le_rowMax I qi 7 r) (Finset.sup'_le _ _ fun i _ => ?_)
  obtain ⟨⟨t, j⟩, rfl⟩ := tileEquiv.surjective i
  have h1 : logit I (rowIx qi r) (rowIx t j) ≤ tmax I qi t.val r := by
    unfold tmax lg
    rw [kIx_val]
    exact Finset.le_sup' (fun j => logit I (rowIx qi r) (rowIx t j)) (Finset.mem_univ j)
  exact h1.trans (tmax_le_runMax I qi (by have := t.isLt; omega) r)

theorem runDen_seven (qi : Fin 8) (r : Fin 512) : runDen I qi 7 r = denom I (rowIx qi r) := by
  rw [runDen, denom, sum_tiles, runMax_seven]
  rfl

theorem runNum_seven (qi : Fin 8) (r : Fin 512) (d : Fin 1024) : runNum I qi 7 r d = numer I (rowIx qi r) d := by
  rw [runNum, numer, sum_tiles, runMax_seven]
  rfl

/-- After all eight key tiles the normalised statistics are the specification's output rows. -/
theorem online_out (qi : Fin 8) (r : Fin 512) (d : Fin 1024) :
    normalised (statsAfter I qi 7).num (statsAfter I qi 7).den r d = ((out I (rowIx qi r) d : ℝ) : EReal) := by
  obtain ⟨_, hden, hnum⟩ := stats_real I qi 7 r
  show max (Ideal.div ((statsAfter I qi 7).num r d) ((statsAfter I qi 7).den r)) 0 = _
  rw [hnum d, hden, runDen_seven, runNum_seven, Ideal.div_coe (denom_pos I _).ne', ← EReal.coe_mul,
    ← EReal.coe_zero, ← coe_max, out, one_div, div_eq_mul_inv]

end Cert.AttnOnline

end
-- ==== Proof.AttentionValue.lean ====
/-
  What the attention region leaves in its output array: the specification's `out`. By induction on the grid point
  the carried state after point 8·qi + ki holds query tile qi's projected queries and its statistics after key
  tiles 0, …, ki; at ki = 7 the output block is the normalised statistics, the rows [512 qi, 512 qi + 512) of `out`;
  the eight blocks written back cover the array.
-/
import proofs.«410202_j60206851555563_3_alg».proof.Proof.AttentionPieces
import proofs.«410202_j60206851555563_3_alg».proof.Proof.Online
import proofs.«410202_j60206851555563_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnValue

open Idealize.ShloMosaic Idealize.ShloMosaic.TcCoe Idealize.ShloMosaic.ValueIdx Idealize.SL.Sem
open Cert.KernelIdeal Cert.KernelIdeal.Gen Cert.KernelIdeal.Attn Cert.KernelIdeal.AttnPieces Cert.AttnStep Cert.AttnSpec Cert.AttnOnline

variable (V : (c : Dev nD) → (b : Ref sig .tc) → Buf (Elt Ideal) ((c : Thread nD τ).loc b)) (c : Dev nD) (I : Inputs)

/-! ## The grid and the windows' block indices -/

/-- The block indices of the seven windows at a point, in closed form: the sentence, query and output windows move with the
    query tile t / 8, the adjacency window with (t / 8, t % 8), the four resident windows stay at block zero. -/
theorem blockIndex : ∀ t : Fin cfg1.N,
    win1_0.index t (0 : Fin 2) = t.val / 8 ∧ win1_0.index t (1 : Fin 2) = 0
  ∧ win1_1.index t (0 : Fin 2) = 0 ∧ win1_1.index t (1 : Fin 2) = 0
  ∧ win1_2.index t (0 : Fin 1) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val / 8 ∧ win1_5.index t (1 : Fin 2) = t.val % 8
  ∧ win1_6.index t (0 : Fin 2) = t.val / 8 ∧ win1_6.index t (1 : Fin 2) = 0 :=
  (by decide +kernel : ∀ t : Fin grid1.N, _)

theorem lt64 (t : Fin cfg1.N) : t.val < 64 := lt_of_lt_of_eq t.isLt (show cfg1.N = 64 from N_1)

/-- The query tile of a point. -/
def qOf (t : Fin cfg1.N) : Fin 8 := ⟨t.val / 8, by have := lt64 t; omega⟩

/-! ## The blocks a point reads, index by index -/

theorem blk0_apply (t : Fin cfg1.N) (r : Fin 512) (e : Fin 1024) (i : Fin 4096) (hi : i.val = 512 * (t.val / 8) + r.val) :
    (iblk1 V c 0 t : S512x1024.Idx → EReal) (ix2 r e) = (V c main_arg0 : Cert.KernelIdeal.S4096x1024.Idx → EReal) (ix2 i e) := by
  unfold iblk1
  rw [View.read_apply]
  show V c main_arg0 (((cfg1.win 0).blk t).view.emb (ix2 r e)) = V c main_arg0 _
  congr 1
  funext a
  apply Fin.ext
  obtain ⟨e0, e1, -⟩ := blockIndex t
  match a with
  | ⟨0, _⟩ => show win1_0.index t (0 : Fin 2) * 512 + 1 * r.val = i.val; rw [e0, hi]; omega
  | ⟨1, _⟩ => show win1_0.index t (1 : Fin 2) * 1024 + 1 * e.val = e.val; rw [e1]; omega

theorem blk1_apply (t : Fin cfg1.N) (e d : Fin 1024) :
    (iblk1 V c 1 t : S1024x1024.Idx → EReal) (ix2 e d) = (V c main_v3 : Cert.KernelIdeal.S1024x1024.Idx → EReal) (ix2 e d) := by
  unfold iblk1
  rw [View.read_apply]
  show V c main_v3 (((cfg1.win 1).blk t).view.emb (ix2 e d)) = V c main_v3 _
  congr 1
  funext a
  apply Fin.ext
  obtain ⟨-, -, e0, e1, -⟩ := blockIndex t
  match a with
  | ⟨0, _⟩ => show win1_1.index t (0 : Fin 2) * 1024 + 1 * e.val = e.val; rw [e0]; omega
  | ⟨1, _⟩ => show win1_1.index t (1 : Fin 2) * 1024 + 1 * d.val = d.val; rw [e1]; omega

theorem blk2_apply (t : Fin cfg1.N) (d : Fin 1024) :
    (iblk1 V c 2 t : S1024.Idx → EReal) (ix1 d) = (V c main_v5 : Cert.KernelIdeal.S1024.Idx → EReal) (ix1 d) := by
  unfold iblk1
  rw [View.read_apply]
  show V c main_v5 (((cfg1.win 2).blk t).view.emb (ix1 d)) = V c main_v5 _
  congr 1
  funext a
  apply Fin.ext
  obtain ⟨-, -, -, -, e0, -⟩ := blockIndex t
  match a with
  | ⟨0, _⟩ => show win1_2.index t (0 : Fin 1) * 1024 + 1 * d.val = d.val; rw [e0]; omega

theorem blk3_apply (t : Fin cfg1.N) (j : Fin 4096) (d : Fin 1024) :
    (iblk1 V c 3 t : S4096x1024.Idx → EReal) (ix2 j d) = (V c main_v10_0 : Cert.KernelIdeal.S4096x1024.Idx → EReal) (ix2 j d) := by
  unfold iblk1
  rw [View.read_apply]
  show V c main_v10_0 (((cfg1.win 3).blk t).view.emb (ix2 j d)) = V c main_v10_0 _
  congr 1
  funext a
  apply Fin.ext
  obtain ⟨-, -, -, -, -, e0, e1, -⟩ := blockIndex t
  match a with
  | ⟨0, _⟩ => show win1_3.index t (0 : Fin 2) * 4096 + 1 * j.val = j.val; rw [e0]; omega
  | ⟨1, _⟩ => show win1_3.index t (1 : Fin 2) * 1024 + 1 * d.val = d.val; rw [e1]; omega

theorem blk4_apply (t : Fin cfg1.N) (j : Fin 4096) (d : Fin 1024) :
    (iblk1 V c 4 t : S4096x1024.Idx → EReal) (ix2 j d) = (V c main_v10_1 : Cert.KernelIdeal.S4096x1024.Idx → EReal) (ix2 j d) := by
  unfold iblk1
  rw [View.read_apply]
  show V c main_v10_1 (((cfg1.win 4).blk t).view.emb (ix2 j d)) = V c main_v10_1 _
  congr 1
  funext a
  apply Fin.ext
  obtain ⟨-, -, -, -, -, -, -, e0, e1, -⟩ := blockIndex t
  match a with
  | ⟨0, _⟩ => show win1_4.index t (0 : Fin 2) * 4096 + 1 * j.val = j.val; rw [e0]; omega
  | ⟨1, _⟩ => show win1_4.index t (1 : Fin 2) * 1024 + 1 * d.val = d.val; rw [e1]; omega

theorem blk5_apply (t : Fin cfg1.N) (r j : Fin 512) (i i' : Fin 4096) (hi : i.val = 512 * (t.val / 8) + r.val)
    (hi' : i'.val = 512 * (t.val % 8) + j.val) :
    (iblk1 V c 5 t : S512x512.Idx → EReal) (ix2 r j) = (V c main_arg1 : Cert.KernelIdeal.S4096x4096.Idx → EReal) (ix2 i i') := by
  unfold iblk1
  rw [View.read_apply]
  show V c main_arg1 (((cfg1.win 5).blk t).view.emb (ix2 r j)) = V c main_arg1 _
  congr 1
  funext a
  apply Fin.ext
  obtain ⟨-, -, -, -, -, -, -, -, -, e0, e1, -⟩ := blockIndex t
  match a with
  | ⟨0, _⟩ => show win1_5.index t (0 : Fin 2) * 512 + 1 * r.val = i.val; rw [e0, hi]; omega
  | ⟨1, _⟩ => show win1_5.index t (1 : Fin 2) * 512 + 1 * j.val = i'.val; rw [e1, hi']; omega

/-! ## The blocks as tiles of the specification's arrays -/

/-- The coercion of a finite sum of reals is the sum of the coercions. -/
theorem coe_sum {ι : Type} (s : Finset ι) (f : ι → ℝ) : ((∑ e ∈ s, f e : ℝ) : EReal) = ∑ e ∈ s, ((f e : ℝ) : EReal) := by
  classical
  refine Finset.induction_on s (by simp) ?_
  intro a s ha ih
  rw [Finset.sum_insert ha, Finset.sum_insert ha, EReal.coe_add, ih]

section Reads

variable (hx : ∀ (i : Fin 4096) (e : Fin 1024), (V c main_arg0 : Cert.KernelIdeal.S4096x1024.Idx → EReal) (ix2 i e) = ((I.x i e : ℝ) : EReal))
    (hwq : ∀ (e d : Fin 1024), (V c main_v3 : Cert.KernelIdeal.S1024x1024.Idx → EReal) (ix2 e d) = (((1 / 32 : ℝ) * I.wq d e : ℝ) : EReal))
    (hbq : ∀ d : Fin 1024, (V c main_v5 : Cert.KernelIdeal.S1024.Idx → EReal) (ix1 d) = (((1 / 32 : ℝ) * I.bq d : ℝ) : EReal))
    (hk : ∀ (j : Fin 4096) (d : Fin 1024), (V c main_v10_0 : Cert.KernelIdeal.S4096x1024.Idx → EReal) (ix2 j d) = ((key I j d : ℝ) : EReal))
    (hv : ∀ (j : Fin 4096) (d : Fin 1024), (V c main_v10_1 : Cert.KernelIdeal.S4096x1024.Idx → EReal) (ix2 j d) = ((value I j d : ℝ) : EReal))
    (hadj : ∀ (i j : Fin 4096), (V c main_arg1 : Cert.KernelIdeal.S4096x4096.Idx → EReal) (ix2 i j) = ((I.adj i j : ℝ) : EReal))

include hx in
/-- The sentence block of a point is the rows of its query tile. -/
theorem sentences_eq (t : Fin cfg1.N) :
    tileF (iblk1 V c 0 t) = fun r e => ((I.x (rowIx (qOf t) r) e : ℝ) : EReal) := by
  funext r e
  exact (blk0_apply V c t r e (rowIx (qOf t) r) rfl).trans (hx _ _)

include hwq in
/-- The query weights' block is the whole scaled transposed weight array. -/
theorem weights_eq (t : Fin cfg1.N) :
    mat (iblk1 V c 1 t) = fun e d => (((1 / 32 : ℝ) * I.wq d e : ℝ) : EReal) := by
  funext e d
  exact (blk1_apply V c t e d).trans (hwq _ _)

include hbq in
/-- The query bias's block is the whole scaled bias. -/
theorem bias_eq (t : Fin cfg1.N) :
    vec (iblk1 V c 2 t) = fun d => (((1 / 32 : ℝ) * I.bq d : ℝ) : EReal) := by
  funext d
  exact (blk2_apply V c t d).trans (hbq _)

include hx hwq hbq in
/-- The projection of a point's sentences is its query tile. -/
theorem projQ_eq (t : Fin cfg1.N) :
    projQ (tileF (iblk1 V c 0 t)) (mat (iblk1 V c 1 t)) (vec (iblk1 V c 2 t)) = qTile I (qOf t) := by
  rw [sentences_eq V c I hx t, weights_eq V c I hwq t, bias_eq V c I hbq t]
  funext r d
  unfold projQ qTile query
  rw [EReal.coe_add, coe_sum]
  simp only [EReal.coe_mul]

include hk in
/-- Key tile k of the resident key array. -/
theorem keys_eq (t : Fin cfg1.N) (k : ℕ) : rowsAt (iblk1 V c 3 t) k = kTile I k := by
  funext j d
  unfold rowsAt kTile
  exact (blk3_apply V c t _ d).trans (hk _ _)

include hv in
/-- Value tile k of the resident value array. -/
theorem values_eq (t : Fin cfg1.N) (k : ℕ) : rowsAt (iblk1 V c 4 t) k = vTile I k := by
  funext j d
  unfold rowsAt vTile
  exact (blk4_apply V c t _ d).trans (hv _ _)

include hadj in
/-- The adjacency block of a point: its query tile's rows against its key tile's columns. -/
theorem adjacency_eq (t : Fin cfg1.N) : tileA (iblk1 V c 5 t) = adjTile I (qOf t) t.val := by
  funext r j
  unfold adjTile
  exact (blk5_apply V c t r j (rowIx (qOf t) r) (rowIx ⟨t.val % 8, Nat.mod_lt _ (by norm_num)⟩ j) rfl rfl).trans (hadj _ _)

end Reads

/-! ## The statistics' recursion, and key tiles named modulo 8 -/

theorem statsAfter_zero (qi : Fin 8) :
    statsAfter I qi 0 = Stats.reset.fold (qTile I qi) (kTile I 0) (vTile I 0) (adjTile I qi 0) := rfl

theorem statsAfter_succ (qi : Fin 8) (k : ℕ) :
    statsAfter I qi (k + 1) = (statsAfter I qi k).fold (qTile I qi) (kTile I (k + 1)) (vTile I (k + 1)) (adjTile I qi (k + 1)) := rfl

theorem kTile_congr {k k' : ℕ} (h : k % 8 = k' % 8) : kTile I k = kTile I k' := by
  unfold kTile; simp only [h]

theorem vTile_congr {k k' : ℕ} (h : k % 8 = k' % 8) : vTile I k = vTile I k' := by
  unfold vTile; simp only [h]

theorem adjTile_congr (qi : Fin 8) {k k' : ℕ} (h : k % 8 = k' % 8) : adjTile I qi k = adjTile I qi k' := by
  unfold adjTile; simp only [h]

/-! ## The invariant: after point 8 qi + ki the carried state holds tile qi's queries and its statistics after key tiles 0 … ki -/

/-- The carried state after point n holds the query tile n / 8 and its statistics after key tiles 0, …, n % 8. -/
def Inv (n : ℕ) (hn : n < cfg1.N) : Prop :=
  tileB (carriedAt V c n hn).q = qTile I ⟨n / 8, by have := lt_of_lt_of_eq hn (show cfg1.N = 64 from N_1); omega⟩
    ∧ statsOf (carriedAt V c n hn) = statsAfter I ⟨n / 8, by have := lt_of_lt_of_eq hn (show cfg1.N = 64 from N_1); omega⟩ (n % 8)

section Invariant

variable (hx : ∀ (i : Fin 4096) (e : Fin 1024), (V c main_arg0 : Cert.KernelIdeal.S4096x1024.Idx → EReal) (ix2 i e) = ((I.x i e : ℝ) : EReal))
    (hwq : ∀ (e d : Fin 1024), (V c main_v3 : Cert.KernelIdeal.S1024x1024.Idx → EReal) (ix2 e d) = (((1 / 32 : ℝ) * I.wq d e : ℝ) : EReal))
    (hbq : ∀ d : Fin 1024, (V c main_v5 : Cert.KernelIdeal.S1024.Idx → EReal) (ix1 d) = (((1 / 32 : ℝ) * I.bq d : ℝ) : EReal))
    (hk : ∀ (j : Fin 4096) (d : Fin 1024), (V c main_v10_0 : Cert.KernelIdeal.S4096x1024.Idx → EReal) (ix2 j d) = ((key I j d : ℝ) : EReal))
    (hv : ∀ (j : Fin 4096) (d : Fin 1024), (V c main_v10_1 : Cert.KernelIdeal.S4096x1024.Idx → EReal) (ix2 j d) = ((value I j d : ℝ) : EReal))
    (hadj : ∀ (i j : Fin 4096), (V c main_arg1 : Cert.KernelIdeal.S4096x4096.Idx → EReal) (ix2 i j) = ((I.adj i j : ℝ) : EReal))

include hx hwq hbq hk hv hadj in
/-- At the first key tile the state is rebuilt from the point's blocks alone. -/
theorem inv_first (t : Fin cfg1.N) (h0 : t.val % 8 = 0) : Inv V c I t.val t.isLt := by
  unfold Inv
  rw [carriedAt_first V c t h0]
  refine ⟨?_, ?_⟩
  · rw [firstOf_q]
    exact projQ_eq V c I hx hwq hbq t
  · rw [firstOf_stats, projQ_eq V c I hx hwq hbq t, keys_eq V c I hk t, values_eq V c I hv t, adjacency_eq V c I hadj t, h0,
      statsAfter_zero, kTile_congr I (k := t.val) (k' := 0) (by omega), vTile_congr I (k := t.val) (k' := 0) (by omega),
      adjTile_congr I _ (k := t.val) (k' := 0) (by omega)]
    rfl

include hx hwq hbq hk hv hadj in
/-- At a later key tile short of the last the point's key tile is folded into what the point before left. -/
theorem inv_middle (t : Fin cfg1.N) (h0 : ¬t.val % 8 = 0) (h1 : ¬t.val % 8 = 7)
    (ih : Inv V c I (t.val - 1) (Nat.lt_of_le_of_lt (Nat.sub_le _ _) t.isLt)) : Inv V c I t.val t.isLt := by
  unfold Inv at ih ⊢
  obtain ⟨ihq, ihs⟩ := ih
  have hN := lt64 t
  obtain ⟨k, hk1, hk0⟩ : ∃ k, t.val % 8 = k + 1 ∧ (t.val - 1) % 8 = k := ⟨t.val % 8 - 1, by omega, by omega⟩
  have eq : (⟨(t.val - 1) / 8, by omega⟩ : Fin 8) = ⟨t.val / 8, by omega⟩ := Fin.ext (by show (t.val - 1) / 8 = t.val / 8; omega)
  rw [eq] at ihq ihs
  rw [hk0] at ihs
  rw [carriedAt_middle V c t h0 h1]
  refine ⟨?_, ?_⟩
  · rw [middleOf_q]; exact ihq
  · rw [middleOf_stats, ihs, ihq, keys_eq V c I hk t, values_eq V c I hv t, adjacency_eq V c I hadj t, hk1, statsAfter_succ,
      kTile_congr I (k := t.val) (k' := k + 1) (by omega), vTile_congr I (k := t.val) (k' := k + 1) (by omega),
      adjTile_congr I _ (k := t.val) (k' := k + 1) (by omega)]
    rfl

include hx hwq hbq hk hv hadj in
/-- At the last key tile likewise (the output block is normalised besides). -/
theorem inv_last (t : Fin cfg1.N) (h0 : ¬t.val % 8 = 0) (h1 : t.val % 8 = 7)
    (ih : Inv V c I (t.val - 1) (Nat.lt_of_le_of_lt (Nat.sub_le _ _) t.isLt)) : Inv V c I t.val t.isLt := by
  unfold Inv at ih ⊢
  obtain ⟨ihq, ihs⟩ := ih
  have hN := lt64 t
  obtain ⟨k, hk1, hk0⟩ : ∃ k, t.val % 8 = k + 1 ∧ (t.val - 1) % 8 = k := ⟨t.val % 8 - 1, by omega, by omega⟩
  have eq : (⟨(t.val - 1) / 8, by omega⟩ : Fin 8) = ⟨t.val / 8, by omega⟩ := Fin.ext (by show (t.val - 1) / 8 = t.val / 8; omega)
  rw [eq] at ihq ihs
  rw [hk0] at ihs
  rw [carriedAt_last V c t h0 h1]
  refine ⟨?_, ?_⟩
  · rw [lastOf_q]; exact ihq
  · rw [lastOf_stats, ihs, ihq, keys_eq V c I hk t, values_eq V c I hv t, adjacency_eq V c I hadj t, hk1, statsAfter_succ,
      kTile_congr I (k := t.val) (k' := k + 1) (by omega), vTile_congr I (k := t.val) (k' := k + 1) (by omega),
      adjTile_congr I _ (k := t.val) (k' := k + 1) (by omega)]
    rfl

include hx hwq hbq hk hv hadj in
/-- The invariant at every point, by induction on the point. -/
theorem inv_all : ∀ (n : ℕ) (hn : n < cfg1.N), Inv V c I n hn
  | 0, hn => inv_first V c I hx hwq hbq hk hv hadj ⟨0, hn⟩ rfl
  | n + 1, hn => by
    have ih := inv_all n (Nat.lt_of_succ_lt hn)
    by_cases h0 : (n + 1) % 8 = 0
    · exact inv_first V c I hx hwq hbq hk hv hadj ⟨n + 1, hn⟩ h0
    · by_cases h1 : (n + 1) % 8 = 7
      · exact inv_last V c I hx hwq hbq hk hv hadj ⟨n + 1, hn⟩ h0 h1 ih
      · exact inv_middle V c I hx hwq hbq hk hv hadj ⟨n + 1, hn⟩ h0 h1 ih

end Invariant

/-! ## The output block at the last key tile, and the array -/

/-- The specification's output as contents of the result array. -/
def outArr : Cert.KernelIdeal.S4096x1024.Idx → EReal := fun j => ((out I (j 0) (j 1) : ℝ) : EReal)

theorem outArr_apply (i : Fin 4096) (d : Fin 1024) : outArr I (ix2 i d) = ((out I i d : ℝ) : EReal) := rfl

/-- The output window's block at a point, read off an array of the result's shape, is the rows of the point's query tile. -/
theorem blk6_apply (G : Cert.KernelIdeal.S4096x1024.Idx → EReal) (t : Fin cfg1.N) (r : Fin 512) (d : Fin 1024) (i : Fin 4096)
    (hi : i.val = 512 * (t.val / 8) + r.val) :
    (((cfg1.win 6).blk t).view.read (Elt Ideal) G : S512x1024.Idx → EReal) (ix2 r d) = G (ix2 i d) := by
  rw [View.read_apply]
  show G (((cfg1.win 6).blk t).view.emb (ix2 r d)) = G _
  congr 1
  funext a
  apply Fin.ext
  obtain ⟨-, -, -, -, -, -, -, -, -, -, -, e0, e1⟩ := blockIndex t
  match a with
  | ⟨0, _⟩ => show win1_6.index t (0 : Fin 2) * 512 + 1 * r.val = i.val; rw [e0, hi]; omega
  | ⟨1, _⟩ => show win1_6.index t (1 : Fin 2) * 1024 + 1 * d.val = d.val; rw [e1]; omega

/-- An index of the result array is in a point's output block iff each coordinate is in the block's range on its axis. -/
theorem mem_blk6 (t : Fin cfg1.N) (i : Cert.KernelIdeal.S4096x1024.Idx) :
    i ∈ ((cfg1.win 6).blk t).view.set ↔ ∀ a : Fin 2, win1_6.index t a * S512x1024.size a ≤ (i a).val ∧ (i a).val < win1_6.index t a * S512x1024.size a + S512x1024.size a := by
  show i ∈ ((View.whole main_v11).slice (win1_6.rect t)).set ↔ _
  rw [View.set_slice_whole, Rect.mem_set_unit]
  exact Iff.rfl

section Array

variable (hx : ∀ (i : Fin 4096) (e : Fin 1024), (V c main_arg0 : Cert.KernelIdeal.S4096x1024.Idx → EReal) (ix2 i e) = ((I.x i e : ℝ) : EReal))
    (hwq : ∀ (e d : Fin 1024), (V c main_v3 : Cert.KernelIdeal.S1024x1024.Idx → EReal) (ix2 e d) = (((1 / 32 : ℝ) * I.wq d e : ℝ) : EReal))
    (hbq : ∀ d : Fin 1024, (V c main_v5 : Cert.KernelIdeal.S1024.Idx → EReal) (ix1 d) = (((1 / 32 : ℝ) * I.bq d : ℝ) : EReal))
    (hk : ∀ (j : Fin 4096) (d : Fin 1024), (V c main_v10_0 : Cert.KernelIdeal.S4096x1024.Idx → EReal) (ix2 j d) = ((key I j d : ℝ) : EReal))
    (hv : ∀ (j : Fin 4096) (d : Fin 1024), (V c main_v10_1 : Cert.KernelIdeal.S4096x1024.Idx → EReal) (ix2 j d) = ((value I j d : ℝ) : EReal))
    (hadj : ∀ (i j : Fin 4096), (V c main_arg1 : Cert.KernelIdeal.S4096x4096.Idx → EReal) (ix2 i j) = ((I.adj i j : ℝ) : EReal))

include hx hwq hbq hk hv hadj in
/-- At the last key tile the output block is the normalised statistics after all eight key tiles: the query tile's rows of
    the specification's output. -/
theorem out_last (t : Fin cfg1.N) (h1 : t.val % 8 = 7) (r : Fin 512) (d : Fin 1024) :
    tileF (carriedAt V c t.val t.isLt).out r d = ((out I (rowIx (qOf t) r) d : ℝ) : EReal) := by
  have hN := lt64 t
  have h0 : ¬t.val % 8 = 0 := by omega
  obtain ⟨ihq, ihs⟩ := inv_all V c I hx hwq hbq hk hv hadj (t.val - 1) (Nat.lt_of_le_of_lt (Nat.sub_le _ _) t.isLt)
  have eq : (⟨(t.val - 1) / 8, by omega⟩ : Fin 8) = qOf t := Fin.ext (by show (t.val - 1) / 8 = t.val / 8; omega)
  have hk0 : (t.val - 1) % 8 = 6 := by omega
  rw [eq] at ihq ihs
  rw [hk0] at ihs
  rw [carriedAt_last V c t h0 h1, lastOf_out, ihs, ihq, keys_eq V c I hk t, values_eq V c I hv t, adjacency_eq V c I hadj t,
    kTile_congr I (k := t.val) (k' := 6 + 1) (by omega), vTile_congr I (k := t.val) (k' := 6 + 1) (by omega),
    adjTile_congr I _ (k := t.val) (k' := 6 + 1) (by omega), ← statsAfter_succ]
  exact online_out I (qOf t) r d

include hx hwq hbq hk hv hadj in
/-- What a point that writes back writes is its block of the specification's output. -/
theorem flushed_eq (t : Fin cfg1.N) (hf : (cfg1.win 6).flush t = true) :
    (dat1 V c).flushed 6 t = ((cfg1.win 6).blk t).view.read (Elt Ideal) (outArr I) := by
  have h1 : t.val % 8 = 7 := (flush1_6 t).mp hf
  show (cfg1.win 6).cut (grid1.coords t) ((dat1 V c).after 6 t) = _
  rw [after1_6]
  funext y
  obtain ⟨r, d, rfl⟩ : ∃ (r : Fin 512) (d : Fin 1024), y = ix2 r d := ⟨y 0, y 1, eq_ix2 y⟩
  refine Eq.trans ?_ (blk6_apply (outArr I) t r d (rowIx (qOf t) r) rfl).symm
  rw [outArr_apply]
  exact out_last V c I hx hwq hbq hk hv hadj t h1 r d

end Array

/-- The output array after the region, from what the region's six input arrays hold on entry: the sentence embeddings,
    the scaled transposed query weights and scaled bias, the key and value arrays, the adjacency. -/
theorem out_at
    (hx : ∀ (i : Fin 4096) (e : Fin 1024), (V c main_arg0 : Cert.KernelIdeal.S4096x1024.Idx → EReal) (ix2 i e) = ((I.x i e : ℝ) : EReal))
    (hwq : ∀ (e d : Fin 1024), (V c main_v3 : Cert.KernelIdeal.S1024x1024.Idx → EReal) (ix2 e d) = (((1 / 32 : ℝ) * I.wq d e : ℝ) : EReal))
    (hbq : ∀ d : Fin 1024, (V c main_v5 : Cert.KernelIdeal.S1024.Idx → EReal) (ix1 d) = (((1 / 32 : ℝ) * I.bq d : ℝ) : EReal))
    (hk : ∀ (j : Fin 4096) (d : Fin 1024), (V c main_v10_0 : Cert.KernelIdeal.S4096x1024.Idx → EReal) (ix2 j d) = ((key I j d : ℝ) : EReal))
    (hv : ∀ (j : Fin 4096) (d : Fin 1024), (V c main_v10_1 : Cert.KernelIdeal.S4096x1024.Idx → EReal) (ix2 j d) = ((value I j d : ℝ) : EReal))
    (hadj : ∀ (i j : Fin 4096), (V c main_arg1 : Cert.KernelIdeal.S4096x4096.Idx → EReal) (ix2 i j) = ((I.adj i j : ℝ) : EReal))
    (i : Fin 4096) (d : Fin 1024) :
    ((dat1 V c).arrAt 6 cfg1.N : Cert.KernelIdeal.S4096x1024.Idx → EReal) (ix2 i d) = ((out I i d : ℝ) : EReal) := by
  have cover : ∀ j : Cert.KernelIdeal.S4096x1024.Idx,
      ∃ t : Fin cfg1.N, (cfg1.win 6).flush t = true ∧ j ∈ ((cfg1.win 6).blk t).view.set := by
    intro j
    have hj0 : (j 0).val < 4096 := idx2_lt0 j
    have hj1 : (j 1).val < 1024 := idx2_lt1 j
    have hlt : 8 * ((j 0).val / 512) + 7 < cfg1.N := by rw [show cfg1.N = 64 from N_1]; omega
    refine ⟨⟨8 * ((j 0).val / 512) + 7, hlt⟩, (flush1_6 _).mpr (by show (8 * ((j 0).val / 512) + 7) % 8 = 7; omega), ?_⟩
    rw [mem_blk6]
    obtain ⟨-, -, -, -, -, -, -, -, -, -, -, e0, e1⟩ := blockIndex ⟨8 * ((j 0).val / 512) + 7, hlt⟩
    have e0' : win1_6.index ⟨8 * ((j 0).val / 512) + 7, hlt⟩ (0 : Fin 2) = (j 0).val / 512 := by rw [e0]; show (8 * ((j 0).val / 512) + 7) / 8 = _; omega
    intro a
    match a with
    | ⟨0, _⟩ =>
      show win1_6.index ⟨8 * ((j 0).val / 512) + 7, hlt⟩ (0 : Fin 2) * 512 ≤ (j 0).val ∧ (j 0).val < win1_6.index ⟨8 * ((j 0).val / 512) + 7, hlt⟩ (0 : Fin 2) * 512 + 512
      rw [e0']; omega
    | ⟨1, _⟩ =>
      show win1_6.index ⟨8 * ((j 0).val / 512) + 7, hlt⟩ (1 : Fin 2) * 1024 ≤ (j 1).val ∧ (j 1).val < win1_6.index ⟨8 * ((j 0).val / 512) + 7, hlt⟩ (1 : Fin 2) * 1024 + 1024
      rw [e1]; omega
  have final : (dat1 V c).arrAt 6 cfg1.N = outArr I :=
    (dat1 V c).arrAt_eq_of_cover 6 (outArr I) (fun t hf => flushed_eq V c I hx hwq hbq hk hv hadj t hf) cover
  rw [final]
  rfl

end Cert.KernelIdeal.AttnValue

end
-- ==== Proof.KernelValue.lean ====
/-
  The idealized kernel's result array holds the specification's output. The attention region is entered with the
  sentence embeddings and adjacency as launched, the query weights and bias as the host stretch scaled and transposed
  them, and the key and value arrays as the projection region left them — the specification's keys and values.
-/
import proofs.«410202_j60206851555563_3_alg».proof.Proof.HostPrefix
import proofs.«410202_j60206851555563_3_alg».proof.Proof.ProjectionValue
import proofs.«410202_j60206851555563_3_alg».proof.Proof.AttentionValue
import proofs.«410202_j60206851555563_3_alg».proof.Proof.Spec

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.AttnSpec

variable (m : (ℓ : Loc nD τ sig) → Buf (Elt Ideal) ℓ) (ρ : Dev nD → PrngReg) (c : Dev nD) (I : Inputs)

/-- From launch arrays that hold real inputs `I`, the result array after the run holds `out I`. -/
theorem kernel_isOut
    (hI : Holds I (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))) :
    IsOut I (W3 m ρ c (Proc.devRef .tc main_v11)) := by
  intro i d
  rw [W3_result]
  refine Cert.KernelIdeal.AttnValue.out_at (V2 m ρ) c I ?hx ?hwq ?hbq ?hk ?hv ?hadj i d
  case hx => intro i e; rw [V2_main_arg0]; exact hI.x i e
  case hwq => intro e d; rw [V2_main_v3, v3_at, hI.wq d e, ← EReal.coe_mul]
  case hbq => intro d; rw [V2_main_v5, v5_at, hI.bq d, ← EReal.coe_mul]
  case hk =>
    intro j d; rw [V2_main_v10_0]
    refine Cert.KernelIdeal.ProjValue.keys_at (V1 m ρ) c I ?_ ?_ ?_ j d
    · intro j e; rw [V1_main_arg0]; exact hI.x j e
    · intro e d; rw [v7_at]; exact hI.wk d e
    · intro d; rw [V1_main_arg5]; exact hI.bk d
  case hv =>
    intro j d; rw [V2_main_v10_1]
    refine Cert.KernelIdeal.ProjValue.values_at (V1 m ρ) c I ?_ ?_ ?_ j d
    · intro j e; rw [V1_main_arg0]; exact hI.x j e
    · intro e d; rw [v9_at]; exact hI.wv d e
    · intro d; rw [V1_main_arg7]; exact hI.bv d
  case hadj => intro i j; rw [V2_main_arg1]; exact hI.adj i j

end Cert.KernelIdeal.Whole

end
-- ==== Proof.RefValue.lean ====
/-
  The reference program computes the specification: its result array, read index by index through the generated
  stage lemmas, is `out` of the real inputs. What joins the two spellings: the scale 1/32 distributes over the
  query's sum and bias; with a 0/1 adjacency the product score·adj vanishes exactly where the adjacency entry or the
  score does and is the score elsewhere; and a sum of quotients by one positive denominator is the quotient of the sum.
-/
import proofs.«410202_j60206851555563_3_alg».proof.Proof.Spec
import proofs.«410202_j60206851555563_3_alg».proof.Proof.Consts
import proofs.«410202_j60206851555563_3_alg».proof.Proof.Gen.ReferenceIdeal.Read

noncomputable section

open scoped BigOperators

namespace Cert.ReferenceIdeal.RefValue

open Cert.AttnSpec Idealize.ShloMosaic Idealize.ShloMosaic.ValueIdx

open Cert.ReferenceIdeal.Read

/-! ## Facts over the reals and the extended reals, apart from the program -/

/-- The coercion into the extended reals goes through a finite sum. -/
theorem coe_sum {ι : Type} (s : Finset ι) (f : ι → ℝ) :
    (∑ k ∈ s, ((f k : ℝ) : EReal)) = (((∑ k ∈ s, f k : ℝ)) : EReal) := by
  classical
  refine Finset.induction_on s ?_ ?_
  · simp
  · intro a s ha ih
    rw [Finset.sum_insert ha, Finset.sum_insert ha, ih, EReal.coe_add]

/-- (i) The scale 1/32 on the whole score is the scale on the query's weights and bias. -/
theorem scale_sum {n m : Nat} (x : Fin m → ℝ) (w : Fin n → Fin m → ℝ) (b : Fin n → ℝ) (k : Fin n → ℝ) :
    (1 / 32 : ℝ) * ∑ d, (∑ e, x e * w d e + b d) * k d
      = ∑ d, (∑ e, x e * ((1 / 32 : ℝ) * w d e) + (1 / 32 : ℝ) * b d) * k d := by
  rw [Finset.mul_sum]
  refine Finset.sum_congr rfl fun d _ => ?_
  rw [← mul_assoc, mul_add, Finset.mul_sum]
  refine congrArg (· * k d) (congrArg (· + (1 / 32 : ℝ) * b d) (Finset.sum_congr rfl fun e _ => ?_))
  ring

/-- (ii) With a 0/1 adjacency entry the product score·adj is zero exactly where the entry or the score is, and is the
    score elsewhere: the select on "product = 0" between the sentinel and the product is the masked score. -/
theorem masked (z a : ℝ) (ha : a = 0 ∨ a = 1) :
    (if (((z * a : ℝ)) : EReal) = 0 then (((-10000 : ℝ)) : EReal) else (((z * a : ℝ)) : EReal))
      = (((if a = 0 ∨ z = 0 then (-10000 : ℝ) else z : ℝ)) : EReal) := by
  rcases ha with rfl | rfl
  · simp
  · by_cases hz : z = 0
    · simp [hz]
    · have h1 : ¬ ((1 : ℝ) = 0 ∨ z = 0) := by simp [hz]
      rw [mul_one, if_neg (by rw [EReal.coe_eq_zero]; exact hz), if_neg h1]

/-- The one-bit comparison "equal" followed by a select is the `if` on the equality. -/
theorem select_oeq (x y p q : EReal) : Scalar.select (Ideal.cmp .oeq x y) p q = if x = y then p else q := by
  unfold Scalar.select Ideal.cmp
  by_cases h : x = y
  · simp [h]
  · simp [h]

/-- (iii) The fold of the maximum from −∞ over coerced reals is the coerced largest of them. -/
theorem fold_max_coe {ι : Type} (s : Finset ι) (H : s.Nonempty) (f : ι → ℝ) :
    s.fold max (⊥ : EReal) (fun k => ((f k : ℝ) : EReal)) = ((s.sup' H f : ℝ) : EReal) := by
  have e1 : ((s.sup' H f : ℝ) : EReal) = s.sup' H ((fun r : ℝ => (r : EReal)) ∘ f) :=
    Finset.comp_sup'_eq_sup'_comp H (fun r : ℝ => (r : EReal)) (fun x y => EReal.coe_strictMono.monotone.map_max)
  rw [e1, Finset.sup'_eq_sup]
  rfl

/-- (iv) A quotient of coerced reals by a nonzero one is the coerced quotient. -/
theorem div_coe_coe (a S : ℝ) (hS : S ≠ 0) : Ideal.div ((a : ℝ) : EReal) ((S : ℝ) : EReal) = ((a / S : ℝ) : EReal) := by
  rw [Ideal.div_coe hS, ← EReal.coe_mul, mul_one_div]

/-- (v) A sum of quotients by one denominator, each times its value, is the quotient of the weighted sum. -/
theorem sum_div_mul {ι : Type} (s : Finset ι) (w v : ι → ℝ) (S : ℝ) :
    ∑ j ∈ s, w j / S * v j = (∑ j ∈ s, w j * v j) / S := by
  rw [Finset.sum_div]
  exact Finset.sum_congr rfl fun j _ => (mul_div_right_comm (w j) (v j) S).symm

/-- (vi) The maximum of a coerced real with zero is the coerced clamp at zero. -/
theorem relu_coe (a : ℝ) : max ((a : ℝ) : EReal) 0 = ((max a 0 : ℝ) : EReal) := by
  rw [← EReal.coe_zero]
  exact (EReal.coe_strictMono.monotone.map_max).symm

/-! ## The three affine images -/

/-- An affine image `x·Wᵀ + b` of the reference, at real operands, read at (i, d). -/
theorem proj_at (X : Fin 4096 → Fin 1024 → ℝ) (W : Fin 1024 → Fin 1024 → ℝ) (B : Fin 1024 → ℝ)
    (x0 : FVec Ideal Cert.ReferenceIdeal.S4096x1024 .f32) (w : FVec Ideal Cert.ReferenceIdeal.S1024x1024 .f32)
    (b : FVec Ideal Cert.ReferenceIdeal.S1024 .f32)
    (hx : ∀ i e, x0 (ix2 i e) = ((X i e : ℝ) : EReal)) (hw : ∀ d e, w (ix2 d e) = ((W d e : ℝ) : EReal))
    (hb : ∀ d, b (ix1 d) = ((B d : ℝ) : EReal)) (i : Fin 4096) (d : Fin 1024) :
    val_main_v4 (F := Ideal) x0 w b (ix2 i d) = (((∑ e, X i e * W d e + B d : ℝ)) : EReal) := by
  have e1 : ∀ k : Fin 1024, lidx_main_v1 (ix2 i d) k = ix2 i k := fun k =>
    funext fun a => Fin.ext (by match a with | ⟨0, _⟩ => rfl | ⟨1, _⟩ => rfl)
  have e2 : ∀ k : Fin 1024, idx_main_v0 (ridx_main_v1 (ix2 i d) k) = ix2 d k := fun k =>
    funext fun a => Fin.ext (by match a with | ⟨0, _⟩ => rfl | ⟨1, _⟩ => rfl)
  have e3 : idx_main_v2 (idx_main_v3 (ix2 i d)) = ix1 d :=
    funext fun a => Fin.ext (by match a with | ⟨0, _⟩ => rfl)
  rw [val_main_v4_apply, val_main_v1_apply, val_main_v3_apply, val_main_v2_apply, e3, hb, Ideal.addf_def,
    EReal.coe_add, ← coe_sum]
  refine congrArg (· + ((B d : ℝ) : EReal)) (Finset.sum_congr rfl fun k _ => ?_)
  rw [val_main_v0_apply, e1, e2, hx, hw, EReal.coe_mul]

/-- The index over row `i` with column `k` put back on the dropped axis is (i, k). -/
theorem lift_row (hR : Cert.ReferenceIdeal.S4096x4096.Reduces [1] Cert.ReferenceIdeal.S4096) (i : Fin 4096)
    (k : Fin (Cert.ReferenceIdeal.S4096x4096.size 1)) : hR.lift (ix1 i) k = ix2 i (⟨k.val, k.isLt⟩ : Fin 4096) :=
  funext fun c => Fin.ext (by match c with | ⟨0, _⟩ => rfl | ⟨1, _⟩ => rfl)

/-! ## The stages of the reference at real inputs -/

section Stages

variable (I : Inputs) (a0 : FVec Ideal Cert.ReferenceIdeal.S4096x1024 .f32) (a1 : FVec Ideal Cert.ReferenceIdeal.S4096x4096 .f32)
    (a2 : FVec Ideal Cert.ReferenceIdeal.S1024x1024 .f32) (a3 : FVec Ideal Cert.ReferenceIdeal.S1024 .f32)
    (a4 : FVec Ideal Cert.ReferenceIdeal.S1024x1024 .f32) (a5 : FVec Ideal Cert.ReferenceIdeal.S1024 .f32)
    (a6 : FVec Ideal Cert.ReferenceIdeal.S1024x1024 .f32) (a7 : FVec Ideal Cert.ReferenceIdeal.S1024 .f32)
    (h : Holds I a0 a1 a2 a3 a4 a5 a6 a7)

include h

/-- The unscaled query. -/
theorem v4_at (i : Fin 4096) (d : Fin 1024) :
    val_main_v4 (F := Ideal) a0 a2 a3 (ix2 i d) = (((∑ e, I.x i e * I.wq d e + I.bq d : ℝ)) : EReal) :=
  proj_at I.x I.wq I.bq a0 a2 a3 h.x h.wq h.bq i d

/-- The key: the second affine image is the first one's term at the key's weights and bias. -/
theorem v9_at (j : Fin 4096) (d : Fin 1024) :
    val_main_v9 (F := Ideal) a0 a4 a5 (ix2 j d) = ((key I j d : ℝ) : EReal) :=
  proj_at I.x I.wk I.bk a0 a4 a5 h.x h.wk h.bk j d

/-- The value, likewise. -/
theorem v14_at (j : Fin 4096) (d : Fin 1024) :
    val_main_v14 (F := Ideal) a0 a6 a7 (ix2 j d) = ((value I j d : ℝ) : EReal) :=
  proj_at I.x I.wv I.bv a0 a6 a7 h.x h.wv h.bv j d

/-- The unscaled score: the inner product of the unscaled query with the key. -/
theorem v16_at (i j : Fin 4096) :
    val_main_v16 (F := Ideal) a0 a2 a3 a4 a5 (ix2 i j)
      = (((∑ d, (∑ e, I.x i e * I.wq d e + I.bq d) * key I j d : ℝ)) : EReal) := by
  have e1 : ∀ k : Fin 1024, lidx_main_v16 (ix2 i j) k = ix2 i k := fun k =>
    funext fun a => Fin.ext (by match a with | ⟨0, _⟩ => rfl | ⟨1, _⟩ => rfl)
  have e2 : ∀ k : Fin 1024, idx_main_v15 (ridx_main_v16 (ix2 i j) k) = ix2 j k := fun k =>
    funext fun a => Fin.ext (by match a with | ⟨0, _⟩ => rfl | ⟨1, _⟩ => rfl)
  rw [val_main_v16_apply, ← coe_sum]
  refine Finset.sum_congr rfl fun k _ => ?_
  rw [val_main_v15_apply, e1, e2, v4_at I a0 a1 a2 a3 a4 a5 a6 a7 h, v9_at I a0 a1 a2 a3 a4 a5 a6 a7 h, EReal.coe_mul]

/-- The score. -/
theorem v18_at (i j : Fin 4096) :
    val_main_v18 (F := Ideal) a0 a2 a3 a4 a5 (ix2 i j) = ((score I i j : ℝ) : EReal) := by
  rw [val_main_v18_apply, val_main_v17_apply, val_main_cst_apply, v16_at I a0 a1 a2 a3 a4 a5 a6 a7 h, Ideal.mulf_def,
    Ideal.ofBits_def, Cert.AttnConsts.ofBits_scale, ← EReal.coe_mul, scale_sum]
  rfl

/-- The score times the adjacency entry. -/
theorem v19_at (i j : Fin 4096) :
    val_main_v19 (F := Ideal) a0 a1 a2 a3 a4 a5 (ix2 i j) = ((score I i j * I.adj i j : ℝ) : EReal) := by
  rw [val_main_v19_apply, v18_at I a0 a1 a2 a3 a4 a5 a6 a7 h, h.adj, Ideal.mulf_def, ← EReal.coe_mul]

/-- The masked score. -/
theorem v22_at (i j : Fin 4096) :
    val_main_v22 (F := Ideal) a0 a1 a2 a3 a4 a5 (ix2 i j) = ((logit I i j : ℝ) : EReal) := by
  rw [val_main_v22_apply, val_main_v21_apply, val_main_v20_apply, val_main_cst_0_apply, val_main_call0_v0_apply,
    val_main_cst_1_apply, v19_at I a0 a1 a2 a3 a4 a5 a6 a7 h, Ideal.cmpf_def, select_oeq, Ideal.ofBits_def, Ideal.ofBits_def,
    Cert.AttnConsts.ofBits_zero, Cert.AttnConsts.ofBits_sentinel, masked _ _ (I.adj01 i j)]
  rfl

/-- The row maximum: the reduce's fold of the maximum from −∞ over the row of masked scores. -/
theorem v23_at (i : Fin 4096) :
    val_main_v23 (F := Ideal) a0 a1 a2 a3 a4 a5 (ix1 i) = ((rowMax I i : ℝ) : EReal) := by
  have hR : Cert.ReferenceIdeal.S4096x4096.Reduces [1] Cert.ReferenceIdeal.S4096 := by decide
  unfold val_main_v23
  refine (Host.reduce_eq_fold_single (FloatOps.maximumf (F := Ideal) (φ := .f32)) (val_main_v22 (F := Ideal) a0 a1 a2 a3 a4 a5)
    (val_main_cst_2 (F := Ideal)) Cert.ReferenceIdeal.Gen.reducesTo_S4096x4096_S4096_d1 hR Cert.ReferenceIdeal.Gen.h_S_ (ix1 i)).trans ?_
  rw [val_main_cst_2_apply, Ideal.ofBits_def, Cert.AttnConsts.ofBits_negInf]
  have hf : (val_main_v22 (F := Ideal) a0 a1 a2 a3 a4 a5 ∘ hR.lift (ix1 i))
      = fun k : Fin 4096 => ((logit I i k : ℝ) : EReal) := funext fun k => by
    show val_main_v22 (F := Ideal) a0 a1 a2 a3 a4 a5 (hR.lift (ix1 i) k) = _
    rw [lift_row hR i k, v22_at I a0 a1 a2 a3 a4 a5 a6 a7 h]
    rfl
  rw [hf]
  exact fold_max_coe Finset.univ Finset.univ_nonempty (logit I i)

/-- The maximum with −∞ changes nothing. -/
theorem v25_at (i : Fin 4096) :
    val_main_v25 (F := Ideal) a0 a1 a2 a3 a4 a5 (ix1 i) = ((rowMax I i : ℝ) : EReal) := by
  rw [val_main_v25_apply, val_main_v24_apply, val_main_cst_3_apply, v23_at I a0 a1 a2 a3 a4 a5 a6 a7 h, Ideal.maximumf_def,
    Ideal.ofBits_def, Cert.AttnConsts.ofBits_negInf]
  exact max_eq_right bot_le

/-- The row maximum broadcast along the row. -/
theorem v27_at (i j : Fin 4096) :
    val_main_v27 (F := Ideal) a0 a1 a2 a3 a4 a5 (ix2 i j) = ((rowMax I i : ℝ) : EReal) := by
  have e : idx_main_v26 (idx_main_v27 (ix2 i j)) = ix1 i :=
    funext fun a => Fin.ext (by match a with | ⟨0, _⟩ => rfl)
  rw [val_main_v27_apply, val_main_v26_apply, e, v25_at I a0 a1 a2 a3 a4 a5 a6 a7 h]

/-- The unnormalised weight. -/
theorem v29_at (i j : Fin 4096) :
    val_main_v29 (F := Ideal) a0 a1 a2 a3 a4 a5 (ix2 i j) = ((weight I i j : ℝ) : EReal) := by
  rw [val_main_v29_apply, val_main_v28_apply, v22_at I a0 a1 a2 a3 a4 a5 a6 a7 h, v27_at I a0 a1 a2 a3 a4 a5 a6 a7 h,
    Ideal.subf_def, ← EReal.coe_sub, Ideal.hostUnary_exp_def, Ideal.exp_coe]
  rfl

/-- The softmax denominator. -/
theorem v30_at (i : Fin 4096) :
    val_main_v30 (F := Ideal) a0 a1 a2 a3 a4 a5 (ix1 i) = ((denom I i : ℝ) : EReal) := by
  have e : ∀ k : Fin 4096, idx_main_v30 (ix1 i) k = ix2 i k := fun k =>
    funext fun a => Fin.ext (by match a with | ⟨0, _⟩ => rfl | ⟨1, _⟩ => rfl)
  rw [val_main_v30_apply, val_main_cst_4_apply, Ideal.ofBits_def, Cert.AttnConsts.ofBits_zero, zero_add]
  unfold denom
  rw [← coe_sum]
  refine Finset.sum_congr rfl fun k _ => ?_
  rw [e k, v29_at I a0 a1 a2 a3 a4 a5 a6 a7 h]

/-- The denominator broadcast along the row. -/
theorem v32_at (i j : Fin 4096) :
    val_main_v32 (F := Ideal) a0 a1 a2 a3 a4 a5 (ix2 i j) = ((denom I i : ℝ) : EReal) := by
  have e : idx_main_v31 (idx_main_v32 (ix2 i j)) = ix1 i :=
    funext fun a => Fin.ext (by match a with | ⟨0, _⟩ => rfl)
  rw [val_main_v32_apply, val_main_v31_apply, e, v30_at I a0 a1 a2 a3 a4 a5 a6 a7 h]

/-- The normalised weight. -/
theorem v33_at (i j : Fin 4096) :
    val_main_v33 (F := Ideal) a0 a1 a2 a3 a4 a5 (ix2 i j) = ((weight I i j / denom I i : ℝ) : EReal) := by
  rw [val_main_v33_apply, v29_at I a0 a1 a2 a3 a4 a5 a6 a7 h, v32_at I a0 a1 a2 a3 a4 a5 a6 a7 h, Ideal.hostDivf_def,
    div_coe_coe _ _ (denom_pos I i).ne']

/-- The attention output before the clamp. -/
theorem v34_at (i : Fin 4096) (d : Fin 1024) :
    val_main_v34 (F := Ideal) a0 a1 a2 a3 a4 a5 a6 a7 (ix2 i d) = ((numer I i d / denom I i : ℝ) : EReal) := by
  have e1 : ∀ k : Fin 4096, lidx_main_v34 (ix2 i d) k = ix2 i k := fun k =>
    funext fun a => Fin.ext (by match a with | ⟨0, _⟩ => rfl | ⟨1, _⟩ => rfl)
  have e2 : ∀ k : Fin 4096, ridx_main_v34 (ix2 i d) k = ix2 k d := fun k =>
    funext fun a => Fin.ext (by match a with | ⟨0, _⟩ => rfl | ⟨1, _⟩ => rfl)
  rw [val_main_v34_apply,
    show numer I i d / denom I i = ∑ j, weight I i j / denom I i * value I j d from
      (sum_div_mul Finset.univ (weight I i) (fun j => value I j d) (denom I i)).symm, ← coe_sum]
  refine Finset.sum_congr rfl fun k _ => ?_
  rw [e1 k, e2 k, v33_at I a0 a1 a2 a3 a4 a5 a6 a7 h, v14_at I a0 a1 a2 a3 a4 a5 a6 a7 h, EReal.coe_mul]

end Stages

/-- The reference's result stage at real inputs holds `out`. -/
theorem ref_isOut (I : Inputs) (a0 : FVec Ideal Cert.ReferenceIdeal.S4096x1024 .f32) (a1 : FVec Ideal Cert.ReferenceIdeal.S4096x4096 .f32)
    (a2 : FVec Ideal Cert.ReferenceIdeal.S1024x1024 .f32) (a3 : FVec Ideal Cert.ReferenceIdeal.S1024 .f32)
    (a4 : FVec Ideal Cert.ReferenceIdeal.S1024x1024 .f32) (a5 : FVec Ideal Cert.ReferenceIdeal.S1024 .f32)
    (a6 : FVec Ideal Cert.ReferenceIdeal.S1024x1024 .f32) (a7 : FVec Ideal Cert.ReferenceIdeal.S1024 .f32)
    (h : Holds I a0 a1 a2 a3 a4 a5 a6 a7) :
    IsOut I (Cert.ReferenceIdeal.Read.val_main_v35 (F := Ideal) a0 a1 a2 a3 a4 a5 a6 a7) := by
  intro i d
  rw [val_main_v35_apply, val_main_call1_v0_apply, val_main_call1_cst_apply, v34_at I a0 a1 a2 a3 a4 a5 a6 a7 h,
    Ideal.maximumf_def, Ideal.ofBits_def, Cert.AttnConsts.ofBits_zero, relu_coe]
  rfl

end Cert.ReferenceIdeal.RefValue

end
-- ==== Proof.InputsReal.lean ====
/-
  From the precondition to real inputs: where the printed predicate is all ones, every entry of the eight argument
  arrays is a real number and every adjacency entry is 0 or 1, so the arrays hold some `Inputs`.
-/
import proofs.«410202_j60206851555563_3_alg».proof.Proof.Spec
import proofs.«410202_j60206851555563_3_alg».proof.Pre_finite_inputs
import proofs.«410202_j60206851555563_3_alg».proof.Proof.Gen.Pre_finite_inputs
import Idealize.ShloMosaic.Lib.ReduceAll
import Idealize.ShloMosaic.Lib.ValueIdx
import Idealize.ShloMosaic.PureOps.Ideal.Laws

noncomputable section

namespace Cert.AttnInputs

open Cert.AttnSpec Idealize.ShloMosaic Idealize.ShloMosaic.ValueIdx

/-- The scalar shape has one index. -/
local instance scalarIdxSubsingleton : Subsingleton Cert.Pre_finite_inputs.S_.Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- The pattern 0x3F800000 denotes 1. -/
theorem ofBits_one : Ideal.ofBits .f32 0x3F800000#32 = (1 : EReal) := by
  simp [Ideal.ofBits, Ideal.ieee, -EReal.coe_mul]; norm_num

/-- An extended real whose absolute value max x (−x) lies strictly below +∞ is neither infinity. -/
theorem finite_of_abs_lt_top (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have h' : BitVec.ofBool (decide (max x (-x) < Ideal.ofBits .f32 0x7F800000#32)) = 1#1 := h
  rw [ofBits_inf] at h'
  have hlt : max x (-x) < ⊤ := by
    by_contra hc
    rw [decide_eq_false hc] at h'
    exact absurd h' (by decide)
  constructor
  · rintro rfl
    exact absurd hlt (by simp)
  · rintro rfl
    exact absurd hlt (by simp)

/-- One conjunct of the precondition read back: where the "all |entries| < +∞" reduction is 1, every entry is finite. -/
theorem all_finite {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] hb (constant Cert.Pre_finite_inputs.S_ .f32 0x7F800000#32)))
        (constantI Cert.Pre_finite_inputs.S_ 1 1#1) hr hu ix0 = 1#1) (i : s.Idx) : a i ≠ ⊤ ∧ a i ≠ ⊥ :=
  finite_of_abs_lt_top (a i) (Host.reduce_andi_all _ _ hr hu ix0 e i)

/-- The ninth conjunct read back: where the "all entries equal 0.0 or equal 1.0" reduction is 1, every entry is 0 or 1. -/
theorem all_zero_one {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (ori (cmpf .oeq a (broadcastInDim s ![] hb (constant Cert.Pre_finite_inputs.S_ .f32 0x00000000#32)))
          (cmpf .oeq a (broadcastInDim s ![] hb (constant Cert.Pre_finite_inputs.S_ .f32 0x3F800000#32))))
        (constantI Cert.Pre_finite_inputs.S_ 1 1#1) hr hu ix0 = 1#1) (i : s.Idx) : a i = 0 ∨ a i = 1 := by
  have h1 := Host.reduce_andi_all _ _ hr hu ix0 e i
  have h2 : IntOp.ori (BitVec.ofBool (decide (a i = Ideal.ofBits .f32 0x00000000#32)))
      (BitVec.ofBool (decide (a i = Ideal.ofBits .f32 0x3F800000#32))) = 1#1 := h1
  rw [Ideal.ofBits_zero_f32, ofBits_one] at h2
  rcases IntOp.ori_eq_one.1 h2 with h3 | h3
  · left
    by_contra hc
    rw [decide_eq_false hc] at h3
    exact absurd h3 (by decide)
  · right
    by_contra hc
    rw [decide_eq_false hc] at h3
    exact absurd h3 (by decide)

/-- A conjunction of two scalar truth values that is 1 has both conjuncts 1. -/
theorem andi_ix0 (x y : IVec Cert.Pre_finite_inputs.S_ 1) (h : andi x y ix0 = 1#1) : x ix0 = 1#1 ∧ y ix0 = 1#1 :=
  IntOp.andi_eq_one.1 h

/-- Arrays on which the precondition holds are real inputs with a 0/1 adjacency. -/
theorem inputs_of_pre [Cert.Pre_finite_inputs.Facts]
    (a0 : FVec Ideal Cert.Pre_finite_inputs.S4096x1024 .f32) (a1 : FVec Ideal Cert.Pre_finite_inputs.S4096x4096 .f32)
    (a2 : FVec Ideal Cert.Pre_finite_inputs.S1024x1024 .f32) (a3 : FVec Ideal Cert.Pre_finite_inputs.S1024 .f32)
    (a4 : FVec Ideal Cert.Pre_finite_inputs.S1024x1024 .f32) (a5 : FVec Ideal Cert.Pre_finite_inputs.S1024 .f32)
    (a6 : FVec Ideal Cert.Pre_finite_inputs.S1024x1024 .f32) (a7 : FVec Ideal Cert.Pre_finite_inputs.S1024 .f32)
    (h : Cert.Pre_finite_inputs.fn (F := Ideal) a0 a1 a2 a3 a4 a5 a6 a7 = fun _ => 1#1) :
    ∃ I : Inputs, Holds I a0 a1 a2 a3 a4 a5 a6 a7 := by
  -- the predicate at its one index, as the conjunction of its nine reductions
  have e := congrFun h ix0
  unfold Cert.Pre_finite_inputs.fn Cert.Pre_finite_inputs.fn_part1 Cert.Pre_finite_inputs.fn_part2 at e
  dsimp only at e
  obtain ⟨e, e8⟩ := andi_ix0 _ _ e
  obtain ⟨e, e7⟩ := andi_ix0 _ _ e
  obtain ⟨e, e6⟩ := andi_ix0 _ _ e
  obtain ⟨e, e5⟩ := andi_ix0 _ _ e
  obtain ⟨e, e4⟩ := andi_ix0 _ _ e
  obtain ⟨e, e3⟩ := andi_ix0 _ _ e
  obtain ⟨e, e2⟩ := andi_ix0 _ _ e
  obtain ⟨e0, e1⟩ := andi_ix0 _ _ e
  -- each reduction read back at every entry
  have f0 := all_finite a0 _ _ _ e0
  have f1 := all_finite a1 _ _ _ e1
  have f2 := all_finite a2 _ _ _ e2
  have f3 := all_finite a3 _ _ _ e3
  have f4 := all_finite a4 _ _ _ e4
  have f5 := all_finite a5 _ _ _ e5
  have f6 := all_finite a6 _ _ _ e6
  have f7 := all_finite a7 _ _ _ e7
  have z1 := all_zero_one a1 _ _ _ e8
  -- the real inputs are the entries' real parts
  refine ⟨{ x := fun i e => (a0 (ix2 i e)).toReal
            adj := fun i j => (a1 (ix2 i j)).toReal
            wq := fun d e => (a2 (ix2 d e)).toReal
            bq := fun d => (a3 (ix1 d)).toReal
            wk := fun d e => (a4 (ix2 d e)).toReal
            bk := fun d => (a5 (ix1 d)).toReal
            wv := fun d e => (a6 (ix2 d e)).toReal
            bv := fun d => (a7 (ix1 d)).toReal
            adj01 := ?_ }, ?_⟩
  · intro i j
    rcases z1 (ix2 i j) with hz | hz
    · left; show (a1 (ix2 i j)).toReal = 0; rw [hz]; exact EReal.toReal_zero
    · right; show (a1 (ix2 i j)).toReal = 1; rw [hz]; exact EReal.toReal_one
  · exact
      { x := fun i e => (EReal.coe_toReal (f0 (ix2 i e)).1 (f0 (ix2 i e)).2).symm
        adj := fun i j => (EReal.coe_toReal (f1 (ix2 i j)).1 (f1 (ix2 i j)).2).symm
        wq := fun d e => (EReal.coe_toReal (f2 (ix2 d e)).1 (f2 (ix2 d e)).2).symm
        bq := fun d => (EReal.coe_toReal (f3 (ix1 d)).1 (f3 (ix1 d)).2).symm
        wk := fun d e => (EReal.coe_toReal (f4 (ix2 d e)).1 (f4 (ix2 d e)).2).symm
        bk := fun d => (EReal.coe_toReal (f5 (ix1 d)).1 (f5 (ix1 d)).2).symm
        wv := fun d e => (EReal.coe_toReal (f6 (ix2 d e)).1 (f6 (ix2 d e)).2).symm
        bv := fun d => (EReal.coe_toReal (f7 (ix1 d)).1 (f7 (ix1 d)).2).symm }

end Cert.AttnInputs

end
-- ==== Proof.lean ====
/-
  Adjacency-masked self-attention over 4096 sentences of dimension 1024: a fused key/value projection followed by a
  flash-attention kernel (online softmax over 8 key tiles per query tile, the query projection fused in), against the
  plain jnp reference (whole score matrix, softmax, weighted sum, relu), equal as extended reals under the
  precondition: every input finite and every adjacency entry 0 or 1.

  Both programs compute the specification's `out` (Proof/Spec.lean). The kernel: the host stretch transposes the
  weights and folds the scale 1/32 into the query's; the projection region leaves the keys and values; in the attention
  region the scratch buffers carry, from key tile to key tile, the projected queries and the running maximum,
  denominator and numerator of each query row, each control case of the body being one textbook step
  (Proof/Step.lean); eight steps from the reset state give the softmax row (Proof/Online.lean), and the blocks
  written back at the last key tile cover the result array. The reference is read stage by stage (Proof/RefValue.lean).
  What joins the two: the scale distributes over the query's affine form; with a 0/1 adjacency the reference's
  product score·adj is zero exactly where the kernel's mask fires and is the score elsewhere; rescaling a partial sum
  of exponentials by e^(old max − new max) re-centres it; a sum of quotients by one positive denominator is the
  quotient of the sum.

  The three frames: each program runs to the end without a fault and leaves its arguments as launched — for the two
  kernel programs by the run of @main's segments (host stretch, projection region, attention region) with each region's
  body obligation, at the word-level instance and at the ideal one; for the reference by its run. The idealization
  rewrote nothing, so `preserves` is trivial.
-/
import proofs.«410202_j60206851555563_3_alg».proof.Defs
import proofs.«410202_j60206851555563_3_alg».proof.Proof.Gen.Kernel
import proofs.«410202_j60206851555563_3_alg».proof.Proof.Gen.KernelIdeal
import proofs.«410202_j60206851555563_3_alg».proof.Proof.Gen.ReferenceIdeal
import proofs.«410202_j60206851555563_3_alg».proof.Proof.Gen.ReferenceIdeal.Run
import proofs.«410202_j60206851555563_3_alg».proof.Proof.Gen.ReferenceIdeal.Read
import proofs.«410202_j60206851555563_3_alg».proof.Proof.Gen.Pre_finite_inputs
import proofs.«410202_j60206851555563_3_alg».proof.Proof.BitsWholeFrame
import proofs.«410202_j60206851555563_3_alg».proof.Proof.KernelValue
import proofs.«410202_j60206851555563_3_alg».proof.Proof.RefValue
import proofs.«410202_j60206851555563_3_alg».proof.Proof.InputsReal
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Whole.frame m ρ

theorem frame_pi : Cert.frame_KernelIdeal := fun m ρ _ => Cert.KernelIdeal.Whole.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's output in their result arrays, so with equal results. -/
theorem algebraic : Cert.algebraic_KernelIdeal_ReferenceIdeal := by
  intro m ρ m' ρ' hpre hagree
  choose I hI using fun c : Dev Cert.KernelIdeal.nD =>
    Cert.AttnInputs.inputs_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hpre c)
  refine ⟨fun c => Cert.KernelIdeal.Whole.W3 m ρ c (Proc.devRef .tc Cert.KernelIdeal.main_v11), ?_, ?_⟩
  · exact (θ_run Cert.KernelIdeal.defs _ _).mono (fun r h c =>
      ⟨h c _ (Cert.KernelIdeal.Whole.mem_uc Cert.KernelIdeal.main_v11 (by decide)),
       (h c _ (Cert.KernelIdeal.Whole.mem_uc Cert.KernelIdeal.main_arg0 (by decide))).trans (Cert.KernelIdeal.Whole.W3_main_arg0 m ρ c),
       (h c _ (Cert.KernelIdeal.Whole.mem_uc Cert.KernelIdeal.main_arg1 (by decide))).trans (Cert.KernelIdeal.Whole.W3_main_arg1 m ρ c),
       (h c _ (Cert.KernelIdeal.Whole.mem_uc Cert.KernelIdeal.main_arg2 (by decide))).trans (Cert.KernelIdeal.Whole.W3_main_arg2 m ρ c),
       (h c _ (Cert.KernelIdeal.Whole.mem_uc Cert.KernelIdeal.main_arg3 (by decide))).trans (Cert.KernelIdeal.Whole.W3_main_arg3 m ρ c),
       (h c _ (Cert.KernelIdeal.Whole.mem_uc Cert.KernelIdeal.main_arg4 (by decide))).trans (Cert.KernelIdeal.Whole.W3_main_arg4 m ρ c),
       (h c _ (Cert.KernelIdeal.Whole.mem_uc Cert.KernelIdeal.main_arg5 (by decide))).trans (Cert.KernelIdeal.Whole.W3_main_arg5 m ρ c),
       (h c _ (Cert.KernelIdeal.Whole.mem_uc Cert.KernelIdeal.main_arg6 (by decide))).trans (Cert.KernelIdeal.Whole.W3_main_arg6 m ρ c),
       (h c _ (Cert.KernelIdeal.Whole.mem_uc Cert.KernelIdeal.main_arg7 (by decide))).trans (Cert.KernelIdeal.Whole.W3_main_arg7 m ρ c)⟩)
      (Cert.KernelIdeal.Whole.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v35_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.AttnSpec.IsOut.unique (I c)
      (Cert.ReferenceIdeal.RefValue.ref_isOut (I c) _ _ _ _ _ _ _ _ (hI c))
      (Cert.KernelIdeal.Whole.kernel_isOut m ρ c (I c) (hI c))

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
